-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x1600000 : Shape := ⟨2, ![2, 1600000]⟩
abbrev S100000 : Shape := ⟨1, ![100000]⟩
abbrev S10x128 : Shape := ⟨2, ![10, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S128x3 .f32) (main_arg10 : FVec F S3 .f32) (main_v33 : IVec S_ 1) : IVec S_ 1 :=
  let main_v34 : FVec F S128x3 .f32 := Host.absf main_arg9
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x3 .f32) (main_arg10 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x10 .f32) (main_arg1 : IVec S2x1600000 32) (main_arg2 : IVec S100000 32) (main_arg3 : FVec F S10x128 .f32) (main_arg4 : FVec F S128 .f32) (main_arg5 : FVec F S128x128 .f32) (main_arg6 : FVec F S128 .f32) (main_arg7 : FVec F S128x128 .f32) (main_arg8 : FVec F S128 .f32) (main_arg9 : FVec F S128x3 .f32) (main_arg10 : FVec F S3 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S10x128 .f32 := Host.absf main_arg3
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x10 : Shape := ⟨2, ![100000, 10]⟩
abbrev S2x1600000 : Shape := ⟨2, ![2, 1600000]⟩
abbrev S100000 : Shape := ⟨1, ![100000]⟩
abbrev S10x128 : Shape := ⟨2, ![10, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x10 : Shape := ⟨2, ![5000, 10]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S64 : Shape := ⟨1, ![64]⟩
abbrev S64x1 : Shape := ⟨2, ![64, 1]⟩
abbrev S1x3 : Shape := ⟨2, ![1, 3]⟩
abbrev S64x3 : Shape := ⟨2, ![64, 3]⟩
abbrev S64x128 : Shape := ⟨2, ![64, 128]⟩
abbrev S5000x64 : Shape := ⟨2, ![5000, 64]⟩

abbrev nBuf : Space → Nat
  | .hbm => 94
  | .vmem => 35
  | .smem => 0
  | _ => 0

abbrev bufTy : (tb : Table) → Fin (tcTables nBuf tb) → BufTy
  | .hbm, ⟨0, _⟩ => ⟨S100000x10, .f32⟩
  | .hbm, ⟨1, _⟩ => ⟨S2x1600000, .i32⟩
  | .hbm, ⟨2, _⟩ => ⟨S100000, .i32⟩
  | .hbm, ⟨3, _⟩ => ⟨S10x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x3, .f32⟩
  | .hbm, ⟨10, _⟩ => ⟨S3, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .bf16⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x128, .bf16⟩
  | .hbm, ⟨43, _⟩ => ⟨S1700000x128, .f32⟩
  | .hbm, ⟨44, _⟩ => ⟨S_, .f32⟩
  | .hbm, ⟨45, _⟩ => ⟨S100000x128, .f32⟩
  | .hbm, ⟨46, _⟩ => ⟨S1700000x1, .i32⟩
  | .hbm, ⟨47, _⟩ => ⟨S100000x128, .f32⟩
  | .hbm, ⟨48, _⟩ => ⟨S1x128, .f32⟩
  | .hbm, ⟨49, _⟩ => ⟨S100000x128, .bf16⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .bf16⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .bf16⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .bf16⟩
  | .hbm, ⟨75, _⟩ => ⟨S1700000x128, .f32⟩
  | .hbm, ⟨76, _⟩ => ⟨S_, .f32⟩
  | .hbm, ⟨77, _⟩ => ⟨S100000x128, .f32⟩
  | .hbm, ⟨78, _⟩ => ⟨S1700000x1, .i32⟩
  | .hbm, ⟨79, _⟩ => ⟨S100000x128, .f32⟩
  | .hbm, ⟨80, _⟩ => ⟨S100000x1, .i32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S64, .f32⟩
  | .hbm, ⟨85, _⟩ => ⟨S100000x1, .i32⟩
  | .hbm, ⟨86, _⟩ => ⟨S64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64x1, .f32⟩
  | .hbm, ⟨91, _⟩ => ⟨S1x128, .f32⟩
  | .hbm, ⟨92, _⟩ => ⟨S1x3, .f32⟩
  | .hbm, ⟨93, _⟩ => ⟨S64x3, .f32⟩
  | .local _ .vmem, ⟨0, _⟩ => ⟨S5000x10, .f32⟩
  | .local _ .vmem, ⟨1, _⟩ => ⟨S5000x10, .f32⟩
  | .local _ .vmem, ⟨2, _⟩ => ⟨S10x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x128, .f32⟩
  | .local _ .vmem, ⟨21, _⟩ => ⟨S5000x128, .bf16⟩
  | .local _ .vmem, ⟨22, _⟩ => ⟨S5000x128, .bf16⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x1, .i32⟩
  | .local _ .vmem, ⟨29, _⟩ => ⟨S5000x1, .i32⟩
  | .local _ .vmem, ⟨30, _⟩ => ⟨S64x1, .f32⟩
  | .local _ .vmem, ⟨31, _⟩ => ⟨S128x3, .f32⟩
  | .local _ .vmem, ⟨32, _⟩ => ⟨S1x3, .f32⟩
  | .local _ .vmem, ⟨33, _⟩ => ⟨S64x3, .f32⟩
  | .local _ .vmem, ⟨34, _⟩ => ⟨S64x128, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem5_0 : DmaSem sig := 31
abbrev cc3_sem6_0 : DmaSem sig := 32
abbrev cc3_sem7_0 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v28 : BitVec 1 := Scalar.cmpi .eq arg0 c19_i32
  let v29 : BitVec 32 := Scalar.extui v28
  let c0_i32_12 : BitVec 32 := 0#32
  let v30 : BitVec 1 := Scalar.cmpi .ne v29 c0_i32_12
  v30

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x3 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x3 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x3 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x10_S5000x10_0_0 : ∀ a, (![0, 0] : Fin 2 → Nat) a + S5000x10.size a ≤ S5000x10.size a
  h_S5000x10 : 0 < S5000x10.numel
  bitsLt_bf16_f32 : FTy.bits .bf16 < FTy.bits .f32
  inb_S10x128_S10x128_0_0 : ∀ a, (![0, 0] : Fin 2 → Nat) a + S10x128.size a ≤ S10x128.size a
  h_S10x128 : 0 < S10x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S64 : S_.BroadcastsInDim S64 (![] : Fin 0 → Fin S64.rank)
  bcast_S100000_S100000x1_0 : S100000.BroadcastsInDim S100000x1 (![0] : Fin 1 → Fin S100000x1.rank)
  shapeCasts_S64_S64x1 : S64.ShapeCasts S64x1
  shapeCasts_S3_S1x3 : S3.ShapeCasts S1x3
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S5000x64_d1_w32 : S5000x64.Iotas .tc 32 [1]
  broadcasts_S5000x1_S5000x64 : S5000x1.Broadcasts S5000x64
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S64x3 : S1x3.Broadcasts S64x3
  inb_S64x3_S64x3_0_0 : ∀ a, (![0, 0] : Fin 2 → Nat) a + S64x3.size a ≤ S64x3.size a
  h_S64x3 : 0 < S64x3.numel
  scatter_S100000_S1700000x1_S1700000_n_0_0_1_wf : ScatterDims.WF S100000 S1700000x1 S1700000 [] [0] [0] 1
  dot_S5000x10_S10x128_S5000x128_1_0_0_1_n_n_wf : DotDims.WF S5000x10 S10x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S64_S100000x1_S100000_n_0_0_1_wf : ScatterDims.WF S64 S100000x1 S100000 [] [0] [0] 1
  dot_S5000x64_S5000x128_S64x128_0_0_1_1_n_n_wf : DotDims.WF S5000x64 S5000x128 S64x128 [0] [0] [1] [1] [] []
  dot_S64x128_S128x3_S64x3_1_0_0_1_n_n_wf : DotDims.WF S64x128 S128x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S100000x10.size a
  hwx0_0 : ∀ i : grid0.Coords, EltTy.bits .f32 = 32 ∨ (Rect.block (s := S100000x10) S5000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x128.size a ≤ S10x128.size a
  hwx0_1 : ∀ i : grid0.Coords, EltTy.bits .f32 = 32 ∨ (Rect.block (s := S10x128) S10x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .bf16 = 32 ∨ (Rect.block (s := S100000x128) S5000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .i32 = 32 ∨ (Rect.block (s := S100000x1) S5000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x1.size a ≤ S64x1.size a
  hwx3_4 : ∀ i : grid3.Coords, EltTy.bits .f32 = 32 ∨ (Rect.block (s := S64x1) S64x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x3.size a ≤ S128x3.size a
  hwx3_5 : ∀ i : grid3.Coords, EltTy.bits .f32 = 32 ∨ (Rect.block (s := S128x3) S128x3.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x3.size a ≤ S1x3.size a
  hwx3_6 : ∀ i : grid3.Coords, EltTy.bits .f32 = 32 ∨ (Rect.block (s := S1x3) S1x3.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x3.size a ≤ S64x3.size a
  hwx3_7 : ∀ i : grid3.Coords, EltTy.bits .f32 = 32 ∨ (Rect.block (s := S64x3) S64x3.size (cc3_transform_7 i) (hinb3_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x10_S10x128_S5000x128_1_0_0_1_n_n : DotDims S5000x10 S10x128 S5000x128 where
  lhsContracting := [1]
  rhsContracting := [0]
  lhsNonContracting := [0]
  rhsNonContracting := [1]
  lhsBatch := []
  rhsBatch := []
  wf := dot_S5000x10_S10x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x3_S64x3_1_0_0_1_n_n : DotDims S64x128 S128x3 S64x3 where
  lhsContracting := [1]
  rhsContracting := [0]
  lhsNonContracting := [0]
  rhsNonContracting := [1]
  lhsBatch := []
  rhsBatch := []
  wf := dot_S64x128_S128x3_S64x3_1_0_0_1_n_n_wf

abbrev win0_0 : Pipeline.Window sig grid0 :=
  Pipeline.Window.ofSpec (Memref.whole main_arg0) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v61) S64x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg9) S128x3.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S1x3.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v64) S64x3.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S100000x10 : Shape := ⟨2, ![100000, 10]⟩
abbrev S2x1600000 : Shape := ⟨2, ![2, 1600000]⟩
abbrev S100000 : Shape := ⟨1, ![100000]⟩
abbrev S10x128 : Shape := ⟨2, ![10, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x3 : Shape := ⟨2, ![64, 3]⟩
abbrev S1x3 : Shape := ⟨2, ![1, 3]⟩

abbrev nBuf : Space → Nat
  | .hbm => 137
  | .vmem => 0
  | .smem => 0
  | _ => 0

abbrev hbmTy0_0 (i : Nat) : BufTy := match i % 128 with
  | 0 => ⟨S100000x10, .f32⟩
  | 1 => ⟨S2x1600000, .i32⟩
  | 2 => ⟨S100000, .i32⟩
  | 3 => ⟨S10x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x3, .f32⟩
  | 10 => ⟨S3, .f32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x128, .f32⟩
  | 107 => ⟨S1700000x1, .f32⟩
  | 108 => ⟨S1700000x128, .f32⟩
  | 109 => ⟨S1700000x128, .f32⟩
  | 110 => ⟨S_, .f32⟩
  | 111 => ⟨S100000x128, .f32⟩
  | 112 => ⟨S1700000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S64x128, .f32⟩
  | 119 => ⟨S100000x1, .i32⟩
  | 120 => ⟨S64x128, .f32⟩
  | 121 => ⟨S_, .f32⟩
  | 122 => ⟨S100000, .f32⟩
  | 123 => ⟨S_, .f32⟩
  | 124 => ⟨S64, .f32⟩
  | 125 => ⟨S100000x1, .i32⟩
  | 126 => ⟨S64, .f32⟩
  | 127 => ⟨S_, .f32⟩
  | _ => ⟨S100000x10, .f32⟩

abbrev hbmTy0_1 (i : Nat) : BufTy := match i % 128 with
  | 0 => ⟨S64, .f32⟩
  | 1 => ⟨S64, .f32⟩
  | 2 => ⟨S64x1, .f32⟩
  | 3 => ⟨S64x128, .f32⟩
  | 4 => ⟨S64x128, .f32⟩
  | 5 => ⟨S64x3, .f32⟩
  | 6 => ⟨S1x3, .f32⟩
  | 7 => ⟨S64x3, .f32⟩
  | 8 => ⟨S64x3, .f32⟩
  | _ => ⟨S100000x10, .f32⟩

abbrev hbmTy (i : Nat) : BufTy := match i / 128 with
  | 0 => hbmTy0_0 i
  | 1 => hbmTy0_1 i
  | _ => ⟨S100000x10, .f32⟩

abbrev bufTy : (tb : Table) → Fin (tcTables nBuf tb) → BufTy
  | .hbm, ⟨i, _⟩ => hbmTy i
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x10_S10x128_S100000x128_1_0_0_1_n_n_wf : DotDims.WF S100000x10 S10x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x3_S64x3_1_0_0_1_n_n_wf : DotDims.WF S64x128 S128x3 S64x3 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x10_S10x128_S100000x128_1_0_0_1_n_n : DotDims S100000x10 S10x128 S100000x128 where
  lhsContracting := [1]
  rhsContracting := [0]
  lhsNonContracting := [0]
  rhsNonContracting := [1]
  lhsBatch := []
  rhsBatch := []
  wf := dot_S100000x10_S10x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x3_S64x3_1_0_0_1_n_n : DotDims S64x128 S128x3 S64x3 where
  lhsContracting := [1]
  rhsContracting := [0]
  lhsNonContracting := [0]
  rhsNonContracting := [1]
  lhsBatch := []
  rhsBatch := []
  wf := dot_S64x128_S128x3_S64x3_1_0_0_1_n_n_wf

class Facts : Prop extends Facts₀ where

variable [Facts]
-- ==== Proof.K.R0.lean ====
import proofs.«428485_j55886114456268_3_alg».proof.Proof.Gen.Kernel.Launch
import proofs.«428485_j55886114456268_3_alg».proof.Proof.Gen.Kernel.Skeleton
import proofs.«428485_j55886114456268_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the node features times the first weight matrix, scaled row by row -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: an unfetched window's block index has not
    moved. Window 0: the block of node features. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1: the weight matrix, whose block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2: the block of per-node scale factors. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S5000x10 := Rect.unit (s := S5000x10) ![0, 0] S5000x10.size inb_S5000x10_S5000x10_0_0
abbrev r0_w : Rect S10x128 := Rect.unit (s := S10x128) ![0, 0] S10x128.size inb_S10x128_S10x128_0_0
abbrev r0_d : Rect S5000x1 := Rect.unit (s := S5000x1) ![0, 0] S5000x1.size inb_S5000x1_S5000x1_0_0
abbrev r0_o : Rect S5000x128 := Rect.unit (s := S5000x128) ![0, 0] S5000x128.size inb_S5000x128_S5000x128_0_0

/-! ## What the body leaves in the output window's buffer -/

/-- The output's staging buffer after the body, from the three input blocks: its one store, whole. -/
def out0_3 (x0 : Vec F S5000x10 .f32) (x1 : Vec F S10x128 .f32) (x2 : Vec F S5000x1 .f32) : Vec F S5000x128 .bf16 :=
  View.canon [⟨r0_o, k0_pay1 (View.ld x0 r0_x) (View.ld x1 r0_w) (View.ld x2 r0_d)⟩]

/-- The store's rectangle is the whole buffer, so it covers it. -/
theorem cover0_3 (p0 : Vec F S5000x128 .bf16) (y : S5000x128.Idx) :
    ∃ pc ∈ ([⟨r0_o, p0⟩] : List (View.Piece (Elt F) S5000x128 .bf16)), y ∈ pc.1.set :=
  View.cover_of_tiled [⟨r0_o, p0⟩] S5000x128.size (by rfl) y

/-! ## The body's triple -/

set_option maxHeartbeats 1000000 in
/-- The kernel body on whole staging memrefs, the inputs' at read contents `x0 x1 x2` and the output's at anything, runs
    to the continuation holding the inputs' as they were and the output's at `out0_3` of the inputs'. -/
theorem sound_kernel0 (c : Dev nD) (E : Set ℕ) (i : grid0.Coords)
    (arg1 : Memref sig .tc .vmem S5000x10 .f32) (harg1 : arg1.IsWhole) (arg2 : Memref sig .tc .vmem S10x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x10 .f32) (x1 : Vec F S10x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_disscale_kernel i arg1 harg1 arg2 harg2 arg3 harg3 arg4 harg4) K := by
  simp only [cc0__matmul_disscale_kernel_eq_skeleton]; unfold cc0__matmul_disscale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of region 0 on core `c`: the arrays as the region finds them (`V`); after the body at point `t`
    each input's buffer at its block and the output's at `out0_3` of the input blocks; the invariant the scoped rest
    and the generator register, untouched; nothing owed; full shares. -/
def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 :=
  show Pipeline.ΦA spec0 c ⊢ Pipeline.ΦA spec0 c from Entails.refl _
/-- and the invariant after the last point gives it back. -/
theorem hout0 (c : Dev nD) : (dat0 V c).Φ (Fin.last cfg0.N) ⊢ Pipeline.ΦA spec0 c :=
  show Pipeline.ΦA spec0 c ⊢ Pipeline.ΦA spec0 c from Entails.refl _

end Cert.Kernel.Hand

end
-- ==== Proof.K.R1.lean ====
import proofs.«428485_j55886114456268_3_alg».proof.Proof.Gen.Kernel.Launch
import proofs.«428485_j55886114456268_3_alg».proof.Proof.Gen.Kernel.Skeleton
import proofs.«428485_j55886114456268_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 of @main: the second kernel call (bias, clamp at zero, matrix product, row scaling), at the entry
   contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s (`hA`) and whose body leaves the block in place (`hafter`): where the window is not
    fetched its block index has not moved, so the block of the point before is this point's. The aggregated rows: -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- the normalisation factors' column: -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- the bias row (one block, the same at every point): -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- the weight matrix (likewise one block): -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output's written, whole -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

/-! ## What the body leaves in the output window's buffer -/

/-- Window 4's staging buffer after the body, from the four input windows' blocks: its one store, of the payload
    computed from the four loads. -/
def out1_4 (xAgg : Vec F S5000x128 .f32) (xDis : Vec F S5000x1 .f32) (xB : Vec F S1x128 .f32) (xW : Vec F S128x128 .f32) :
    Vec F S5000x128 .bf16 :=
  View.canon [⟨r1_0, k1_pay1 (View.ld xDis r1_1) (View.ld xAgg r1_0) (View.ld xB r1_2) (View.ld xW r1_3)⟩]

/-- The store tiles the buffer, so it covers it. -/
theorem cover1_4 (p0 : Vec F S5000x128 .bf16) (y : S5000x128.Idx) :
    ∃ pc ∈ ([⟨r1_0, p0⟩] : List (View.Piece (Elt F) S5000x128 .bf16)), y ∈ pc.1.set :=
  View.cover_of_tiled [⟨r1_0, p0⟩] S5000x128.size (by rfl) y

/-! ## The body's triple -/

set_option maxHeartbeats 1000000 in
/-- The kernel body on whole staging memrefs, the inputs' at read contents and the output's at anything, runs to
    the continuation holding the inputs' as they were and the output's at `out1_4` of the inputs'. The body also
    loads the output buffer before it stores it; what it reads there is not used. -/
theorem sound_kernel1 (c : Dev nD) (E : Set ℕ) (i : grid1.Coords)
    (aAgg : Memref sig .tc .vmem S5000x128 .f32) (hAgg : aAgg.IsWhole) (aDis : Memref sig .tc .vmem S5000x1 .f32) (hDis : aDis.IsWhole)
    (aB : Memref sig .tc .vmem S1x128 .f32) (hB : aB.IsWhole) (aW : Memref sig .tc .vmem S128x128 .f32) (hW : aW.IsWhole)
    (aOut : Memref sig .tc .vmem S5000x128 .bf16) (hOut : aOut.IsWhole)
    (xAgg : Vec F S5000x128 .f32) (xDis : Vec F S5000x1 .f32) (xB : Vec F S1x128 .f32) (xW : Vec F S128x128 .f32) (K : PUnit → sProp 𝕄) :
    iprop(owns (c : Thread nD τ) aAgg fullShare xAgg ∗ owns (c : Thread nD τ) aDis fullShare xDis ∗ owns (c : Thread nD τ) aB fullShare xB
        ∗ owns (c : Thread nD τ) aW fullShare xW ∗ (∃ d, owns (c : Thread nD τ) aOut fullShare d)
        ∗ (iprop(owns (c : Thread nD τ) aAgg fullShare xAgg ∗ owns (c : Thread nD τ) aDis fullShare xDis ∗ owns (c : Thread nD τ) aB fullShare xB
            ∗ owns (c : Thread nD τ) aW fullShare xW ∗ owns (c : Thread nD τ) aOut fullShare (out1_4 xAgg xDis xB xW)) -∗ K ⟨⟩))
      ⊢ wp frame (wpE (defs₀ (F := F)) Variants.none c none) E (cc1__biasact_matmul_disscale_kernel i aAgg hAgg aDis hDis aB hB aW hW aOut hOut) K := by
  simp only [cc1__biasact_matmul_disscale_kernel_eq_skeleton]; unfold cc1__biasact_matmul_disscale_kernel_skel
  unfold owns
  iintro ⟨⟨%fAgg, %hfAgg, HAgg⟩, ⟨%fDis, %hfDis, HDis⟩, ⟨%fB, %hfB, HB⟩, ⟨%fW, %hfW, HW⟩, ⟨%dOut, %fOut, -, HOut⟩, Hk⟩
  subst hfAgg hfDis hfB hfW
  sl_exec
  sl_step
  iapply Hk
  isplitl [HAgg]
  · iexists fAgg; isplitr; · ipureintro; rfl
    iexact HAgg
  isplitl [HDis]
  · iexists fDis; isplitr; · ipureintro; rfl
    iexact HDis
  isplitl [HB]
  · iexists fB; isplitr; · ipureintro; rfl
    iexact HB
  isplitl [HW]
  · iexists fW; isplitr; · ipureintro; rfl
    iexact HW
  iexists _; isplitr
  swap; · iexact HOut
  ipureintro
  exact View.read_writes_eq_canon _ _ _ (cover1_4 _)

/-! ## The pipeline's proof data -/

/-- The proof data of pipeline 1 on core `c`: the arrays as the region finds them (`V`); after the body at point
    `t` each input's buffer at its block and the output's at `out1_4` of the input blocks; the invariant the scoped
    rest and the generator register, untouched; nothing owed; full shares. -/
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- Every share is the full one, -/
theorem q_eq1 (c : Dev nD) (w : Fin cfg1.W) : (dat1 V c).q w = fullShare := by
  dsimp only [dat1]

/-- and nothing is owed at any point. -/
theorem owed_eq1 (c : Dev nD) (t : Fin (cfg1.N + 1)) : (dat1 V c).owed t = 0 := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class's `ΦA`) is the invariant before the first point, -/
theorem hin1 (c : Dev nD) : Pipeline.ΦA spec1 c ⊢ (dat1 V c).Φ 0 :=
  show Pipeline.ΦA spec1 c ⊢ Pipeline.ΦA spec1 c from Entails.refl _
/-- and the invariant after the last point gives it back. -/
theorem hout1 (c : Dev nD) : (dat1 V c).Φ (Fin.last cfg1.N) ⊢ Pipeline.ΦA spec1 c :=
  show Pipeline.ΦA spec1 c ⊢ Pipeline.ΦA spec1 c from Entails.refl _

end Cert.Kernel.Hand

end
-- ==== Proof.K.R2.lean ====
import proofs.«428485_j55886114456268_3_alg».proof.Proof.Gen.Kernel.Launch
import proofs.«428485_j55886114456268_3_alg».proof.Proof.Gen.Kernel.Skeleton
import proofs.«428485_j55886114456268_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2 of @main: the second kernel call (bias, clamp at zero, matrix product, row scaling), at the entry
   contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s (`hA`) and whose body leaves the block in place (`hafter`): where the window is not
    fetched its block index has not moved, so the block of the point before is this point's. The aggregated rows: -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- the normalisation factors' column: -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- the bias row (one block, the same at every point): -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- the weight matrix (likewise one block): -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read, and the output's written, whole -/

abbrev r2_0 : Rect S5000x128 := Rect.unit (s := S5000x128) ![0, 0] S5000x128.size inb_S5000x128_S5000x128_0_0
abbrev r2_1 : Rect S5000x1 := Rect.unit (s := S5000x1) ![0, 0] S5000x1.size inb_S5000x1_S5000x1_0_0
abbrev r2_2 : Rect S1x128 := Rect.unit (s := S1x128) ![0, 0] S1x128.size inb_S1x128_S1x128_0_0
abbrev r2_3 : Rect S128x128 := Rect.unit (s := S128x128) ![0, 0] S128x128.size inb_S128x128_S128x128_0_0

/-! ## What the body leaves in the output window's buffer -/

/-- Window 4's staging buffer after the body, from the four input windows' blocks: its one store, of the payload
    computed from the four loads. -/
def out2_4 (xAgg : Vec F S5000x128 .f32) (xDis : Vec F S5000x1 .f32) (xB : Vec F S1x128 .f32) (xW : Vec F S128x128 .f32) :
    Vec F S5000x128 .bf16 :=
  View.canon [⟨r2_0, k2_pay1 (View.ld xDis r2_1) (View.ld xAgg r2_0) (View.ld xB r2_2) (View.ld xW r2_3)⟩]

/-- The store tiles the buffer, so it covers it. -/
theorem cover2_4 (p0 : Vec F S5000x128 .bf16) (y : S5000x128.Idx) :
    ∃ pc ∈ ([⟨r2_0, p0⟩] : List (View.Piece (Elt F) S5000x128 .bf16)), y ∈ pc.1.set :=
  View.cover_of_tiled [⟨r2_0, p0⟩] S5000x128.size (by rfl) y

/-! ## The body's triple -/

set_option maxHeartbeats 1000000 in
/-- The kernel body on whole staging memrefs, the inputs' at read contents and the output's at anything, runs to
    the continuation holding the inputs' as they were and the output's at `out2_4` of the inputs'. The body also
    loads the output buffer before it stores it; what it reads there is not used. -/
theorem sound_kernel2 (c : Dev nD) (E : Set ℕ) (i : grid2.Coords)
    (aAgg : Memref sig .tc .vmem S5000x128 .f32) (hAgg : aAgg.IsWhole) (aDis : Memref sig .tc .vmem S5000x1 .f32) (hDis : aDis.IsWhole)
    (aB : Memref sig .tc .vmem S1x128 .f32) (hB : aB.IsWhole) (aW : Memref sig .tc .vmem S128x128 .f32) (hW : aW.IsWhole)
    (aOut : Memref sig .tc .vmem S5000x128 .bf16) (hOut : aOut.IsWhole)
    (xAgg : Vec F S5000x128 .f32) (xDis : Vec F S5000x1 .f32) (xB : Vec F S1x128 .f32) (xW : Vec F S128x128 .f32) (K : PUnit → sProp 𝕄) :
    iprop(owns (c : Thread nD τ) aAgg fullShare xAgg ∗ owns (c : Thread nD τ) aDis fullShare xDis ∗ owns (c : Thread nD τ) aB fullShare xB
        ∗ owns (c : Thread nD τ) aW fullShare xW ∗ (∃ d, owns (c : Thread nD τ) aOut fullShare d)
        ∗ (iprop(owns (c : Thread nD τ) aAgg fullShare xAgg ∗ owns (c : Thread nD τ) aDis fullShare xDis ∗ owns (c : Thread nD τ) aB fullShare xB
            ∗ owns (c : Thread nD τ) aW fullShare xW ∗ owns (c : Thread nD τ) aOut fullShare (out2_4 xAgg xDis xB xW)) -∗ K ⟨⟩))
      ⊢ wp frame (wpE (defs₀ (F := F)) Variants.none c none) E (cc2__biasact_matmul_disscale_kernel i aAgg hAgg aDis hDis aB hB aW hW aOut hOut) K := by
  simp only [cc2__biasact_matmul_disscale_kernel_eq_skeleton]; unfold cc2__biasact_matmul_disscale_kernel_skel
  unfold owns
  iintro ⟨⟨%fAgg, %hfAgg, HAgg⟩, ⟨%fDis, %hfDis, HDis⟩, ⟨%fB, %hfB, HB⟩, ⟨%fW, %hfW, HW⟩, ⟨%dOut, %fOut, -, HOut⟩, Hk⟩
  subst hfAgg hfDis hfB hfW
  sl_exec
  sl_step
  iapply Hk
  isplitl [HAgg]
  · iexists fAgg; isplitr; · ipureintro; rfl
    iexact HAgg
  isplitl [HDis]
  · iexists fDis; isplitr; · ipureintro; rfl
    iexact HDis
  isplitl [HB]
  · iexists fB; isplitr; · ipureintro; rfl
    iexact HB
  isplitl [HW]
  · iexists fW; isplitr; · ipureintro; rfl
    iexact HW
  iexists _; isplitr
  swap; · iexact HOut
  ipureintro
  exact View.read_writes_eq_canon _ _ _ (cover2_4 _)

/-! ## The pipeline's proof data -/

/-- The proof data of pipeline 2 on core `c`: the arrays as the region finds them (`V`); after the body at point
    `t` each input's buffer at its block and the output's at `out2_4` of the input blocks; the invariant the scoped
    rest and the generator register, untouched; nothing owed; full shares. -/
def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- Every share is the full one, -/
theorem q_eq2 (c : Dev nD) (w : Fin cfg2.W) : (dat2 V c).q w = fullShare := by
  dsimp only [dat2]

/-- and nothing is owed at any point. -/
theorem owed_eq2 (c : Dev nD) (t : Fin (cfg2.N + 1)) : (dat2 V c).owed t = 0 := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class's `ΦA`) is the invariant before the first point, -/
theorem hin2 (c : Dev nD) : Pipeline.ΦA spec2 c ⊢ (dat2 V c).Φ 0 :=
  show Pipeline.ΦA spec2 c ⊢ Pipeline.ΦA spec2 c from Entails.refl _
/-- and the invariant after the last point gives it back. -/
theorem hout2 (c : Dev nD) : (dat2 V c).Φ (Fin.last cfg2.N) ⊢ Pipeline.ΦA spec2 c :=
  show Pipeline.ΦA spec2 c ⊢ Pipeline.ΦA spec2 c from Entails.refl _

end Cert.Kernel.Hand

end
-- ==== Proof.K.R3.lean ====
import proofs.«428485_j55886114456268_3_alg».proof.Proof.Gen.Kernel.Launch
import proofs.«428485_j55886114456268_3_alg».proof.Proof.Gen.Kernel.Skeleton
import proofs.«428485_j55886114456268_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Region 3: the pooling kernel

Twenty grid points. The kernel carries a scratch accumulator from point to point: under the first point's
condition it is reset to zero, at every point the point's block of rows is added into it, and under the last
point's condition the accumulator is divided by the counts, contracted with the head's weights, the head's bias
added, and the result stored to the output window, which is written back at that point only. -/

/-- The zero offsets of a rank-two rectangle, as a constant function. -/
theorem zero2_r3 : (![0, 0] : Fin 2 → ℕ) = fun _ => 0 := funext fun a => by fin_cases a <;> rfl

/-! ## The windows' blocks -/

/-- The block of window w at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's two conditions -/

/-- The first condition of the body (the reset of the accumulator), from the grid coordinates. -/
abbrev cond3_A (i : grid3.Coords) : Prop := (Scalar.cmpi .ne (Scalar.extui (Scalar.cmpi .eq (BitVec.ofNat 32 (i 0).val) 0#32)) 0#32) = 1#1
/-- It holds at the first point only. -/
theorem hcond3_A : ∀ t : Fin cfg3.N, cond3_A (grid3.coords t) ↔ t.val = 0 :=
  (by decide +kernel : ∀ t : Fin grid3.N, cond3_A (grid3.coords t) ↔ t.val = 0)

/-- The second condition of the body (the output's store), from the grid coordinates. -/
abbrev cond3_B (i : grid3.Coords) : Prop := k3_cond2 i = 1#1
/-- It holds at the last point only. -/
theorem hcond3_B : ∀ t : Fin cfg3.N, cond3_B (grid3.coords t) ↔ t.val = 19 :=
  (by decide +kernel : ∀ t : Fin grid3.N, cond3_B (grid3.coords t) ↔ t.val = 19)

/-! ## Where the windows are idle -/

/-- The output window is idle wherever the second condition fails, -/
theorem idleAt3_7 : ∀ t : Fin cfg3.N, ¬cond3_B (grid3.coords t) → cfg3.idle 7 (grid3.coords t) = true := by decide +kernel
/-- is not written back there, -/
theorem noFlush3_7 : ∀ t : Fin cfg3.N, ¬cond3_B (grid3.coords t) → (cfg3.win 7).flush t = false := by decide +kernel
/-- and is live where it holds. -/
theorem liveAt3_7 : ∀ t : Fin cfg3.N, cond3_B (grid3.coords t) → cfg3.idle 7 (grid3.coords t) = false := by decide +kernel

/-! ## The staging memrefs and the scratch -/

abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S5000x1 .i32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S64x1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x3 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x3 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S64x3 .f32 := win3_7.stage (cfg3.slots t 7)
abbrev hs3_7 (t : Fin cfg3.N) : (ms3_7 t).IsWhole := hstage3_7 ((cfg3.slots t 7).cast nbuf3_7)
/-- The scratch accumulator: a whole scoped buffer of the kernel's own, passed beside the windows. -/
abbrev scM3 : Memref sig .tc .vmem S64x128 .f32 := Memref.whole cc3_scratch0

/-- The class's invariant with the accumulator split off the other scoped buffers and owned as a memref at some
    contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
        ∗ (∃ r, prngReg c r)) := by
  unfold Pipeline.ΦA
  rw [Pipeline.scopedRest_split_of_list spec3 c [cc3_scratch0] (by decide) (by decide)]
  simp only [scM3, owns_whole]; try rfl

/-! ## The body's runs, case by case -/

/-- A store through the whole accumulator, last, covers every index. -/
theorem cover3_acc (w : Vec F S64x128 .f32) (L : List (View.Piece (Elt F) S64x128 .f32)) (y : S64x128.Idx) :
    ∃ pc ∈ ((⟨Rect.unit (s := S64x128) ![0, 0] S64x128.size inb_S64x128_S64x128_0_0, w⟩ : View.Piece (Elt F) S64x128 .f32) :: L), y ∈ pc.1.set :=
  ⟨_, List.mem_cons_self, View.mem_set_unit_zero zero2_r3 inb_S64x128_S64x128_0_0 y⟩

/-- A store through the whole output buffer, last, covers every index. -/
theorem cover3_out (w : Vec F S64x3 .f32) (L : List (View.Piece (Elt F) S64x3 .f32)) (y : S64x3.Idx) :
    ∃ pc ∈ ((⟨Rect.unit (s := S64x3) ![0, 0] S64x3.size inb_S64x3_S64x3_0_0, w⟩ : View.Piece (Elt F) S64x3 .f32) :: L), y ∈ pc.1.set :=
  ⟨_, List.mem_cons_self, View.mem_set_unit_zero zero2_r3 inb_S64x3_S64x3_0_0 y⟩

set_option maxHeartbeats 1000000 in
/-- The FIRST point (the first condition holds, the second fails): on whole memrefs, the inputs' at their contents,
    the output's at contents handed back untouched, the accumulator at anything, the body runs to the continuation
    holding the inputs' and the output's as they were and the accumulator at the point's rows added to the zeros. -/
theorem run3_A (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S64x1 .f32) (harg5 : arg5.IsWhole) (arg6 : Memref sig .tc .vmem S128x3 .f32) (harg6 : arg6.IsWhole) (arg7 : Memref sig .tc .vmem S1x3 .f32) (harg7 : arg7.IsWhole) (arg8 : Memref sig .tc .vmem S64x3 .f32) (harg8 : arg8.IsWhole) (arg9 : Memref sig .tc .vmem S64x128 .f32) (harg9 : arg9.IsWhole) (hcA : cond3_A i) (hcB : ¬cond3_B i)
    (x0 : Vec F S5000x128 .f32) (x1 : Vec F S5000x1 .f32) (x2 : Vec F S1x128 .f32) (x3 : Vec F S5000x1 .i32) (x4 : Vec F S64x1 .f32) (x5 : Vec F S128x3 .f32) (x6 : Vec F S1x3 .f32) (xi7 : Vec F S64x3 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare (k3_pay2 x1 x0 x2 x3 k3_pay1)) -∗ K ⟨⟩))
      ⊢ wp frame (wpE (defs₀ (F := F)) Variants.none c none) E (cc3__pool_linear_kernel i arg1 harg1 arg2 harg2 arg3 harg3 arg4 harg4 arg5 harg5 arg6 harg6 arg7 harg7 arg8 harg8 arg9 harg9) K := by
  simp only [cc3__pool_linear_kernel_eq_skeleton]; unfold cc3__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  subst hf0 hf1 hf2 hf3 hf4 hf5 hf6 hf7
  sl_exec (disch := first | exact hcA | exact hcB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  sl_unfold_run_names
  rw [View.read_writes_eq_canon _ _ _ (cover3_acc _ _), View.canon_cons_unit_zero zero2_r3]
  simp only [View.readCov_cons_toLoadRect, View.readAt_eq_ld, View.ld_unit_zero (S := S5000x128) zero2_r3, View.ld_unit_zero (S := S5000x1) zero2_r3, View.ld_unit_zero (S := S1x128) zero2_r3, View.ld_unit_zero (S := S64x128) zero2_r3, View.ld_unit_zero (S := S64x1) zero2_r3, View.ld_unit_zero (S := S128x3) zero2_r3, View.ld_unit_zero (S := S1x3) zero2_r3]

set_option maxHeartbeats 1000000 in
/-- A MIDDLE point (neither condition holds): the same with the accumulator at what the point before left, the
    point's rows added to it. -/
theorem run3_M (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S64x1 .f32) (harg5 : arg5.IsWhole) (arg6 : Memref sig .tc .vmem S128x3 .f32) (harg6 : arg6.IsWhole) (arg7 : Memref sig .tc .vmem S1x3 .f32) (harg7 : arg7.IsWhole) (arg8 : Memref sig .tc .vmem S64x3 .f32) (harg8 : arg8.IsWhole) (arg9 : Memref sig .tc .vmem S64x128 .f32) (harg9 : arg9.IsWhole) (hcA : ¬cond3_A i) (hcB : ¬cond3_B i)
    (x0 : Vec F S5000x128 .f32) (x1 : Vec F S5000x1 .f32) (x2 : Vec F S1x128 .f32) (x3 : Vec F S5000x1 .i32) (x4 : Vec F S64x1 .f32) (x5 : Vec F S128x3 .f32) (x6 : Vec F S1x3 .f32) (xi7 : Vec F S64x3 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare (k3_pay2 x1 x0 x2 x3 xs)) -∗ K ⟨⟩))
      ⊢ wp frame (wpE (defs₀ (F := F)) Variants.none c none) E (cc3__pool_linear_kernel i arg1 harg1 arg2 harg2 arg3 harg3 arg4 harg4 arg5 harg5 arg6 harg6 arg7 harg7 arg8 harg8 arg9 harg9) K := by
  simp only [cc3__pool_linear_kernel_eq_skeleton]; unfold cc3__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  subst hf0 hf1 hf2 hf3 hf4 hf5 hf6 hf7 hfs
  sl_exec (disch := first | exact hcA | exact hcB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  rw [View.read_writes_eq_canon _ _ _ (cover3_acc _ _), View.canon_cons_unit_zero zero2_r3]
  simp only [View.readAt_eq_ld, View.ld_unit_zero (S := S5000x128) zero2_r3, View.ld_unit_zero (S := S5000x1) zero2_r3, View.ld_unit_zero (S := S1x128) zero2_r3, View.ld_unit_zero (S := S64x128) zero2_r3, View.ld_unit_zero (S := S64x1) zero2_r3, View.ld_unit_zero (S := S128x3) zero2_r3, View.ld_unit_zero (S := S1x3) zero2_r3]

set_option maxHeartbeats 1000000 in
/-- The LAST point (the first condition fails, the second holds): the output's buffer at anything; the body leaves
    the accumulator with the point's rows added and stores to the output's buffer that accumulator divided by the
    counts, times the head's weights, plus the head's bias. -/
theorem run3_L (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S64x1 .f32) (harg5 : arg5.IsWhole) (arg6 : Memref sig .tc .vmem S128x3 .f32) (harg6 : arg6.IsWhole) (arg7 : Memref sig .tc .vmem S1x3 .f32) (harg7 : arg7.IsWhole) (arg8 : Memref sig .tc .vmem S64x3 .f32) (harg8 : arg8.IsWhole) (arg9 : Memref sig .tc .vmem S64x128 .f32) (harg9 : arg9.IsWhole) (hcA : ¬cond3_A i) (hcB : cond3_B i)
    (x0 : Vec F S5000x128 .f32) (x1 : Vec F S5000x1 .f32) (x2 : Vec F S1x128 .f32) (x3 : Vec F S5000x1 .i32) (x4 : Vec F S64x1 .f32) (x5 : Vec F S128x3 .f32) (x6 : Vec F S1x3 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k3_pay3 (k3_pay2 x1 x0 x2 x3 xs) x4 x5 x6)
            ∗ owns (c : Thread nD τ) arg9 fullShare (k3_pay2 x1 x0 x2 x3 xs)) -∗ K ⟨⟩))
      ⊢ wp frame (wpE (defs₀ (F := F)) Variants.none c none) E (cc3__pool_linear_kernel i arg1 harg1 arg2 harg2 arg3 harg3 arg4 harg4 arg5 harg5 arg6 harg6 arg7 harg7 arg8 harg8 arg9 harg9) K := by
  simp only [cc3__pool_linear_kernel_eq_skeleton]; unfold cc3__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0 hf1 hf2 hf3 hf4 hf5 hf6 hfs
  sl_exec (disch := first | exact hcA | exact hcB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [View.read_writes_eq_canon _ _ _ (cover3_out _ _), View.canon_cons_unit_zero zero2_r3]
    simp only [View.readCov_cons_toLoadRect, View.readAt_eq_ld, View.ld_unit_zero (S := S5000x128) zero2_r3, View.ld_unit_zero (S := S5000x1) zero2_r3, View.ld_unit_zero (S := S1x128) zero2_r3, View.ld_unit_zero (S := S64x128) zero2_r3, View.ld_unit_zero (S := S64x1) zero2_r3, View.ld_unit_zero (S := S128x3) zero2_r3, View.ld_unit_zero (S := S1x3) zero2_r3]
  iexists _; isplitr
  swap; · iexact HS
  ipureintro
  sl_unfold_run_names
  rw [View.read_writes_eq_canon _ _ _ (cover3_acc _ _), View.canon_cons_unit_zero zero2_r3]
  simp only [View.readAt_eq_ld, View.ld_unit_zero (S := S5000x128) zero2_r3, View.ld_unit_zero (S := S5000x1) zero2_r3, View.ld_unit_zero (S := S1x128) zero2_r3, View.ld_unit_zero (S := S64x128) zero2_r3, View.ld_unit_zero (S := S64x1) zero2_r3, View.ld_unit_zero (S := S128x3) zero2_r3, View.ld_unit_zero (S := S1x3) zero2_r3]
/-! ## What the accumulator and the output window hold, point by point -/

/-- THE ACCUMULATION. What the scratch holds after the body at position n: the point's rows (each scaled by its
    node's factor, the bias added) summed per graph by the one-hot of the batch ids, added to what the point before
    left; at the first point to the zeros the reset leaves. -/
def acc3 (c : Dev nD) : (n : ℕ) → n < cfg3.N → Vec F S64x128 .f32
  | 0, hn => k3_pay2 (iblk3 V c 1 ⟨0, hn⟩) (iblk3 V c 0 ⟨0, hn⟩) (iblk3 V c 2 ⟨0, hn⟩) (iblk3 V c 3 ⟨0, hn⟩) k3_pay1
  | n + 1, hn => k3_pay2 (iblk3 V c 1 ⟨n + 1, hn⟩) (iblk3 V c 0 ⟨n + 1, hn⟩) (iblk3 V c 2 ⟨n + 1, hn⟩) (iblk3 V c 3 ⟨n + 1, hn⟩)
      (acc3 c n (Nat.lt_of_succ_lt hn))

theorem acc3_zero (c : Dev nD) (t : Fin cfg3.N) (h : t.val = 0) :
    acc3 V c t.val t.isLt = k3_pay2 (iblk3 V c 1 t) (iblk3 V c 0 t) (iblk3 V c 2 t) (iblk3 V c 3 t) k3_pay1 := by
  obtain ⟨n, hn⟩ := t
  cases n with
  | zero => rfl
  | succ n => exact absurd h (Nat.succ_ne_zero n)

theorem acc3_pos (c : Dev nD) (t : Fin cfg3.N) (h : t.val ≠ 0) :
    acc3 V c t.val t.isLt = k3_pay2 (iblk3 V c 1 t) (iblk3 V c 0 t) (iblk3 V c 2 t) (iblk3 V c 3 t)
      (acc3 V c (t.val - 1) (Nat.lt_of_le_of_lt (Nat.sub_le _ _) t.isLt)) := by
  obtain ⟨n, hn⟩ := t
  cases n with
  | zero => exact absurd rfl h
  | succ n => rfl

/-- What the output window's staging buffer holds after the body at point t, where the body stores it (the last
    point): the accumulator after that point divided by the counts, times the head's weights, plus the head's bias.
    At the other points the window is idle and this is not consulted. -/
def out3 (c : Dev nD) (t : Fin cfg3.N) : Vec F S64x3 .f32 :=
  k3_pay3 (acc3 V c t.val t.isLt) (iblk3 V c 4 t) (iblk3 V c 5 t) (iblk3 V c 6 t)

/-- The region invariant before position n: before the first point the class's; afterwards the accumulator at
    what the point before left, the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
        ∗ Pipeline.scopedRestBut (Ix := Unit) (Name := ℕ) (U := UR sig nD τ) (Lvl := ℕ) (Val := Elt F) spec3 c [cc3_scratch0])
      ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn)
        ∗ Pipeline.scopedRestBut (Ix := Unit) (Name := ℕ) (U := UR sig nD τ) (Lvl := ℕ) (Val := Elt F) spec3 c [cc3_scratch0])
      ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega))
        ∗ Pipeline.scopedRestBut (Ix := Unit) (Name := ℕ) (U := UR sig nD τ) (Lvl := ℕ) (Val := Elt F) spec3 c [cc3_scratch0])
      ∗ (∃ r, prngReg c r)) := by
  cases n with
  | zero => exact absurd rfl hz
  | succ n => rfl

/-! ## The pipeline's proof data -/

/-- Region 3's proof data at the entry contents V: the arrays as the region finds them; after the body at point
    t each input's buffer at its block and the output's at out3; the invariant PhiS3; nothing owed; full shares. -/
def dat3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) (t : Fin (cfg3.N + 1)) : (dat3 V c).owed t = 0 := by
  dsimp only [dat3]

/-- The invariant at a point's start, restated at the point's number. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3 V c t := by dsimp only [dat3]

/-! ## The body obligation, at a generic point -/

/-- No input window is ever idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
theorem liveAt3_6 : ∀ t : Fin cfg3.N, cfg3.idle 6 (grid3.coords t) = false := fun _ => rfl

/-- Each input's current staging buffer holds its block at every point, fetched there or not: unfetched, the block
    index has not moved, and the body leaves the block in place. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point. The inputs' memrefs hold their blocks; the point's number says which of the three cases
    it is in; the invariant hands the body the accumulator at what the point before left (at anything at the first
    point) and takes it back with this point's rows added; where the second condition fails the output window is
    idle and not written back, and its buffer goes back as found; at the last point it is live and holds the head's
    result; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  have hN : t.val < 20 := lt_of_lt_of_eq t.isLt (show cfg3.N = 20 from N_3)
  by_cases h0 : t.val = 0
  · have h19 : ¬t.val = 19 := by omega
    rw [Dat.leavesExact_idle (dat3 V c) 7 t (idleAt3_7 t (fun h => h19 ((hcond3_B t).mp h))) (noFlush3_7 t (fun h => h19 ((hcond3_B t).mp h)))]
    rw [acc3_zero V c t h0, PhiS3_castSucc V c t, PhiS3_zero V c _ _ h0, PhiA3_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run3_A c (grid3.coords t) _ _ _ _ _ _ _ _ _ _ _ _ _ _ _ _ _ _ ((hcond3_A t).mpr h0) (fun h => h19 ((hcond3_B t).mp h)) (iblk3 V c 0 t) (iblk3 V c 1 t) (iblk3 V c 2 t) (iblk3 V c 3 t) (iblk3 V c 4 t) (iblk3 V c 5 t) (iblk3 V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h19 : t.val = 19
    · rw [show (dat3 V c).leavesExact 7 t = owns (c : Thread nD τ) (ms3_7 t) fullShare ((dat3 V c).after 7 t) from by
        unfold Dat.leavesExact; rw [liveAt3_7 t ((hcond3_B t).mpr h19)], after3_7]
      unfold out3
      rw [acc3_pos V c t h0, PhiS3_castSucc V c t, PhiS3_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3_L c (grid3.coords t) _ _ _ _ _ _ _ _ _ _ _ _ _ _ _ _ _ _ (fun h => h0 ((hcond3_A t).mp h)) ((hcond3_B t).mpr h19) (iblk3 V c 0 t) (iblk3 V c 1 t) (iblk3 V c 2 t) (iblk3 V c 3 t) (iblk3 V c 4 t) (iblk3 V c 5 t) (iblk3 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat3 V c) 7 t (idleAt3_7 t (fun h => h19 ((hcond3_B t).mp h))) (noFlush3_7 t (fun h => h19 ((hcond3_B t).mp h)))]
      rw [acc3_pos V c t h0, PhiS3_castSucc V c t, PhiS3_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3_M c (grid3.coords t) _ _ _ _ _ _ _ _ _ _ _ _ _ _ _ _ _ _ (fun h => h0 ((hcond3_A t).mp h)) (fun h => h19 ((hcond3_B t).mp h)) (iblk3 V c 0 t) (iblk3 V c 1 t) (iblk3 V c 2 t) (iblk3 V c 3 t) (iblk3 V c 4 t) (iblk3 V c 5 t) (iblk3 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region (the class's invariant) is the invariant before the first point, -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's named contents are
    forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- and the invariant after the last point gives it back. -/
theorem hout3 (c : Dev nD) : (dat3 V c).Φ (Fin.last cfg3.N) ⊢ Pipeline.ΦA spec3 c :=
  Phi3_out V c _ (by rw [Fin.val_last]; have : cfg3.N = 20 := N_3; omega)

end Cert.Kernel.Hand

end
-- ==== Proof.K.RunCond.lean ====
/-
  The run of the whole program from the records of its four kernel regions, the result buffer named.
  The statement and its proof follow the generated conditional frame of this program; the one addition is the
  result buffer's contents in the post.
-/
import proofs.«428485_j55886114456268_3_alg».proof.Proof.Gen.Kernel.Regions

set_option maxRecDepth 1028

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- After the last region the result buffer holds what that region is stated to leave there. -/
theorem V10_main_v64 (outs : Outs (F := F)) (c : Dev nD) : V10 m outs c main_v64 = outs 10 main_v64 c := by
  unfold V10; exact Function.update_self _ _ _

set_option backward.isDefEq.respectTransparency.types false in
/-- The run of @main given the four regions' records, with the RESULT named: the hypotheses are those of the generated
    conditional frame, and the post also says that the result buffer `main_v64` ends at what the last region is
    stated to leave there (`outs 10 main_v64`), beside every argument array ending as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c)) :
    θ_run defs (onTc (τ := τ) (main (F := F))) ⟨m, fun _ => 0, ρ⟩ (fun r => ∀ c : Dev nD,
      r.2.mem ((c.tc : Thread nD τ).loc main_v64) = outs 10 main_v64 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, hpre0 c, hpost0 c, hpre1 c, hpost1 c, hpre2 c, hpost2 c, hpre3 c, (hpost3 c).trans (sep_mono .rfl (hE4 c))⟩)
    (hinit := ?_) (QY := fun c s => s.mem ((c.tc : Thread nD τ).loc main_v64) = outs 10 main_v64 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨(h (Proc.devRef .tc main_v64) (Finset.mem_filter.mpr ⟨StableHlo.devRef_mem_tcRefs main_v64, by decide⟩)).trans (V10_main_v64 m outs c),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c),
        (h (Proc.devRef .tc main_arg5) (Finset.mem_filter.mpr ⟨StableHlo.devRef_mem_tcRefs main_arg5, by decide⟩)).trans (V10_main_arg5 m outs c),
        (h (Proc.devRef .tc main_arg6) (Finset.mem_filter.mpr ⟨StableHlo.devRef_mem_tcRefs main_arg6, by decide⟩)).trans (V10_main_arg6 m outs c),
        (h (Proc.devRef .tc main_arg7) (Finset.mem_filter.mpr ⟨StableHlo.devRef_mem_tcRefs main_arg7, by decide⟩)).trans (V10_main_arg7 m outs c),
        (h (Proc.devRef .tc main_arg8) (Finset.mem_filter.mpr ⟨StableHlo.devRef_mem_tcRefs main_arg8, by decide⟩)).trans (V10_main_arg8 m outs c),
        (h (Proc.devRef .tc main_arg9) (Finset.mem_filter.mpr ⟨StableHlo.devRef_mem_tcRefs main_arg9, by decide⟩)).trans (V10_main_arg9 m outs c),
        (h (Proc.devRef .tc main_arg10) (Finset.mem_filter.mpr ⟨StableHlo.devRef_mem_tcRefs main_arg10, by decide⟩)).trans (V10_main_arg10 m outs c)⟩
    · iexact HSI

end Cert.Kernel.Hand

end
-- ==== Proof.K.Run.lean ====
/-
  The run of the kernel program: the buffers' contents at every boundary between a host stretch and a kernel
  region, each region's proof data at the contents it is entered with, the four regions as segments of the
  several-regions launch, and the run itself — every weakly fair execution terminates with the result buffer at
  what the last region's write-back leaves and every argument as launched.
-/
import proofs.«428485_j55886114456268_3_alg».proof.Proof.K.R0
import proofs.«428485_j55886114456268_3_alg».proof.Proof.K.R1
import proofs.«428485_j55886114456268_3_alg».proof.Proof.K.R2
import proofs.«428485_j55886114456268_3_alg».proof.Proof.K.R3
import proofs.«428485_j55886114456268_3_alg».proof.Proof.K.RunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at the boundaries -/

/-- The buffers when region 0 is entered: the launch contents after the three host stretches before it. -/
abbrev U3 (c : Dev nD) : Valuation τ sig (Elt F) := V3 m c

/-! ## Region 0 (item 3): entered at `U3`, left at `U4` -/

/-- The TensorCore's buffers when region 0 is entered, read at the TensorCore's references. -/
abbrev E0 (c : Dev nD) (b : Ref sig .tc) : Buf (Elt F) ((c : Thread nD τ).loc b) := U3 m c b

/-- Region 0's arrays at what its write-backs leave (the inputs as entered, the output's blocks folded), every other
    buffer as entered. -/
def X4 (c : Dev nD) : Valuation τ sig (Elt F) :=
  Pipeline.withArrays spec0 c (U3 m c) fun w => (dat0 (E0 m) c).arrAt w cfg0.N

theorem X4_arr (c : Dev nD) (w : Fin cfg0.W) :
    X4 m c (Proc.devRef .tc (Pipeline.arrRef spec0 w)) = (dat0 (E0 m) c).arrAt w cfg0.N := by
  unfold X4; exact Pipeline.withArrays_arr spec0 launch0.win.arr_inj c _ _ w

/-- The buffers after region 0: as entered but for its output buffer `main_v16`. -/
abbrev U4 (c : Dev nD) : Valuation τ sig (Elt F) := Function.update (U3 m c) main_v16 (X4 m c main_v16)
/-- and after the host stretch `hostOps1` that follows. -/
abbrev U5 (c : Dev nD) : Valuation τ sig (Elt F) := StableHlo.after hostOps1 (U4 m c)

/-- At region 0's exit each of its arrays holds what the pipeline leaves: an input as entered, the output its folded
    write-backs. -/
theorem hF0 (c : Dev nD) : ∀ w : Fin cfg0.W, (dat0 (E0 m) c).arrAt w cfg0.N = U4 m c (Pipeline.arrRef spec0 w)
  | ⟨0, _⟩ => ((dat0 (E0 m) c).arrAt_in 0 rfl _).trans ((A_eq0 (E0 m) c 0).trans (Function.update_of_ne (StableHlo.devRef_ne_of_ne (by decide)) _ _).symm)
  | ⟨1, _⟩ => ((dat0 (E0 m) c).arrAt_in 1 rfl _).trans ((A_eq0 (E0 m) c 1).trans (Function.update_of_ne (StableHlo.devRef_ne_of_ne (by decide)) _ _).symm)
  | ⟨2, _⟩ => ((dat0 (E0 m) c).arrAt_in 2 rfl _).trans ((A_eq0 (E0 m) c 2).trans (Function.update_of_ne (StableHlo.devRef_ne_of_ne (by decide)) _ _).symm)
  | ⟨3, _⟩ => by
      show (dat0 (E0 m) c).arrAt 3 cfg0.N
        = Function.update (U3 m c) (Proc.devRef .tc main_v16) (X4 m c (Proc.devRef .tc main_v16)) (Proc.devRef .tc main_v16)
      rw [Function.update_self]; exact (X4_arr m c 3).symm

/-- and every other buffer what it held at entry. -/
theorem hrest0 (c : Dev nD) : ∀ b : Ref sig .tc, b ∉ Finset.univ.image (Pipeline.arrRef spec0) → U4 m c b = U3 m c b :=
  fun b hb => Function.update_of_ne (StableHlo.devRef_ne_of_ne fun e => hb (Finset.mem_image.mpr ⟨3, Finset.mem_univ _, e.symm⟩)) _ _

/-! ## Region 1 (item 5): entered at `U5`, left at `U6` -/

/-- The TensorCore's buffers when region 1 is entered, read at the TensorCore's references. -/
abbrev E1 (c : Dev nD) (b : Ref sig .tc) : Buf (Elt F) ((c : Thread nD τ).loc b) := U5 m c b

/-- Region 1's arrays at what its write-backs leave (the inputs as entered, the output's blocks folded), every other
    buffer as entered. -/
def X6 (c : Dev nD) : Valuation τ sig (Elt F) :=
  Pipeline.withArrays spec1 c (U5 m c) fun w => (dat1 (E1 m) c).arrAt w cfg1.N

theorem X6_arr (c : Dev nD) (w : Fin cfg1.W) :
    X6 m c (Proc.devRef .tc (Pipeline.arrRef spec1 w)) = (dat1 (E1 m) c).arrAt w cfg1.N := by
  unfold X6; exact Pipeline.withArrays_arr spec1 launch1.win.arr_inj c _ _ w

/-- The buffers after region 1: as entered but for its output buffer `main_v29`. -/
abbrev U6 (c : Dev nD) : Valuation τ sig (Elt F) := Function.update (U5 m c) main_v29 (X6 m c main_v29)
/-- and after the host stretch `hostOps2` that follows. -/
abbrev U7 (c : Dev nD) : Valuation τ sig (Elt F) := StableHlo.after hostOps2 (U6 m c)

set_option maxHeartbeats 2000000 in
/-- At region 1's exit each of its arrays holds what the pipeline leaves: an input as entered, the output its folded
    write-backs. -/
theorem hF1 (c : Dev nD) : ∀ w : Fin cfg1.W, (dat1 (E1 m) c).arrAt w cfg1.N = U6 m c (Pipeline.arrRef spec1 w)
  | ⟨0, _⟩ => ((dat1 (E1 m) c).arrAt_in 0 rfl _).trans ((A_eq1 (E1 m) c 0).trans (Function.update_of_ne (StableHlo.devRef_ne_of_ne (by decide)) _ _).symm)
  | ⟨1, _⟩ => ((dat1 (E1 m) c).arrAt_in 1 rfl _).trans ((A_eq1 (E1 m) c 1).trans (Function.update_of_ne (StableHlo.devRef_ne_of_ne (by decide)) _ _).symm)
  | ⟨2, _⟩ => ((dat1 (E1 m) c).arrAt_in 2 rfl _).trans ((A_eq1 (E1 m) c 2).trans (Function.update_of_ne (StableHlo.devRef_ne_of_ne (by decide)) _ _).symm)
  | ⟨3, _⟩ => ((dat1 (E1 m) c).arrAt_in 3 rfl _).trans ((A_eq1 (E1 m) c 3).trans (Function.update_of_ne (StableHlo.devRef_ne_of_ne (by decide)) _ _).symm)
  | ⟨4, _⟩ => by
      show (dat1 (E1 m) c).arrAt 4 cfg1.N
        = Function.update (U5 m c) (Proc.devRef .tc main_v29) (X6 m c (Proc.devRef .tc main_v29)) (Proc.devRef .tc main_v29)
      rw [Function.update_self]; exact (X6_arr m c 4).symm

/-- and every other buffer what it held at entry. -/
theorem hrest1 (c : Dev nD) : ∀ b : Ref sig .tc, b ∉ Finset.univ.image (Pipeline.arrRef spec1) → U6 m c b = U5 m c b :=
  fun b hb => Function.update_of_ne (StableHlo.devRef_ne_of_ne fun e => hb (Finset.mem_image.mpr ⟨4, Finset.mem_univ _, e.symm⟩)) _ _

/-! ## Region 2 (item 7): entered at `U7`, left at `U8` -/

/-- The TensorCore's buffers when region 2 is entered, read at the TensorCore's references. -/
abbrev E2 (c : Dev nD) (b : Ref sig .tc) : Buf (Elt F) ((c : Thread nD τ).loc b) := U7 m c b

/-- Region 2's arrays at what its write-backs leave (the inputs as entered, the output's blocks folded), every other
    buffer as entered. -/
def X8 (c : Dev nD) : Valuation τ sig (Elt F) :=
  Pipeline.withArrays spec2 c (U7 m c) fun w => (dat2 (E2 m) c).arrAt w cfg2.N

theorem X8_arr (c : Dev nD) (w : Fin cfg2.W) :
    X8 m c (Proc.devRef .tc (Pipeline.arrRef spec2 w)) = (dat2 (E2 m) c).arrAt w cfg2.N := by
  unfold X8; exact Pipeline.withArrays_arr spec2 launch2.win.arr_inj c _ _ w

/-- The buffers after region 2: as entered but for its output buffer `main_v42`. -/
abbrev U8 (c : Dev nD) : Valuation τ sig (Elt F) := Function.update (U7 m c) main_v42 (X8 m c main_v42)
/-- and after the host stretch `hostOps3` that follows. -/
abbrev U9 (c : Dev nD) : Valuation τ sig (Elt F) := StableHlo.after hostOps3 (U8 m c)

set_option maxHeartbeats 2000000 in
/-- At region 2's exit each of its arrays holds what the pipeline leaves: an input as entered, the output its folded
    write-backs. -/
theorem hF2 (c : Dev nD) : ∀ w : Fin cfg2.W, (dat2 (E2 m) c).arrAt w cfg2.N = U8 m c (Pipeline.arrRef spec2 w)
  | ⟨0, _⟩ => ((dat2 (E2 m) c).arrAt_in 0 rfl _).trans ((A_eq2 (E2 m) c 0).trans (Function.update_of_ne (StableHlo.devRef_ne_of_ne (by decide)) _ _).symm)
  | ⟨1, _⟩ => ((dat2 (E2 m) c).arrAt_in 1 rfl _).trans ((A_eq2 (E2 m) c 1).trans (Function.update_of_ne (StableHlo.devRef_ne_of_ne (by decide)) _ _).symm)
  | ⟨2, _⟩ => ((dat2 (E2 m) c).arrAt_in 2 rfl _).trans ((A_eq2 (E2 m) c 2).trans (Function.update_of_ne (StableHlo.devRef_ne_of_ne (by decide)) _ _).symm)
  | ⟨3, _⟩ => ((dat2 (E2 m) c).arrAt_in 3 rfl _).trans ((A_eq2 (E2 m) c 3).trans (Function.update_of_ne (StableHlo.devRef_ne_of_ne (by decide)) _ _).symm)
  | ⟨4, _⟩ => by
      show (dat2 (E2 m) c).arrAt 4 cfg2.N
        = Function.update (U7 m c) (Proc.devRef .tc main_v42) (X8 m c (Proc.devRef .tc main_v42)) (Proc.devRef .tc main_v42)
      rw [Function.update_self]; exact (X8_arr m c 4).symm

/-- and every other buffer what it held at entry. -/
theorem hrest2 (c : Dev nD) : ∀ b : Ref sig .tc, b ∉ Finset.univ.image (Pipeline.arrRef spec2) → U8 m c b = U7 m c b :=
  fun b hb => Function.update_of_ne (StableHlo.devRef_ne_of_ne fun e => hb (Finset.mem_image.mpr ⟨4, Finset.mem_univ _, e.symm⟩)) _ _

/-! ## Region 3 (item 9): entered at `U9`, left at `U10` -/

/-- The TensorCore's buffers when region 3 is entered, read at the TensorCore's references. -/
abbrev E3 (c : Dev nD) (b : Ref sig .tc) : Buf (Elt F) ((c : Thread nD τ).loc b) := U9 m c b

/-- Region 3's arrays at what its write-backs leave (the inputs as entered, the output's blocks folded), every other
    buffer as entered. -/
def X10 (c : Dev nD) : Valuation τ sig (Elt F) :=
  Pipeline.withArrays spec3 c (U9 m c) fun w => (dat3 (E3 m) c).arrAt w cfg3.N

theorem X10_arr (c : Dev nD) (w : Fin cfg3.W) :
    X10 m c (Proc.devRef .tc (Pipeline.arrRef spec3 w)) = (dat3 (E3 m) c).arrAt w cfg3.N := by
  unfold X10; exact Pipeline.withArrays_arr spec3 launch3.win.arr_inj c _ _ w

/-- The buffers after region 3: as entered but for its output buffer `main_v64`. -/
abbrev U10 (c : Dev nD) : Valuation τ sig (Elt F) := Function.update (U9 m c) main_v64 (X10 m c main_v64)

set_option maxHeartbeats 2000000 in
/-- At region 3's exit each of its arrays holds what the pipeline leaves: an input as entered, the output its folded
    write-backs. -/
theorem hF3 (c : Dev nD) : ∀ w : Fin cfg3.W, (dat3 (E3 m) c).arrAt w cfg3.N = U10 m c (Pipeline.arrRef spec3 w)
  | ⟨0, _⟩ => ((dat3 (E3 m) c).arrAt_in 0 rfl _).trans ((A_eq3 (E3 m) c 0).trans (Function.update_of_ne (StableHlo.devRef_ne_of_ne (by decide)) _ _).symm)
  | ⟨1, _⟩ => ((dat3 (E3 m) c).arrAt_in 1 rfl _).trans ((A_eq3 (E3 m) c 1).trans (Function.update_of_ne (StableHlo.devRef_ne_of_ne (by decide)) _ _).symm)
  | ⟨2, _⟩ => ((dat3 (E3 m) c).arrAt_in 2 rfl _).trans ((A_eq3 (E3 m) c 2).trans (Function.update_of_ne (StableHlo.devRef_ne_of_ne (by decide)) _ _).symm)
  | ⟨3, _⟩ => ((dat3 (E3 m) c).arrAt_in 3 rfl _).trans ((A_eq3 (E3 m) c 3).trans (Function.update_of_ne (StableHlo.devRef_ne_of_ne (by decide)) _ _).symm)
  | ⟨4, _⟩ => ((dat3 (E3 m) c).arrAt_in 4 rfl _).trans ((A_eq3 (E3 m) c 4).trans (Function.update_of_ne (StableHlo.devRef_ne_of_ne (by decide)) _ _).symm)
  | ⟨5, _⟩ => ((dat3 (E3 m) c).arrAt_in 5 rfl _).trans ((A_eq3 (E3 m) c 5).trans (Function.update_of_ne (StableHlo.devRef_ne_of_ne (by decide)) _ _).symm)
  | ⟨6, _⟩ => ((dat3 (E3 m) c).arrAt_in 6 rfl _).trans ((A_eq3 (E3 m) c 6).trans (Function.update_of_ne (StableHlo.devRef_ne_of_ne (by decide)) _ _).symm)
  | ⟨7, _⟩ => by
      show (dat3 (E3 m) c).arrAt 7 cfg3.N
        = Function.update (U9 m c) (Proc.devRef .tc main_v64) (X10 m c (Proc.devRef .tc main_v64)) (Proc.devRef .tc main_v64)
      rw [Function.update_self]; exact (X10_arr m c 7).symm

/-- and every other buffer what it held at entry. -/
theorem hrest3 (c : Dev nD) : ∀ b : Ref sig .tc, b ∉ Finset.univ.image (Pipeline.arrRef spec3) → U10 m c b = U9 m c b :=
  fun b hb => Function.update_of_ne (StableHlo.devRef_ne_of_ne fun e => hb (Finset.mem_image.mpr ⟨7, Finset.mem_univ _, e.symm⟩)) _ _

/-! # What the regions leave, as the unknowns of the generated boundary valuations -/

/-- What each region leaves in the buffers it may change, read off the boundary contents above (only the four points
    the generated valuations read matter: after item 3, 5, 7 and 9). -/
def outs : Outs (F := F) := fun J r c => match J with
  | 4 => X4 m c r
  | 6 => X6 m c r
  | 8 => X8 m c r
  | _ => X10 m c r

/-- The result buffer after the last region: its write-back's block, folded. -/
theorem outs_result (c : Dev nD) : outs m 10 main_v64 c = (dat3 (E3 m) c).arrAt 7 cfg3.N := X10_arr m c 7

/-! # The proof data family and the thread state -/

/-- Every pipeline's proof data, each at its region's entry contents (a literal match on the pipeline). -/
def pdats : (p : Fin 4) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)

/-! # The regions as segments -/

set_option backward.isDefEq.respectTransparency.types false in
/-- Region 0 as a segment: entered with every unscoped buffer at `U3`, left with them at `U4`. Its arrays are split
    out of the unscoped buffers at entry and put back at their final contents at exit; the generator register goes
    into the invariant and comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun c t => owed_eq0 (E0 m) c t
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (E0 m) c w) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed_eq0 (E0 m) c 0]
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (E0 m) c w)
      (E0 m c) (fun b => U4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed_eq0 (E0 m) c _]
    icases HO with ⟨%W, -, HO⟩; iexists W; iexact HO

set_option backward.isDefEq.respectTransparency.types false in
/-- Region 1 as a segment: entered with every unscoped buffer at `U5`, left with them at `U6`. Its arrays are split
    out of the unscoped buffers at entry and put back at their final contents at exit; the generator register goes
    into the invariant and comes back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun c t => owed_eq1 (E1 m) c t
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (E1 m) c w) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed_eq1 (E1 m) c 0]
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    rw [Pipeline.ownSems0_none]
    refine BIBase.Entails.trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (E1 m) c w)
      (E1 m c) (fun b => U6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed_eq1 (E1 m) c _]
    icases HO with ⟨%W, -, HO⟩; iexists W; iexact HO

set_option backward.isDefEq.respectTransparency.types false in
/-- Region 2 as a segment: entered with every unscoped buffer at `U7`, left with them at `U8`. Its arrays are split
    out of the unscoped buffers at entry and put back at their final contents at exit; the generator register goes
    into the invariant and comes back; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun c t => owed_eq2 (E2 m) c t
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (E2 m) c w) (E2 m c) fun w => A_eq2 (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 2 c).owed 0 = 0 from owed_eq2 (E2 m) c 0]
      icases HO with ⟨%W, HO⟩; iexists W; isplitr; · ipureintro; exact fun _ _ => Or.inl trivial
      iexact HO
    isplitl [Hp]; · iexact Hp
    iexact Hrest
  hin c := by
    refine BIBase.Entails.trans ?_ (hin2 (E2 m) c)
    unfold Pipeline.ΦA
    iintro ⟨Hp, -, Hr⟩
    isplitl [Hr]; · iexact Hr
    iexact Hp
  hout c := by
    rw [Pipeline.ownSems0_none]
    refine BIBase.Entails.trans (hout2 (E2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (E2 m) c w)
      (E2 m c) (fun b => U8 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 2 c).owed (Fin.last _) = 0 from owed_eq2 (E2 m) c _]
    icases HO with ⟨%W, -, HO⟩; iexists W; iexact HO

set_option backward.isDefEq.respectTransparency.types false in
/-- Region 3 as a segment: entered with every unscoped buffer at `U9`, left with them at `U10`. Its arrays are split
    out of the unscoped buffers at entry and put back at their final contents at exit; the generator register goes
    into the invariant and comes back; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun c t => owed_eq3 (E3 m) c t
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (E3 m) c w) (E3 m c) fun w => A_eq3 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 3 c).owed 0 = 0 from owed_eq3 (E3 m) c 0]
      icases HO with ⟨%W, HO⟩; iexists W; isplitr; · ipureintro; exact fun _ _ => Or.inl trivial
      iexact HO
    isplitl [Hp]; · iexact Hp
    iexact Hrest
  hin c := by
    refine BIBase.Entails.trans ?_ (hin3 (E3 m) c)
    unfold Pipeline.ΦA
    iintro ⟨Hp, -, Hr⟩
    isplitl [Hr]; · iexact Hr
    iexact Hp
  hout c := by
    rw [Pipeline.ownSems0_none]
    refine BIBase.Entails.trans (hout3 (E3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (E3 m) c w)
      (E3 m c) (fun b => U10 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 3 c).owed (Fin.last _) = 0 from owed_eq3 (E3 m) c _]
    icases HO with ⟨%W, -, HO⟩; iexists W; iexact HO

/-! # The run -/

set_option backward.isDefEq.respectTransparency.types false in
/-- THE RUN, at any instance: from any memory with zero counters, every weakly fair execution of @main terminates,
    nothing faulting; the result buffer ends at the last region's folded write-back and every argument array as
    launched. -/
theorem run : θ_run defs (onTc (τ := τ) (main (F := F))) ⟨m, fun _ => 0, ρ⟩ (fun r => ∀ c : Dev nD,
      r.2.mem ((c.tc : Thread nD τ).loc main_v64) = outs m 10 main_v64 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have h1 : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)))
          ⊢ (bigSep Finset.univ fun c : Dev nD => R c : sProp 𝕄) := bigSep_mono fun c _ =>
        show (iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) : sProp 𝕄) ⊢ R c from by
          iintro ⟨-, HO, -, Hp, -⟩
          isplitl [Hp]; · iexists _; iexact Hp
          iexists ∅; iexact HO
      iintro ⟨H, -⟩
      imodintro
      iapply h1; iexact H)
    (hE4 := fun c => by iintro ⟨-, HO⟩; iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)
    (R3 := reg3 m) (hpre3 := fun c => .rfl) (hpost3 := fun c => .rfl)

end Cert.Kernel.Hand

end
-- ==== Proof.KI.R0.lean ====
import proofs.«428485_j55886114456268_3_alg».proof.Proof.Gen.KernelIdeal.Launch
import proofs.«428485_j55886114456268_3_alg».proof.Proof.Gen.KernelIdeal.Skeleton
import proofs.«428485_j55886114456268_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the node features times the first weight matrix, scaled row by row -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: an unfetched window's block index has not
    moved. Window 0: the block of node features. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1: the weight matrix, whose block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2: the block of per-node scale factors. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S5000x10 := Rect.unit (s := S5000x10) ![0, 0] S5000x10.size inb_S5000x10_S5000x10_0_0
abbrev r0_w : Rect S10x128 := Rect.unit (s := S10x128) ![0, 0] S10x128.size inb_S10x128_S10x128_0_0
abbrev r0_d : Rect S5000x1 := Rect.unit (s := S5000x1) ![0, 0] S5000x1.size inb_S5000x1_S5000x1_0_0
abbrev r0_o : Rect S5000x128 := Rect.unit (s := S5000x128) ![0, 0] S5000x128.size inb_S5000x128_S5000x128_0_0

/-! ## What the body leaves in the output window's buffer -/

/-- The output's staging buffer after the body, from the three input blocks: its one store, whole. -/
def out0_3 (x0 : Vec F S5000x10 .f32) (x1 : Vec F S10x128 .f32) (x2 : Vec F S5000x1 .f32) : Vec F S5000x128 .bf16 :=
  View.canon [⟨r0_o, k0_pay1 (View.ld x0 r0_x) (View.ld x1 r0_w) (View.ld x2 r0_d)⟩]

/-- The store's rectangle is the whole buffer, so it covers it. -/
theorem cover0_3 (p0 : Vec F S5000x128 .bf16) (y : S5000x128.Idx) :
    ∃ pc ∈ ([⟨r0_o, p0⟩] : List (View.Piece (Elt F) S5000x128 .bf16)), y ∈ pc.1.set :=
  View.cover_of_tiled [⟨r0_o, p0⟩] S5000x128.size (by rfl) y

/-! ## The body's triple -/

set_option maxHeartbeats 1000000 in
/-- The kernel body on whole staging memrefs, the inputs' at read contents `x0 x1 x2` and the output's at anything, runs
    to the continuation holding the inputs' as they were and the output's at `out0_3` of the inputs'. -/
theorem sound_kernel0 (c : Dev nD) (E : Set ℕ) (i : grid0.Coords)
    (arg1 : Memref sig .tc .vmem S5000x10 .f32) (harg1 : arg1.IsWhole) (arg2 : Memref sig .tc .vmem S10x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x10 .f32) (x1 : Vec F S10x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_disscale_kernel i arg1 harg1 arg2 harg2 arg3 harg3 arg4 harg4) K := by
  simp only [cc0__matmul_disscale_kernel_eq_skeleton]; unfold cc0__matmul_disscale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of region 0 on core `c`: the arrays as the region finds them (`V`); after the body at point `t`
    each input's buffer at its block and the output's at `out0_3` of the input blocks; the invariant the scoped rest
    and the generator register, untouched; nothing owed; full shares. -/
def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 :=
  show Pipeline.ΦA spec0 c ⊢ Pipeline.ΦA spec0 c from Entails.refl _
/-- and the invariant after the last point gives it back. -/
theorem hout0 (c : Dev nD) : (dat0 V c).Φ (Fin.last cfg0.N) ⊢ Pipeline.ΦA spec0 c :=
  show Pipeline.ΦA spec0 c ⊢ Pipeline.ΦA spec0 c from Entails.refl _

end Cert.KernelIdeal.Hand

end
-- ==== Proof.KI.R1.lean ====
import proofs.«428485_j55886114456268_3_alg».proof.Proof.Gen.KernelIdeal.Launch
import proofs.«428485_j55886114456268_3_alg».proof.Proof.Gen.KernelIdeal.Skeleton
import proofs.«428485_j55886114456268_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 of @main: the second kernel call (bias, clamp at zero, matrix product, row scaling), at the entry
   contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s (`hA`) and whose body leaves the block in place (`hafter`): where the window is not
    fetched its block index has not moved, so the block of the point before is this point's. The aggregated rows: -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- the normalisation factors' column: -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- the bias row (one block, the same at every point): -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- the weight matrix (likewise one block): -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output's written, whole -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

/-! ## What the body leaves in the output window's buffer -/

/-- Window 4's staging buffer after the body, from the four input windows' blocks: its one store, of the payload
    computed from the four loads. -/
def out1_4 (xAgg : Vec F S5000x128 .f32) (xDis : Vec F S5000x1 .f32) (xB : Vec F S1x128 .f32) (xW : Vec F S128x128 .f32) :
    Vec F S5000x128 .bf16 :=
  View.canon [⟨r1_0, k1_pay1 (View.ld xDis r1_1) (View.ld xAgg r1_0) (View.ld xB r1_2) (View.ld xW r1_3)⟩]

/-- The store tiles the buffer, so it covers it. -/
theorem cover1_4 (p0 : Vec F S5000x128 .bf16) (y : S5000x128.Idx) :
    ∃ pc ∈ ([⟨r1_0, p0⟩] : List (View.Piece (Elt F) S5000x128 .bf16)), y ∈ pc.1.set :=
  View.cover_of_tiled [⟨r1_0, p0⟩] S5000x128.size (by rfl) y

/-! ## The body's triple -/

set_option maxHeartbeats 1000000 in
/-- The kernel body on whole staging memrefs, the inputs' at read contents and the output's at anything, runs to
    the continuation holding the inputs' as they were and the output's at `out1_4` of the inputs'. The body also
    loads the output buffer before it stores it; what it reads there is not used. -/
theorem sound_kernel1 (c : Dev nD) (E : Set ℕ) (i : grid1.Coords)
    (aAgg : Memref sig .tc .vmem S5000x128 .f32) (hAgg : aAgg.IsWhole) (aDis : Memref sig .tc .vmem S5000x1 .f32) (hDis : aDis.IsWhole)
    (aB : Memref sig .tc .vmem S1x128 .f32) (hB : aB.IsWhole) (aW : Memref sig .tc .vmem S128x128 .f32) (hW : aW.IsWhole)
    (aOut : Memref sig .tc .vmem S5000x128 .bf16) (hOut : aOut.IsWhole)
    (xAgg : Vec F S5000x128 .f32) (xDis : Vec F S5000x1 .f32) (xB : Vec F S1x128 .f32) (xW : Vec F S128x128 .f32) (K : PUnit → sProp 𝕄) :
    iprop(owns (c : Thread nD τ) aAgg fullShare xAgg ∗ owns (c : Thread nD τ) aDis fullShare xDis ∗ owns (c : Thread nD τ) aB fullShare xB
        ∗ owns (c : Thread nD τ) aW fullShare xW ∗ (∃ d, owns (c : Thread nD τ) aOut fullShare d)
        ∗ (iprop(owns (c : Thread nD τ) aAgg fullShare xAgg ∗ owns (c : Thread nD τ) aDis fullShare xDis ∗ owns (c : Thread nD τ) aB fullShare xB
            ∗ owns (c : Thread nD τ) aW fullShare xW ∗ owns (c : Thread nD τ) aOut fullShare (out1_4 xAgg xDis xB xW)) -∗ K ⟨⟩))
      ⊢ wp frame (wpE (defs₀ (F := F)) Variants.none c none) E (cc1__biasact_matmul_disscale_kernel i aAgg hAgg aDis hDis aB hB aW hW aOut hOut) K := by
  simp only [cc1__biasact_matmul_disscale_kernel_eq_skeleton]; unfold cc1__biasact_matmul_disscale_kernel_skel
  unfold owns
  iintro ⟨⟨%fAgg, %hfAgg, HAgg⟩, ⟨%fDis, %hfDis, HDis⟩, ⟨%fB, %hfB, HB⟩, ⟨%fW, %hfW, HW⟩, ⟨%dOut, %fOut, -, HOut⟩, Hk⟩
  subst hfAgg hfDis hfB hfW
  sl_exec
  sl_step
  iapply Hk
  isplitl [HAgg]
  · iexists fAgg; isplitr; · ipureintro; rfl
    iexact HAgg
  isplitl [HDis]
  · iexists fDis; isplitr; · ipureintro; rfl
    iexact HDis
  isplitl [HB]
  · iexists fB; isplitr; · ipureintro; rfl
    iexact HB
  isplitl [HW]
  · iexists fW; isplitr; · ipureintro; rfl
    iexact HW
  iexists _; isplitr
  swap; · iexact HOut
  ipureintro
  exact View.read_writes_eq_canon _ _ _ (cover1_4 _)

/-! ## The pipeline's proof data -/

/-- The proof data of pipeline 1 on core `c`: the arrays as the region finds them (`V`); after the body at point
    `t` each input's buffer at its block and the output's at `out1_4` of the input blocks; the invariant the scoped
    rest and the generator register, untouched; nothing owed; full shares. -/
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- Every share is the full one, -/
theorem q_eq1 (c : Dev nD) (w : Fin cfg1.W) : (dat1 V c).q w = fullShare := by
  dsimp only [dat1]

/-- and nothing is owed at any point. -/
theorem owed_eq1 (c : Dev nD) (t : Fin (cfg1.N + 1)) : (dat1 V c).owed t = 0 := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class's `ΦA`) is the invariant before the first point, -/
theorem hin1 (c : Dev nD) : Pipeline.ΦA spec1 c ⊢ (dat1 V c).Φ 0 :=
  show Pipeline.ΦA spec1 c ⊢ Pipeline.ΦA spec1 c from Entails.refl _
/-- and the invariant after the last point gives it back. -/
theorem hout1 (c : Dev nD) : (dat1 V c).Φ (Fin.last cfg1.N) ⊢ Pipeline.ΦA spec1 c :=
  show Pipeline.ΦA spec1 c ⊢ Pipeline.ΦA spec1 c from Entails.refl _

end Cert.KernelIdeal.Hand

end
-- ==== Proof.KI.R2.lean ====
import proofs.«428485_j55886114456268_3_alg».proof.Proof.Gen.KernelIdeal.Launch
import proofs.«428485_j55886114456268_3_alg».proof.Proof.Gen.KernelIdeal.Skeleton
import proofs.«428485_j55886114456268_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2 of @main: the second kernel call (bias, clamp at zero, matrix product, row scaling), at the entry
   contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s (`hA`) and whose body leaves the block in place (`hafter`): where the window is not
    fetched its block index has not moved, so the block of the point before is this point's. The aggregated rows: -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- the normalisation factors' column: -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- the bias row (one block, the same at every point): -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- the weight matrix (likewise one block): -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read, and the output's written, whole -/

abbrev r2_0 : Rect S5000x128 := Rect.unit (s := S5000x128) ![0, 0] S5000x128.size inb_S5000x128_S5000x128_0_0
abbrev r2_1 : Rect S5000x1 := Rect.unit (s := S5000x1) ![0, 0] S5000x1.size inb_S5000x1_S5000x1_0_0
abbrev r2_2 : Rect S1x128 := Rect.unit (s := S1x128) ![0, 0] S1x128.size inb_S1x128_S1x128_0_0
abbrev r2_3 : Rect S128x128 := Rect.unit (s := S128x128) ![0, 0] S128x128.size inb_S128x128_S128x128_0_0

/-! ## What the body leaves in the output window's buffer -/

/-- Window 4's staging buffer after the body, from the four input windows' blocks: its one store, of the payload
    computed from the four loads. -/
def out2_4 (xAgg : Vec F S5000x128 .f32) (xDis : Vec F S5000x1 .f32) (xB : Vec F S1x128 .f32) (xW : Vec F S128x128 .f32) :
    Vec F S5000x128 .bf16 :=
  View.canon [⟨r2_0, k2_pay1 (View.ld xDis r2_1) (View.ld xAgg r2_0) (View.ld xB r2_2) (View.ld xW r2_3)⟩]

/-- The store tiles the buffer, so it covers it. -/
theorem cover2_4 (p0 : Vec F S5000x128 .bf16) (y : S5000x128.Idx) :
    ∃ pc ∈ ([⟨r2_0, p0⟩] : List (View.Piece (Elt F) S5000x128 .bf16)), y ∈ pc.1.set :=
  View.cover_of_tiled [⟨r2_0, p0⟩] S5000x128.size (by rfl) y

/-! ## The body's triple -/

set_option maxHeartbeats 1000000 in
/-- The kernel body on whole staging memrefs, the inputs' at read contents and the output's at anything, runs to
    the continuation holding the inputs' as they were and the output's at `out2_4` of the inputs'. The body also
    loads the output buffer before it stores it; what it reads there is not used. -/
theorem sound_kernel2 (c : Dev nD) (E : Set ℕ) (i : grid2.Coords)
    (aAgg : Memref sig .tc .vmem S5000x128 .f32) (hAgg : aAgg.IsWhole) (aDis : Memref sig .tc .vmem S5000x1 .f32) (hDis : aDis.IsWhole)
    (aB : Memref sig .tc .vmem S1x128 .f32) (hB : aB.IsWhole) (aW : Memref sig .tc .vmem S128x128 .f32) (hW : aW.IsWhole)
    (aOut : Memref sig .tc .vmem S5000x128 .bf16) (hOut : aOut.IsWhole)
    (xAgg : Vec F S5000x128 .f32) (xDis : Vec F S5000x1 .f32) (xB : Vec F S1x128 .f32) (xW : Vec F S128x128 .f32) (K : PUnit → sProp 𝕄) :
    iprop(owns (c : Thread nD τ) aAgg fullShare xAgg ∗ owns (c : Thread nD τ) aDis fullShare xDis ∗ owns (c : Thread nD τ) aB fullShare xB
        ∗ owns (c : Thread nD τ) aW fullShare xW ∗ (∃ d, owns (c : Thread nD τ) aOut fullShare d)
        ∗ (iprop(owns (c : Thread nD τ) aAgg fullShare xAgg ∗ owns (c : Thread nD τ) aDis fullShare xDis ∗ owns (c : Thread nD τ) aB fullShare xB
            ∗ owns (c : Thread nD τ) aW fullShare xW ∗ owns (c : Thread nD τ) aOut fullShare (out2_4 xAgg xDis xB xW)) -∗ K ⟨⟩))
      ⊢ wp frame (wpE (defs₀ (F := F)) Variants.none c none) E (cc2__biasact_matmul_disscale_kernel i aAgg hAgg aDis hDis aB hB aW hW aOut hOut) K := by
  simp only [cc2__biasact_matmul_disscale_kernel_eq_skeleton]; unfold cc2__biasact_matmul_disscale_kernel_skel
  unfold owns
  iintro ⟨⟨%fAgg, %hfAgg, HAgg⟩, ⟨%fDis, %hfDis, HDis⟩, ⟨%fB, %hfB, HB⟩, ⟨%fW, %hfW, HW⟩, ⟨%dOut, %fOut, -, HOut⟩, Hk⟩
  subst hfAgg hfDis hfB hfW
  sl_exec
  sl_step
  iapply Hk
  isplitl [HAgg]
  · iexists fAgg; isplitr; · ipureintro; rfl
    iexact HAgg
  isplitl [HDis]
  · iexists fDis; isplitr; · ipureintro; rfl
    iexact HDis
  isplitl [HB]
  · iexists fB; isplitr; · ipureintro; rfl
    iexact HB
  isplitl [HW]
  · iexists fW; isplitr; · ipureintro; rfl
    iexact HW
  iexists _; isplitr
  swap; · iexact HOut
  ipureintro
  exact View.read_writes_eq_canon _ _ _ (cover2_4 _)

/-! ## The pipeline's proof data -/

/-- The proof data of pipeline 2 on core `c`: the arrays as the region finds them (`V`); after the body at point
    `t` each input's buffer at its block and the output's at `out2_4` of the input blocks; the invariant the scoped
    rest and the generator register, untouched; nothing owed; full shares. -/
def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- Every share is the full one, -/
theorem q_eq2 (c : Dev nD) (w : Fin cfg2.W) : (dat2 V c).q w = fullShare := by
  dsimp only [dat2]

/-- and nothing is owed at any point. -/
theorem owed_eq2 (c : Dev nD) (t : Fin (cfg2.N + 1)) : (dat2 V c).owed t = 0 := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class's `ΦA`) is the invariant before the first point, -/
theorem hin2 (c : Dev nD) : Pipeline.ΦA spec2 c ⊢ (dat2 V c).Φ 0 :=
  show Pipeline.ΦA spec2 c ⊢ Pipeline.ΦA spec2 c from Entails.refl _
/-- and the invariant after the last point gives it back. -/
theorem hout2 (c : Dev nD) : (dat2 V c).Φ (Fin.last cfg2.N) ⊢ Pipeline.ΦA spec2 c :=
  show Pipeline.ΦA spec2 c ⊢ Pipeline.ΦA spec2 c from Entails.refl _

end Cert.KernelIdeal.Hand

end
-- ==== Proof.KI.R3.lean ====
import proofs.«428485_j55886114456268_3_alg».proof.Proof.Gen.KernelIdeal.Launch
import proofs.«428485_j55886114456268_3_alg».proof.Proof.Gen.KernelIdeal.Skeleton
import proofs.«428485_j55886114456268_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Region 3: the pooling kernel

Twenty grid points. The kernel carries a scratch accumulator from point to point: under the first point's
condition it is reset to zero, at every point the point's block of rows is added into it, and under the last
point's condition the accumulator is divided by the counts, contracted with the head's weights, the head's bias
added, and the result stored to the output window, which is written back at that point only. -/

/-- The zero offsets of a rank-two rectangle, as a constant function. -/
theorem zero2_r3 : (![0, 0] : Fin 2 → ℕ) = fun _ => 0 := funext fun a => by fin_cases a <;> rfl

/-! ## The windows' blocks -/

/-- The block of window w at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's two conditions -/

/-- The first condition of the body (the reset of the accumulator), from the grid coordinates. -/
abbrev cond3_A (i : grid3.Coords) : Prop := (Scalar.cmpi .ne (Scalar.extui (Scalar.cmpi .eq (BitVec.ofNat 32 (i 0).val) 0#32)) 0#32) = 1#1
/-- It holds at the first point only. -/
theorem hcond3_A : ∀ t : Fin cfg3.N, cond3_A (grid3.coords t) ↔ t.val = 0 :=
  (by decide +kernel : ∀ t : Fin grid3.N, cond3_A (grid3.coords t) ↔ t.val = 0)

/-- The second condition of the body (the output's store), from the grid coordinates. -/
abbrev cond3_B (i : grid3.Coords) : Prop := k3_cond2 i = 1#1
/-- It holds at the last point only. -/
theorem hcond3_B : ∀ t : Fin cfg3.N, cond3_B (grid3.coords t) ↔ t.val = 19 :=
  (by decide +kernel : ∀ t : Fin grid3.N, cond3_B (grid3.coords t) ↔ t.val = 19)

/-! ## Where the windows are idle -/

/-- The output window is idle wherever the second condition fails, -/
theorem idleAt3_7 : ∀ t : Fin cfg3.N, ¬cond3_B (grid3.coords t) → cfg3.idle 7 (grid3.coords t) = true := by decide +kernel
/-- is not written back there, -/
theorem noFlush3_7 : ∀ t : Fin cfg3.N, ¬cond3_B (grid3.coords t) → (cfg3.win 7).flush t = false := by decide +kernel
/-- and is live where it holds. -/
theorem liveAt3_7 : ∀ t : Fin cfg3.N, cond3_B (grid3.coords t) → cfg3.idle 7 (grid3.coords t) = false := by decide +kernel

/-! ## The staging memrefs and the scratch -/

abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S5000x1 .i32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S64x1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x3 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x3 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S64x3 .f32 := win3_7.stage (cfg3.slots t 7)
abbrev hs3_7 (t : Fin cfg3.N) : (ms3_7 t).IsWhole := hstage3_7 ((cfg3.slots t 7).cast nbuf3_7)
/-- The scratch accumulator: a whole scoped buffer of the kernel's own, passed beside the windows. -/
abbrev scM3 : Memref sig .tc .vmem S64x128 .f32 := Memref.whole cc3_scratch0

/-- The class's invariant with the accumulator split off the other scoped buffers and owned as a memref at some
    contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
        ∗ (∃ r, prngReg c r)) := by
  unfold Pipeline.ΦA
  rw [Pipeline.scopedRest_split_of_list spec3 c [cc3_scratch0] (by decide) (by decide)]
  simp only [scM3, owns_whole]; try rfl

/-! ## The body's runs, case by case -/

/-- A store through the whole accumulator, last, covers every index. -/
theorem cover3_acc (w : Vec F S64x128 .f32) (L : List (View.Piece (Elt F) S64x128 .f32)) (y : S64x128.Idx) :
    ∃ pc ∈ ((⟨Rect.unit (s := S64x128) ![0, 0] S64x128.size inb_S64x128_S64x128_0_0, w⟩ : View.Piece (Elt F) S64x128 .f32) :: L), y ∈ pc.1.set :=
  ⟨_, List.mem_cons_self, View.mem_set_unit_zero zero2_r3 inb_S64x128_S64x128_0_0 y⟩

/-- A store through the whole output buffer, last, covers every index. -/
theorem cover3_out (w : Vec F S64x3 .f32) (L : List (View.Piece (Elt F) S64x3 .f32)) (y : S64x3.Idx) :
    ∃ pc ∈ ((⟨Rect.unit (s := S64x3) ![0, 0] S64x3.size inb_S64x3_S64x3_0_0, w⟩ : View.Piece (Elt F) S64x3 .f32) :: L), y ∈ pc.1.set :=
  ⟨_, List.mem_cons_self, View.mem_set_unit_zero zero2_r3 inb_S64x3_S64x3_0_0 y⟩

set_option maxHeartbeats 1000000 in
/-- The FIRST point (the first condition holds, the second fails): on whole memrefs, the inputs' at their contents,
    the output's at contents handed back untouched, the accumulator at anything, the body runs to the continuation
    holding the inputs' and the output's as they were and the accumulator at the point's rows added to the zeros. -/
theorem run3_A (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S64x1 .f32) (harg5 : arg5.IsWhole) (arg6 : Memref sig .tc .vmem S128x3 .f32) (harg6 : arg6.IsWhole) (arg7 : Memref sig .tc .vmem S1x3 .f32) (harg7 : arg7.IsWhole) (arg8 : Memref sig .tc .vmem S64x3 .f32) (harg8 : arg8.IsWhole) (arg9 : Memref sig .tc .vmem S64x128 .f32) (harg9 : arg9.IsWhole) (hcA : cond3_A i) (hcB : ¬cond3_B i)
    (x0 : Vec F S5000x128 .f32) (x1 : Vec F S5000x1 .f32) (x2 : Vec F S1x128 .f32) (x3 : Vec F S5000x1 .i32) (x4 : Vec F S64x1 .f32) (x5 : Vec F S128x3 .f32) (x6 : Vec F S1x3 .f32) (xi7 : Vec F S64x3 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare (k3_pay2 x1 x0 x2 x3 k3_pay1)) -∗ K ⟨⟩))
      ⊢ wp frame (wpE (defs₀ (F := F)) Variants.none c none) E (cc3__pool_linear_kernel i arg1 harg1 arg2 harg2 arg3 harg3 arg4 harg4 arg5 harg5 arg6 harg6 arg7 harg7 arg8 harg8 arg9 harg9) K := by
  simp only [cc3__pool_linear_kernel_eq_skeleton]; unfold cc3__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  subst hf0 hf1 hf2 hf3 hf4 hf5 hf6 hf7
  sl_exec (disch := first | exact hcA | exact hcB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  sl_unfold_run_names
  rw [View.read_writes_eq_canon _ _ _ (cover3_acc _ _), View.canon_cons_unit_zero zero2_r3]
  simp only [View.readCov_cons_toLoadRect, View.readAt_eq_ld, View.ld_unit_zero (S := S5000x128) zero2_r3, View.ld_unit_zero (S := S5000x1) zero2_r3, View.ld_unit_zero (S := S1x128) zero2_r3, View.ld_unit_zero (S := S64x128) zero2_r3, View.ld_unit_zero (S := S64x1) zero2_r3, View.ld_unit_zero (S := S128x3) zero2_r3, View.ld_unit_zero (S := S1x3) zero2_r3]

set_option maxHeartbeats 1000000 in
/-- A MIDDLE point (neither condition holds): the same with the accumulator at what the point before left, the
    point's rows added to it. -/
theorem run3_M (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S64x1 .f32) (harg5 : arg5.IsWhole) (arg6 : Memref sig .tc .vmem S128x3 .f32) (harg6 : arg6.IsWhole) (arg7 : Memref sig .tc .vmem S1x3 .f32) (harg7 : arg7.IsWhole) (arg8 : Memref sig .tc .vmem S64x3 .f32) (harg8 : arg8.IsWhole) (arg9 : Memref sig .tc .vmem S64x128 .f32) (harg9 : arg9.IsWhole) (hcA : ¬cond3_A i) (hcB : ¬cond3_B i)
    (x0 : Vec F S5000x128 .f32) (x1 : Vec F S5000x1 .f32) (x2 : Vec F S1x128 .f32) (x3 : Vec F S5000x1 .i32) (x4 : Vec F S64x1 .f32) (x5 : Vec F S128x3 .f32) (x6 : Vec F S1x3 .f32) (xi7 : Vec F S64x3 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare (k3_pay2 x1 x0 x2 x3 xs)) -∗ K ⟨⟩))
      ⊢ wp frame (wpE (defs₀ (F := F)) Variants.none c none) E (cc3__pool_linear_kernel i arg1 harg1 arg2 harg2 arg3 harg3 arg4 harg4 arg5 harg5 arg6 harg6 arg7 harg7 arg8 harg8 arg9 harg9) K := by
  simp only [cc3__pool_linear_kernel_eq_skeleton]; unfold cc3__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  subst hf0 hf1 hf2 hf3 hf4 hf5 hf6 hf7 hfs
  sl_exec (disch := first | exact hcA | exact hcB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  rw [View.read_writes_eq_canon _ _ _ (cover3_acc _ _), View.canon_cons_unit_zero zero2_r3]
  simp only [View.readAt_eq_ld, View.ld_unit_zero (S := S5000x128) zero2_r3, View.ld_unit_zero (S := S5000x1) zero2_r3, View.ld_unit_zero (S := S1x128) zero2_r3, View.ld_unit_zero (S := S64x128) zero2_r3, View.ld_unit_zero (S := S64x1) zero2_r3, View.ld_unit_zero (S := S128x3) zero2_r3, View.ld_unit_zero (S := S1x3) zero2_r3]

set_option maxHeartbeats 1000000 in
/-- The LAST point (the first condition fails, the second holds): the output's buffer at anything; the body leaves
    the accumulator with the point's rows added and stores to the output's buffer that accumulator divided by the
    counts, times the head's weights, plus the head's bias. -/
theorem run3_L (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S64x1 .f32) (harg5 : arg5.IsWhole) (arg6 : Memref sig .tc .vmem S128x3 .f32) (harg6 : arg6.IsWhole) (arg7 : Memref sig .tc .vmem S1x3 .f32) (harg7 : arg7.IsWhole) (arg8 : Memref sig .tc .vmem S64x3 .f32) (harg8 : arg8.IsWhole) (arg9 : Memref sig .tc .vmem S64x128 .f32) (harg9 : arg9.IsWhole) (hcA : ¬cond3_A i) (hcB : cond3_B i)
    (x0 : Vec F S5000x128 .f32) (x1 : Vec F S5000x1 .f32) (x2 : Vec F S1x128 .f32) (x3 : Vec F S5000x1 .i32) (x4 : Vec F S64x1 .f32) (x5 : Vec F S128x3 .f32) (x6 : Vec F S1x3 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k3_pay3 (k3_pay2 x1 x0 x2 x3 xs) x4 x5 x6)
            ∗ owns (c : Thread nD τ) arg9 fullShare (k3_pay2 x1 x0 x2 x3 xs)) -∗ K ⟨⟩))
      ⊢ wp frame (wpE (defs₀ (F := F)) Variants.none c none) E (cc3__pool_linear_kernel i arg1 harg1 arg2 harg2 arg3 harg3 arg4 harg4 arg5 harg5 arg6 harg6 arg7 harg7 arg8 harg8 arg9 harg9) K := by
  simp only [cc3__pool_linear_kernel_eq_skeleton]; unfold cc3__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0 hf1 hf2 hf3 hf4 hf5 hf6 hfs
  sl_exec (disch := first | exact hcA | exact hcB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [View.read_writes_eq_canon _ _ _ (cover3_out _ _), View.canon_cons_unit_zero zero2_r3]
    simp only [View.readCov_cons_toLoadRect, View.readAt_eq_ld, View.ld_unit_zero (S := S5000x128) zero2_r3, View.ld_unit_zero (S := S5000x1) zero2_r3, View.ld_unit_zero (S := S1x128) zero2_r3, View.ld_unit_zero (S := S64x128) zero2_r3, View.ld_unit_zero (S := S64x1) zero2_r3, View.ld_unit_zero (S := S128x3) zero2_r3, View.ld_unit_zero (S := S1x3) zero2_r3]
  iexists _; isplitr
  swap; · iexact HS
  ipureintro
  sl_unfold_run_names
  rw [View.read_writes_eq_canon _ _ _ (cover3_acc _ _), View.canon_cons_unit_zero zero2_r3]
  simp only [View.readAt_eq_ld, View.ld_unit_zero (S := S5000x128) zero2_r3, View.ld_unit_zero (S := S5000x1) zero2_r3, View.ld_unit_zero (S := S1x128) zero2_r3, View.ld_unit_zero (S := S64x128) zero2_r3, View.ld_unit_zero (S := S64x1) zero2_r3, View.ld_unit_zero (S := S128x3) zero2_r3, View.ld_unit_zero (S := S1x3) zero2_r3]
/-! ## What the accumulator and the output window hold, point by point -/

/-- THE ACCUMULATION. What the scratch holds after the body at position n: the point's rows (each scaled by its
    node's factor, the bias added) summed per graph by the one-hot of the batch ids, added to what the point before
    left; at the first point to the zeros the reset leaves. -/
def acc3 (c : Dev nD) : (n : ℕ) → n < cfg3.N → Vec F S64x128 .f32
  | 0, hn => k3_pay2 (iblk3 V c 1 ⟨0, hn⟩) (iblk3 V c 0 ⟨0, hn⟩) (iblk3 V c 2 ⟨0, hn⟩) (iblk3 V c 3 ⟨0, hn⟩) k3_pay1
  | n + 1, hn => k3_pay2 (iblk3 V c 1 ⟨n + 1, hn⟩) (iblk3 V c 0 ⟨n + 1, hn⟩) (iblk3 V c 2 ⟨n + 1, hn⟩) (iblk3 V c 3 ⟨n + 1, hn⟩)
      (acc3 c n (Nat.lt_of_succ_lt hn))

theorem acc3_zero (c : Dev nD) (t : Fin cfg3.N) (h : t.val = 0) :
    acc3 V c t.val t.isLt = k3_pay2 (iblk3 V c 1 t) (iblk3 V c 0 t) (iblk3 V c 2 t) (iblk3 V c 3 t) k3_pay1 := by
  obtain ⟨n, hn⟩ := t
  cases n with
  | zero => rfl
  | succ n => exact absurd h (Nat.succ_ne_zero n)

theorem acc3_pos (c : Dev nD) (t : Fin cfg3.N) (h : t.val ≠ 0) :
    acc3 V c t.val t.isLt = k3_pay2 (iblk3 V c 1 t) (iblk3 V c 0 t) (iblk3 V c 2 t) (iblk3 V c 3 t)
      (acc3 V c (t.val - 1) (Nat.lt_of_le_of_lt (Nat.sub_le _ _) t.isLt)) := by
  obtain ⟨n, hn⟩ := t
  cases n with
  | zero => exact absurd rfl h
  | succ n => rfl

/-- What the output window's staging buffer holds after the body at point t, where the body stores it (the last
    point): the accumulator after that point divided by the counts, times the head's weights, plus the head's bias.
    At the other points the window is idle and this is not consulted. -/
def out3 (c : Dev nD) (t : Fin cfg3.N) : Vec F S64x3 .f32 :=
  k3_pay3 (acc3 V c t.val t.isLt) (iblk3 V c 4 t) (iblk3 V c 5 t) (iblk3 V c 6 t)

/-- The region invariant before position n: before the first point the class's; afterwards the accumulator at
    what the point before left, the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
        ∗ Pipeline.scopedRestBut (Ix := Unit) (Name := ℕ) (U := UR sig nD τ) (Lvl := ℕ) (Val := Elt F) spec3 c [cc3_scratch0])
      ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn)
        ∗ Pipeline.scopedRestBut (Ix := Unit) (Name := ℕ) (U := UR sig nD τ) (Lvl := ℕ) (Val := Elt F) spec3 c [cc3_scratch0])
      ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega))
        ∗ Pipeline.scopedRestBut (Ix := Unit) (Name := ℕ) (U := UR sig nD τ) (Lvl := ℕ) (Val := Elt F) spec3 c [cc3_scratch0])
      ∗ (∃ r, prngReg c r)) := by
  cases n with
  | zero => exact absurd rfl hz
  | succ n => rfl

/-! ## The pipeline's proof data -/

/-- Region 3's proof data at the entry contents V: the arrays as the region finds them; after the body at point
    t each input's buffer at its block and the output's at out3; the invariant PhiS3; nothing owed; full shares. -/
def dat3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) (t : Fin (cfg3.N + 1)) : (dat3 V c).owed t = 0 := by
  dsimp only [dat3]

/-- The invariant at a point's start, restated at the point's number. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3 V c t := by dsimp only [dat3]

/-! ## The body obligation, at a generic point -/

/-- No input window is ever idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
theorem liveAt3_6 : ∀ t : Fin cfg3.N, cfg3.idle 6 (grid3.coords t) = false := fun _ => rfl

/-- Each input's current staging buffer holds its block at every point, fetched there or not: unfetched, the block
    index has not moved, and the body leaves the block in place. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point. The inputs' memrefs hold their blocks; the point's number says which of the three cases
    it is in; the invariant hands the body the accumulator at what the point before left (at anything at the first
    point) and takes it back with this point's rows added; where the second condition fails the output window is
    idle and not written back, and its buffer goes back as found; at the last point it is live and holds the head's
    result; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  have hN : t.val < 20 := lt_of_lt_of_eq t.isLt (show cfg3.N = 20 from N_3)
  by_cases h0 : t.val = 0
  · have h19 : ¬t.val = 19 := by omega
    rw [Dat.leavesExact_idle (dat3 V c) 7 t (idleAt3_7 t (fun h => h19 ((hcond3_B t).mp h))) (noFlush3_7 t (fun h => h19 ((hcond3_B t).mp h)))]
    rw [acc3_zero V c t h0, PhiS3_castSucc V c t, PhiS3_zero V c _ _ h0, PhiA3_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run3_A c (grid3.coords t) _ _ _ _ _ _ _ _ _ _ _ _ _ _ _ _ _ _ ((hcond3_A t).mpr h0) (fun h => h19 ((hcond3_B t).mp h)) (iblk3 V c 0 t) (iblk3 V c 1 t) (iblk3 V c 2 t) (iblk3 V c 3 t) (iblk3 V c 4 t) (iblk3 V c 5 t) (iblk3 V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h19 : t.val = 19
    · rw [show (dat3 V c).leavesExact 7 t = owns (c : Thread nD τ) (ms3_7 t) fullShare ((dat3 V c).after 7 t) from by
        unfold Dat.leavesExact; rw [liveAt3_7 t ((hcond3_B t).mpr h19)], after3_7]
      unfold out3
      rw [acc3_pos V c t h0, PhiS3_castSucc V c t, PhiS3_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3_L c (grid3.coords t) _ _ _ _ _ _ _ _ _ _ _ _ _ _ _ _ _ _ (fun h => h0 ((hcond3_A t).mp h)) ((hcond3_B t).mpr h19) (iblk3 V c 0 t) (iblk3 V c 1 t) (iblk3 V c 2 t) (iblk3 V c 3 t) (iblk3 V c 4 t) (iblk3 V c 5 t) (iblk3 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat3 V c) 7 t (idleAt3_7 t (fun h => h19 ((hcond3_B t).mp h))) (noFlush3_7 t (fun h => h19 ((hcond3_B t).mp h)))]
      rw [acc3_pos V c t h0, PhiS3_castSucc V c t, PhiS3_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3_M c (grid3.coords t) _ _ _ _ _ _ _ _ _ _ _ _ _ _ _ _ _ _ (fun h => h0 ((hcond3_A t).mp h)) (fun h => h19 ((hcond3_B t).mp h)) (iblk3 V c 0 t) (iblk3 V c 1 t) (iblk3 V c 2 t) (iblk3 V c 3 t) (iblk3 V c 4 t) (iblk3 V c 5 t) (iblk3 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region (the class's invariant) is the invariant before the first point, -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's named contents are
    forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- and the invariant after the last point gives it back. -/
theorem hout3 (c : Dev nD) : (dat3 V c).Φ (Fin.last cfg3.N) ⊢ Pipeline.ΦA spec3 c :=
  Phi3_out V c _ (by rw [Fin.val_last]; have : cfg3.N = 20 := N_3; omega)

end Cert.KernelIdeal.Hand

end
-- ==== Proof.KI.RunCond.lean ====
/-
  The run of the whole program from the records of its four kernel regions, the result buffer named.
  The statement and its proof follow the generated conditional frame of this program; the one addition is the
  result buffer's contents in the post.
-/
import proofs.«428485_j55886114456268_3_alg».proof.Proof.Gen.KernelIdeal.Regions

set_option maxRecDepth 1028

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- After the last region the result buffer holds what that region is stated to leave there. -/
theorem V10_main_v64 (outs : Outs (F := F)) (c : Dev nD) : V10 m outs c main_v64 = outs 10 main_v64 c := by
  unfold V10; exact Function.update_self _ _ _

set_option backward.isDefEq.respectTransparency.types false in
/-- The run of @main given the four regions' records, with the RESULT named: the hypotheses are those of the generated
    conditional frame, and the post also says that the result buffer `main_v64` ends at what the last region is
    stated to leave there (`outs 10 main_v64`), beside every argument array ending as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c)) :
    θ_run defs (onTc (τ := τ) (main (F := F))) ⟨m, fun _ => 0, ρ⟩ (fun r => ∀ c : Dev nD,
      r.2.mem ((c.tc : Thread nD τ).loc main_v64) = outs 10 main_v64 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, hpre0 c, hpost0 c, hpre1 c, hpost1 c, hpre2 c, hpost2 c, hpre3 c, (hpost3 c).trans (sep_mono .rfl (hE4 c))⟩)
    (hinit := ?_) (QY := fun c s => s.mem ((c.tc : Thread nD τ).loc main_v64) = outs 10 main_v64 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨(h (Proc.devRef .tc main_v64) (Finset.mem_filter.mpr ⟨StableHlo.devRef_mem_tcRefs main_v64, by decide⟩)).trans (V10_main_v64 m outs c),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c),
        (h (Proc.devRef .tc main_arg5) (Finset.mem_filter.mpr ⟨StableHlo.devRef_mem_tcRefs main_arg5, by decide⟩)).trans (V10_main_arg5 m outs c),
        (h (Proc.devRef .tc main_arg6) (Finset.mem_filter.mpr ⟨StableHlo.devRef_mem_tcRefs main_arg6, by decide⟩)).trans (V10_main_arg6 m outs c),
        (h (Proc.devRef .tc main_arg7) (Finset.mem_filter.mpr ⟨StableHlo.devRef_mem_tcRefs main_arg7, by decide⟩)).trans (V10_main_arg7 m outs c),
        (h (Proc.devRef .tc main_arg8) (Finset.mem_filter.mpr ⟨StableHlo.devRef_mem_tcRefs main_arg8, by decide⟩)).trans (V10_main_arg8 m outs c),
        (h (Proc.devRef .tc main_arg9) (Finset.mem_filter.mpr ⟨StableHlo.devRef_mem_tcRefs main_arg9, by decide⟩)).trans (V10_main_arg9 m outs c),
        (h (Proc.devRef .tc main_arg10) (Finset.mem_filter.mpr ⟨StableHlo.devRef_mem_tcRefs main_arg10, by decide⟩)).trans (V10_main_arg10 m outs c)⟩
    · iexact HSI

end Cert.KernelIdeal.Hand

end
-- ==== Proof.KI.Run.lean ====
/-
  The run of the kernel program: the buffers' contents at every boundary between a host stretch and a kernel
  region, each region's proof data at the contents it is entered with, the four regions as segments of the
  several-regions launch, and the run itself — every weakly fair execution terminates with the result buffer at
  what the last region's write-back leaves and every argument as launched.
-/
import proofs.«428485_j55886114456268_3_alg».proof.Proof.KI.R0
import proofs.«428485_j55886114456268_3_alg».proof.Proof.KI.R1
import proofs.«428485_j55886114456268_3_alg».proof.Proof.KI.R2
import proofs.«428485_j55886114456268_3_alg».proof.Proof.KI.R3
import proofs.«428485_j55886114456268_3_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at the boundaries -/

/-- The buffers when region 0 is entered: the launch contents after the three host stretches before it. -/
abbrev U3 (c : Dev nD) : Valuation τ sig (Elt F) := V3 m c

/-! ## Region 0 (item 3): entered at `U3`, left at `U4` -/

/-- The TensorCore's buffers when region 0 is entered, read at the TensorCore's references. -/
abbrev E0 (c : Dev nD) (b : Ref sig .tc) : Buf (Elt F) ((c : Thread nD τ).loc b) := U3 m c b

/-- Region 0's arrays at what its write-backs leave (the inputs as entered, the output's blocks folded), every other
    buffer as entered. -/
def X4 (c : Dev nD) : Valuation τ sig (Elt F) :=
  Pipeline.withArrays spec0 c (U3 m c) fun w => (dat0 (E0 m) c).arrAt w cfg0.N

theorem X4_arr (c : Dev nD) (w : Fin cfg0.W) :
    X4 m c (Proc.devRef .tc (Pipeline.arrRef spec0 w)) = (dat0 (E0 m) c).arrAt w cfg0.N := by
  unfold X4; exact Pipeline.withArrays_arr spec0 launch0.win.arr_inj c _ _ w

/-- The buffers after region 0: as entered but for its output buffer `main_v16`. -/
abbrev U4 (c : Dev nD) : Valuation τ sig (Elt F) := Function.update (U3 m c) main_v16 (X4 m c main_v16)
/-- and after the host stretch `hostOps1` that follows. -/
abbrev U5 (c : Dev nD) : Valuation τ sig (Elt F) := StableHlo.after hostOps1 (U4 m c)

/-- At region 0's exit each of its arrays holds what the pipeline leaves: an input as entered, the output its folded
    write-backs. -/
theorem hF0 (c : Dev nD) : ∀ w : Fin cfg0.W, (dat0 (E0 m) c).arrAt w cfg0.N = U4 m c (Pipeline.arrRef spec0 w)
  | ⟨0, _⟩ => ((dat0 (E0 m) c).arrAt_in 0 rfl _).trans ((A_eq0 (E0 m) c 0).trans (Function.update_of_ne (StableHlo.devRef_ne_of_ne (by decide)) _ _).symm)
  | ⟨1, _⟩ => ((dat0 (E0 m) c).arrAt_in 1 rfl _).trans ((A_eq0 (E0 m) c 1).trans (Function.update_of_ne (StableHlo.devRef_ne_of_ne (by decide)) _ _).symm)
  | ⟨2, _⟩ => ((dat0 (E0 m) c).arrAt_in 2 rfl _).trans ((A_eq0 (E0 m) c 2).trans (Function.update_of_ne (StableHlo.devRef_ne_of_ne (by decide)) _ _).symm)
  | ⟨3, _⟩ => by
      show (dat0 (E0 m) c).arrAt 3 cfg0.N
        = Function.update (U3 m c) (Proc.devRef .tc main_v16) (X4 m c (Proc.devRef .tc main_v16)) (Proc.devRef .tc main_v16)
      rw [Function.update_self]; exact (X4_arr m c 3).symm

/-- and every other buffer what it held at entry. -/
theorem hrest0 (c : Dev nD) : ∀ b : Ref sig .tc, b ∉ Finset.univ.image (Pipeline.arrRef spec0) → U4 m c b = U3 m c b :=
  fun b hb => Function.update_of_ne (StableHlo.devRef_ne_of_ne fun e => hb (Finset.mem_image.mpr ⟨3, Finset.mem_univ _, e.symm⟩)) _ _

/-! ## Region 1 (item 5): entered at `U5`, left at `U6` -/

/-- The TensorCore's buffers when region 1 is entered, read at the TensorCore's references. -/
abbrev E1 (c : Dev nD) (b : Ref sig .tc) : Buf (Elt F) ((c : Thread nD τ).loc b) := U5 m c b

/-- Region 1's arrays at what its write-backs leave (the inputs as entered, the output's blocks folded), every other
    buffer as entered. -/
def X6 (c : Dev nD) : Valuation τ sig (Elt F) :=
  Pipeline.withArrays spec1 c (U5 m c) fun w => (dat1 (E1 m) c).arrAt w cfg1.N

theorem X6_arr (c : Dev nD) (w : Fin cfg1.W) :
    X6 m c (Proc.devRef .tc (Pipeline.arrRef spec1 w)) = (dat1 (E1 m) c).arrAt w cfg1.N := by
  unfold X6; exact Pipeline.withArrays_arr spec1 launch1.win.arr_inj c _ _ w

/-- The buffers after region 1: as entered but for its output buffer `main_v29`. -/
abbrev U6 (c : Dev nD) : Valuation τ sig (Elt F) := Function.update (U5 m c) main_v29 (X6 m c main_v29)
/-- and after the host stretch `hostOps2` that follows. -/
abbrev U7 (c : Dev nD) : Valuation τ sig (Elt F) := StableHlo.after hostOps2 (U6 m c)

set_option maxHeartbeats 2000000 in
/-- At region 1's exit each of its arrays holds what the pipeline leaves: an input as entered, the output its folded
    write-backs. -/
theorem hF1 (c : Dev nD) : ∀ w : Fin cfg1.W, (dat1 (E1 m) c).arrAt w cfg1.N = U6 m c (Pipeline.arrRef spec1 w)
  | ⟨0, _⟩ => ((dat1 (E1 m) c).arrAt_in 0 rfl _).trans ((A_eq1 (E1 m) c 0).trans (Function.update_of_ne (StableHlo.devRef_ne_of_ne (by decide)) _ _).symm)
  | ⟨1, _⟩ => ((dat1 (E1 m) c).arrAt_in 1 rfl _).trans ((A_eq1 (E1 m) c 1).trans (Function.update_of_ne (StableHlo.devRef_ne_of_ne (by decide)) _ _).symm)
  | ⟨2, _⟩ => ((dat1 (E1 m) c).arrAt_in 2 rfl _).trans ((A_eq1 (E1 m) c 2).trans (Function.update_of_ne (StableHlo.devRef_ne_of_ne (by decide)) _ _).symm)
  | ⟨3, _⟩ => ((dat1 (E1 m) c).arrAt_in 3 rfl _).trans ((A_eq1 (E1 m) c 3).trans (Function.update_of_ne (StableHlo.devRef_ne_of_ne (by decide)) _ _).symm)
  | ⟨4, _⟩ => by
      show (dat1 (E1 m) c).arrAt 4 cfg1.N
        = Function.update (U5 m c) (Proc.devRef .tc main_v29) (X6 m c (Proc.devRef .tc main_v29)) (Proc.devRef .tc main_v29)
      rw [Function.update_self]; exact (X6_arr m c 4).symm

/-- and every other buffer what it held at entry. -/
theorem hrest1 (c : Dev nD) : ∀ b : Ref sig .tc, b ∉ Finset.univ.image (Pipeline.arrRef spec1) → U6 m c b = U5 m c b :=
  fun b hb => Function.update_of_ne (StableHlo.devRef_ne_of_ne fun e => hb (Finset.mem_image.mpr ⟨4, Finset.mem_univ _, e.symm⟩)) _ _

/-! ## Region 2 (item 7): entered at `U7`, left at `U8` -/

/-- The TensorCore's buffers when region 2 is entered, read at the TensorCore's references. -/
abbrev E2 (c : Dev nD) (b : Ref sig .tc) : Buf (Elt F) ((c : Thread nD τ).loc b) := U7 m c b

/-- Region 2's arrays at what its write-backs leave (the inputs as entered, the output's blocks folded), every other
    buffer as entered. -/
def X8 (c : Dev nD) : Valuation τ sig (Elt F) :=
  Pipeline.withArrays spec2 c (U7 m c) fun w => (dat2 (E2 m) c).arrAt w cfg2.N

theorem X8_arr (c : Dev nD) (w : Fin cfg2.W) :
    X8 m c (Proc.devRef .tc (Pipeline.arrRef spec2 w)) = (dat2 (E2 m) c).arrAt w cfg2.N := by
  unfold X8; exact Pipeline.withArrays_arr spec2 launch2.win.arr_inj c _ _ w

/-- The buffers after region 2: as entered but for its output buffer `main_v42`. -/
abbrev U8 (c : Dev nD) : Valuation τ sig (Elt F) := Function.update (U7 m c) main_v42 (X8 m c main_v42)
/-- and after the host stretch `hostOps3` that follows. -/
abbrev U9 (c : Dev nD) : Valuation τ sig (Elt F) := StableHlo.after hostOps3 (U8 m c)

set_option maxHeartbeats 2000000 in
/-- At region 2's exit each of its arrays holds what the pipeline leaves: an input as entered, the output its folded
    write-backs. -/
theorem hF2 (c : Dev nD) : ∀ w : Fin cfg2.W, (dat2 (E2 m) c).arrAt w cfg2.N = U8 m c (Pipeline.arrRef spec2 w)
  | ⟨0, _⟩ => ((dat2 (E2 m) c).arrAt_in 0 rfl _).trans ((A_eq2 (E2 m) c 0).trans (Function.update_of_ne (StableHlo.devRef_ne_of_ne (by decide)) _ _).symm)
  | ⟨1, _⟩ => ((dat2 (E2 m) c).arrAt_in 1 rfl _).trans ((A_eq2 (E2 m) c 1).trans (Function.update_of_ne (StableHlo.devRef_ne_of_ne (by decide)) _ _).symm)
  | ⟨2, _⟩ => ((dat2 (E2 m) c).arrAt_in 2 rfl _).trans ((A_eq2 (E2 m) c 2).trans (Function.update_of_ne (StableHlo.devRef_ne_of_ne (by decide)) _ _).symm)
  | ⟨3, _⟩ => ((dat2 (E2 m) c).arrAt_in 3 rfl _).trans ((A_eq2 (E2 m) c 3).trans (Function.update_of_ne (StableHlo.devRef_ne_of_ne (by decide)) _ _).symm)
  | ⟨4, _⟩ => by
      show (dat2 (E2 m) c).arrAt 4 cfg2.N
        = Function.update (U7 m c) (Proc.devRef .tc main_v42) (X8 m c (Proc.devRef .tc main_v42)) (Proc.devRef .tc main_v42)
      rw [Function.update_self]; exact (X8_arr m c 4).symm

/-- and every other buffer what it held at entry. -/
theorem hrest2 (c : Dev nD) : ∀ b : Ref sig .tc, b ∉ Finset.univ.image (Pipeline.arrRef spec2) → U8 m c b = U7 m c b :=
  fun b hb => Function.update_of_ne (StableHlo.devRef_ne_of_ne fun e => hb (Finset.mem_image.mpr ⟨4, Finset.mem_univ _, e.symm⟩)) _ _

/-! ## Region 3 (item 9): entered at `U9`, left at `U10` -/

/-- The TensorCore's buffers when region 3 is entered, read at the TensorCore's references. -/
abbrev E3 (c : Dev nD) (b : Ref sig .tc) : Buf (Elt F) ((c : Thread nD τ).loc b) := U9 m c b

/-- Region 3's arrays at what its write-backs leave (the inputs as entered, the output's blocks folded), every other
    buffer as entered. -/
def X10 (c : Dev nD) : Valuation τ sig (Elt F) :=
  Pipeline.withArrays spec3 c (U9 m c) fun w => (dat3 (E3 m) c).arrAt w cfg3.N

theorem X10_arr (c : Dev nD) (w : Fin cfg3.W) :
    X10 m c (Proc.devRef .tc (Pipeline.arrRef spec3 w)) = (dat3 (E3 m) c).arrAt w cfg3.N := by
  unfold X10; exact Pipeline.withArrays_arr spec3 launch3.win.arr_inj c _ _ w

/-- The buffers after region 3: as entered but for its output buffer `main_v64`. -/
abbrev U10 (c : Dev nD) : Valuation τ sig (Elt F) := Function.update (U9 m c) main_v64 (X10 m c main_v64)

set_option maxHeartbeats 2000000 in
/-- At region 3's exit each of its arrays holds what the pipeline leaves: an input as entered, the output its folded
    write-backs. -/
theorem hF3 (c : Dev nD) : ∀ w : Fin cfg3.W, (dat3 (E3 m) c).arrAt w cfg3.N = U10 m c (Pipeline.arrRef spec3 w)
  | ⟨0, _⟩ => ((dat3 (E3 m) c).arrAt_in 0 rfl _).trans ((A_eq3 (E3 m) c 0).trans (Function.update_of_ne (StableHlo.devRef_ne_of_ne (by decide)) _ _).symm)
  | ⟨1, _⟩ => ((dat3 (E3 m) c).arrAt_in 1 rfl _).trans ((A_eq3 (E3 m) c 1).trans (Function.update_of_ne (StableHlo.devRef_ne_of_ne (by decide)) _ _).symm)
  | ⟨2, _⟩ => ((dat3 (E3 m) c).arrAt_in 2 rfl _).trans ((A_eq3 (E3 m) c 2).trans (Function.update_of_ne (StableHlo.devRef_ne_of_ne (by decide)) _ _).symm)
  | ⟨3, _⟩ => ((dat3 (E3 m) c).arrAt_in 3 rfl _).trans ((A_eq3 (E3 m) c 3).trans (Function.update_of_ne (StableHlo.devRef_ne_of_ne (by decide)) _ _).symm)
  | ⟨4, _⟩ => ((dat3 (E3 m) c).arrAt_in 4 rfl _).trans ((A_eq3 (E3 m) c 4).trans (Function.update_of_ne (StableHlo.devRef_ne_of_ne (by decide)) _ _).symm)
  | ⟨5, _⟩ => ((dat3 (E3 m) c).arrAt_in 5 rfl _).trans ((A_eq3 (E3 m) c 5).trans (Function.update_of_ne (StableHlo.devRef_ne_of_ne (by decide)) _ _).symm)
  | ⟨6, _⟩ => ((dat3 (E3 m) c).arrAt_in 6 rfl _).trans ((A_eq3 (E3 m) c 6).trans (Function.update_of_ne (StableHlo.devRef_ne_of_ne (by decide)) _ _).symm)
  | ⟨7, _⟩ => by
      show (dat3 (E3 m) c).arrAt 7 cfg3.N
        = Function.update (U9 m c) (Proc.devRef .tc main_v64) (X10 m c (Proc.devRef .tc main_v64)) (Proc.devRef .tc main_v64)
      rw [Function.update_self]; exact (X10_arr m c 7).symm

/-- and every other buffer what it held at entry. -/
theorem hrest3 (c : Dev nD) : ∀ b : Ref sig .tc, b ∉ Finset.univ.image (Pipeline.arrRef spec3) → U10 m c b = U9 m c b :=
  fun b hb => Function.update_of_ne (StableHlo.devRef_ne_of_ne fun e => hb (Finset.mem_image.mpr ⟨7, Finset.mem_univ _, e.symm⟩)) _ _

/-! # What the regions leave, as the unknowns of the generated boundary valuations -/

/-- What each region leaves in the buffers it may change, read off the boundary contents above (only the four points
    the generated valuations read matter: after item 3, 5, 7 and 9). -/
def outs : Outs (F := F) := fun J r c => match J with
  | 4 => X4 m c r
  | 6 => X6 m c r
  | 8 => X8 m c r
  | _ => X10 m c r

/-- The result buffer after the last region: its write-back's block, folded. -/
theorem outs_result (c : Dev nD) : outs m 10 main_v64 c = (dat3 (E3 m) c).arrAt 7 cfg3.N := X10_arr m c 7

/-! # The proof data family and the thread state -/

/-- Every pipeline's proof data, each at its region's entry contents (a literal match on the pipeline). -/
def pdats : (p : Fin 4) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)

/-! # The regions as segments -/

set_option backward.isDefEq.respectTransparency.types false in
/-- Region 0 as a segment: entered with every unscoped buffer at `U3`, left with them at `U4`. Its arrays are split
    out of the unscoped buffers at entry and put back at their final contents at exit; the generator register goes
    into the invariant and comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun c t => owed_eq0 (E0 m) c t
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (E0 m) c w) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed_eq0 (E0 m) c 0]
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (E0 m) c w)
      (E0 m c) (fun b => U4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed_eq0 (E0 m) c _]
    icases HO with ⟨%W, -, HO⟩; iexists W; iexact HO

set_option backward.isDefEq.respectTransparency.types false in
/-- Region 1 as a segment: entered with every unscoped buffer at `U5`, left with them at `U6`. Its arrays are split
    out of the unscoped buffers at entry and put back at their final contents at exit; the generator register goes
    into the invariant and comes back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun c t => owed_eq1 (E1 m) c t
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (E1 m) c w) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed_eq1 (E1 m) c 0]
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    rw [Pipeline.ownSems0_none]
    refine BIBase.Entails.trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (E1 m) c w)
      (E1 m c) (fun b => U6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed_eq1 (E1 m) c _]
    icases HO with ⟨%W, -, HO⟩; iexists W; iexact HO

set_option backward.isDefEq.respectTransparency.types false in
/-- Region 2 as a segment: entered with every unscoped buffer at `U7`, left with them at `U8`. Its arrays are split
    out of the unscoped buffers at entry and put back at their final contents at exit; the generator register goes
    into the invariant and comes back; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun c t => owed_eq2 (E2 m) c t
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (E2 m) c w) (E2 m c) fun w => A_eq2 (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 2 c).owed 0 = 0 from owed_eq2 (E2 m) c 0]
      icases HO with ⟨%W, HO⟩; iexists W; isplitr; · ipureintro; exact fun _ _ => Or.inl trivial
      iexact HO
    isplitl [Hp]; · iexact Hp
    iexact Hrest
  hin c := by
    refine BIBase.Entails.trans ?_ (hin2 (E2 m) c)
    unfold Pipeline.ΦA
    iintro ⟨Hp, -, Hr⟩
    isplitl [Hr]; · iexact Hr
    iexact Hp
  hout c := by
    rw [Pipeline.ownSems0_none]
    refine BIBase.Entails.trans (hout2 (E2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (E2 m) c w)
      (E2 m c) (fun b => U8 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 2 c).owed (Fin.last _) = 0 from owed_eq2 (E2 m) c _]
    icases HO with ⟨%W, -, HO⟩; iexists W; iexact HO

set_option backward.isDefEq.respectTransparency.types false in
/-- Region 3 as a segment: entered with every unscoped buffer at `U9`, left with them at `U10`. Its arrays are split
    out of the unscoped buffers at entry and put back at their final contents at exit; the generator register goes
    into the invariant and comes back; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun c t => owed_eq3 (E3 m) c t
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (E3 m) c w) (E3 m c) fun w => A_eq3 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 3 c).owed 0 = 0 from owed_eq3 (E3 m) c 0]
      icases HO with ⟨%W, HO⟩; iexists W; isplitr; · ipureintro; exact fun _ _ => Or.inl trivial
      iexact HO
    isplitl [Hp]; · iexact Hp
    iexact Hrest
  hin c := by
    refine BIBase.Entails.trans ?_ (hin3 (E3 m) c)
    unfold Pipeline.ΦA
    iintro ⟨Hp, -, Hr⟩
    isplitl [Hr]; · iexact Hr
    iexact Hp
  hout c := by
    rw [Pipeline.ownSems0_none]
    refine BIBase.Entails.trans (hout3 (E3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (E3 m) c w)
      (E3 m c) (fun b => U10 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 3 c).owed (Fin.last _) = 0 from owed_eq3 (E3 m) c _]
    icases HO with ⟨%W, -, HO⟩; iexists W; iexact HO

/-! # The run -/

set_option backward.isDefEq.respectTransparency.types false in
/-- THE RUN, at any instance: from any memory with zero counters, every weakly fair execution of @main terminates,
    nothing faulting; the result buffer ends at the last region's folded write-back and every argument array as
    launched. -/
theorem run : θ_run defs (onTc (τ := τ) (main (F := F))) ⟨m, fun _ => 0, ρ⟩ (fun r => ∀ c : Dev nD,
      r.2.mem ((c.tc : Thread nD τ).loc main_v64) = outs m 10 main_v64 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have h1 : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)))
          ⊢ (bigSep Finset.univ fun c : Dev nD => R c : sProp 𝕄) := bigSep_mono fun c _ =>
        show (iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) : sProp 𝕄) ⊢ R c from by
          iintro ⟨-, HO, -, Hp, -⟩
          isplitl [Hp]; · iexists _; iexact Hp
          iexists ∅; iexact HO
      iintro ⟨H, -⟩
      imodintro
      iapply h1; iexact H)
    (hE4 := fun c => by iintro ⟨-, HO⟩; iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)
    (R3 := reg3 m) (hpre3 := fun c => .rfl) (hpost3 := fun c => .rfl)

end Cert.KernelIdeal.Hand

end
-- ==== Proof.KI.Funs.lean ====
/-
  What each kernel region computes at the ideal instance, as one function of the whole arrays it reads:
  a row of node features times a weight matrix, scaled by that node's normalisation factor (region 0);
  the same after the factor, a bias and a clamp at zero have been applied to the aggregated row (regions 1, 2);
  and the per-graph mean of the biased, scaled rows followed by the linear head (region 3).
-/
import proofs.«428485_j55886114456268_3_alg».proof.KernelIdeal
import Idealize.ShloMosaic.Lib.ValueIdx
import Idealize.ShloMosaic.PureOps.Ideal

noncomputable section

namespace Cert.KernelIdeal.Hand

open Cert.KernelIdeal Idealize.ShloMosaic Idealize.ShloMosaic.ValueIdx

/-- Row `r`, column `j`: the inner product of row `r` of `x` with column `j` of `w`, times `d r`. -/
def R0fun (x : FVec Ideal S100000x10 .f32) (w : FVec Ideal S10x128 .f32) (d : FVec Ideal S100000x1 .f32) :
    FVec Ideal S100000x128 .bf16 := fun i =>
  let r : Fin 100000 := i 0
  let j : Fin 128 := i 1
  ((∑ k : Fin 10, (x (ix2 r k) : EReal) * w (ix2 k j)) * d (ix2 r 0) : EReal)

/-- Row `r`, column `j`: with `a k = max (d r · agg r k + b k) 0`, the inner product of `a` with column `j` of
    `w`, times `d r`. -/
def R1fun (agg : FVec Ideal S100000x128 .f32) (d : FVec Ideal S100000x1 .f32) (b : FVec Ideal S1x128 .f32)
    (w : FVec Ideal S128x128 .f32) : FVec Ideal S100000x128 .bf16 := fun i =>
  let r : Fin 100000 := i 0
  let j : Fin 128 := i 1
  ((∑ k : Fin 128, max ((d (ix2 r 0) : EReal) * agg (ix2 r k) + b (ix2 0 k)) 0 * w (ix2 k j)) * d (ix2 r 0) : EReal)

/-- Graph `g`, column `j`: the rows `n` whose graph id `bt n` is `g` contribute `d n · agg n k + b k`; their sum over
    all nodes, divided by `cn g`, is contracted with column `j` of `wl`, and `bl j` is added. -/
def R3fun (agg : FVec Ideal S100000x128 .f32) (d : FVec Ideal S100000x1 .f32) (b : FVec Ideal S1x128 .f32)
    (bt : IVec S100000x1 32) (cn : FVec Ideal S64x1 .f32) (wl : FVec Ideal S128x3 .f32) (bl : FVec Ideal S1x3 .f32) :
    FVec Ideal S64x3 .f32 := fun i =>
  let g : Fin 64 := i 0
  let j : Fin 3 := i 1
  ((∑ k : Fin 128,
      Ideal.div (∑ n : Fin 100000, (if bt (ix2 n 0) = BitVec.ofNat 32 g.val then (1 : EReal) else 0)
          * ((d (ix2 n 0) : EReal) * agg (ix2 n k) + b (ix2 0 k))) (cn (ix2 g 0)) * wl (ix2 k j))
    + bl (ix2 0 j) : EReal)

end Cert.KernelIdeal.Hand

end
-- ==== Proof.KI.Layer.lean ====
import proofs.«428485_j55886114456268_3_alg».proof.Proof.RefReadP
import Idealize.ShloMosaic.Lib.StableHlo.Predicate
import Idealize.ShloMosaic.Lib.ValueIdx
import Idealize.ShloMosaic.PureOps.Ideal.Laws
import Mathlib.Data.EReal.Operations

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx (ix1 ix2 eq_ix1 eq_ix2)
open Idealize.ShloMosaic.StableHlo.Predicate (ixP)

local notation "sd" => scatter_S100000x128_S1700000x1_S1700000x128_1_0_0_1
local notation "gd" => gather_S100000x128_S1700000x1_S1700000x128_1_0_n_n_0_1_1128
local notation "gd1" => gather_S100000_S1700000x1_S1700000_n_0_n_n_0_1_1

/-- The start-index column of a row read in which a negative index wraps once, by the table's height. -/
def nrm (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The index column a scatter lands by: the index as it is. -/
def raw (v : IVec S1700000 32) : IVec S1700000x1 32 :=
  broadcastInDim S1700000x1 ![0] bcast_S1700000_S1700000x1_0 v

/-! ## Reading the two index columns at a row -/

theorem ofFin_eq_ix1 {n : Nat} (k : Fin n) : Shape.Idx.ofFin k = ix1 k :=
  (eq_ix1 _).trans (congrArg ix1 (Shape.Idx.ofFin_zero k))

theorem raw_at (v : IVec S1700000 32) (p : Fin 1700000) : raw v (ixP p) = v (ix1 p) := by
  unfold raw
  rw [Predicate.bcast_col1, ofFin_eq_ix1]

theorem nrm_at (v : IVec S1700000 32) (p : Fin 1700000) :
    nrm v (ixP p) = Scalar.select (IntOp.cmpi .slt (v (ix1 p)) 0#32) (IntOp.addi (v (ix1 p)) 100000#32) (v (ix1 p)) := by
  unfold nrm
  rw [Predicate.bcast_col1, ofFin_eq_ix1]
  rfl

/-! ## The reads' and the landing's index arithmetic on these dimension numbers -/

/-- The start index a result element of the row read names: its row's entry of the column. -/
theorem gd_siIdx (j : S1700000x128.Idx) (c : Fin (gd).startIndexMap.length) :
    (gd).siIdx j c = ixP (j 0 : Fin 1700000) := by
  funext b
  match b with
  | ⟨0, _⟩ => exact Fin.ext rfl
  | ⟨1, _⟩ =>
    apply Fin.ext
    have hc : c.val < 1 := c.isLt
    show c.val = 0
    omega

theorem gd1_siIdx (p : S1700000.Idx) (c : Fin (gd1).startIndexMap.length) :
    (gd1).siIdx p c = ixP (p 0 : Fin 1700000) := by
  funext b
  match b with
  | ⟨0, _⟩ => exact Fin.ext rfl
  | ⟨1, _⟩ =>
    apply Fin.ext
    have hc : c.val < 1 := c.isLt
    show c.val = 0
    omega

theorem sd_siIdx (j : S1700000x128.Idx) (c : Fin (sd).scatterDimsToOperandDims.length) :
    (sd).siIdx j c = ixP (j 0 : Fin 1700000) := by
  funext b
  match b with
  | ⟨0, _⟩ => exact Fin.ext rfl
  | ⟨1, _⟩ =>
    apply Fin.ext
    have hc : c.val < 1 := c.isLt
    show c.val = 0
    omega

/-- The rank-2 row read: the row is the start index read signed and clamped into the table. -/
theorem gd_row (j : S1700000x128.Idx) (idx : IVec S1700000x1 32) :
    (((gd).operandIdx j idx) 0).val = min (idx (ixP (j 0 : Fin 1700000))).toInt.toNat 99999 := by
  show (gd).start j idx 0 + (gd).batchCoord j 0 + (gd).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gd).startIndexMap from List.mem_singleton.mpr rfl), gd_siIdx]
  rfl

/-- The rank-1 read with the same start indices: the same clamped row. -/
theorem gd1_row (p : Fin 1700000) (idx : IVec S1700000x1 32) :
    (((gd1).operandIdx (ix1 p) idx) 0).val = min (idx (ixP p)).toInt.toNat 99999 := by
  show (gd1).start (ix1 p) idx 0 + (gd1).batchCoord (ix1 p) 0 + (gd1).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gd1).startIndexMap from List.mem_singleton.mpr rfl), gd1_siIdx]
  rfl

/-- (a) The rank-2 and the rank-1 read with the same start indices read the same row. -/
theorem row_eq (j : S1700000x128.Idx) (idx : IVec S1700000x1 32) :
    (((gd).operandIdx j idx) 0 : Fin 100000) = ((gd1).operandIdx (ix1 (j 0 : Fin 1700000)) idx) 0 :=
  Fin.ext ((gd_row j idx).trans (gd1_row (j 0) idx).symm)

/-- (b) Where an update lands: the scatter index is read signed and not clamped, so an update that lands on
    row `i 0` has that row as its index's signed value. -/
theorem dst_decode (dst : IVec S1700000 32) (j : S1700000x128.Idx) (i : S100000x128.Idx)
    (h : (sd).resultIdx? j (raw dst) = some i) : (dst (ix1 (j 0 : Fin 1700000))).toInt = ((i 0).val : Int) := by
  have hst : (sd).start j (raw dst) 0 = (dst (ix1 (j 0 : Fin 1700000))).toInt := by
    unfold ScatterDims.start
    rw [dif_pos (show (0 : Fin 2) ∈ (sd).scatterDimsToOperandDims from List.mem_singleton.mpr rfl), sd_siIdx]
    exact congrArg BitVec.toInt (raw_at dst (j 0))
  have hw : (sd).window j 0 = 0 := by
    unfold ScatterDims.window
    rw [dif_neg (show (0 : Fin 2) ∉ (sd).sKept by decide)]
  unfold ScatterDims.resultIdx? at h
  split at h
  · next hall =>
    have hi := Option.some.inj h
    have h0 := hall 0
    have hv : (i 0).val = ((sd).start j (raw dst) 0 + (sd).window j 0).toNat := by rw [← hi]
    rw [hst, hw] at h0 hv
    omega
  · exact absurd h (by simp)

/-- The wrapped column keeps an index that is a row of the table. -/
theorem nrm_keep (v : IVec S1700000 32) (p : Fin 1700000) (h : 0 ≤ (v (ix1 p)).toInt) :
    nrm v (ixP p) = v (ix1 p) := by
  rw [nrm_at]
  have hs : IntOp.cmpi .slt (v (ix1 p)) 0#32 = 0#1 := by
    show BitVec.ofBool ((v (ix1 p)).slt 0#32) = 0#1
    rw [BitVec.slt_eq_decide]
    have h0 : (0#32 : BitVec 32).toInt = 0 := by decide
    rw [h0, decide_eq_false (by omega)]
    rfl
  rw [hs, ValueIdx.select_zero]

/-- For an update that lands on row `i 0`, the wrapped read of the landing index reads that row: the wrap
    keeps it and the read's clamp leaves it. -/
theorem gd1_dst (dst : IVec S1700000 32) (j : S1700000x128.Idx) (i : S100000x128.Idx)
    (h : (sd).resultIdx? j (raw dst) = some i) :
    (gd1).operandIdx (ix1 (j 0 : Fin 1700000)) (nrm dst) = ix1 (i 0 : Fin 100000) := by
  have hv := dst_decode dst j i h
  have hi : (i 0).val < 100000 := (i 0).isLt
  refine (eq_ix1 _).trans (congrArg ix1 (Fin.ext ?_))
  refine (gd1_row (j 0) (nrm dst)).trans ?_
  rw [nrm_keep dst (j 0) (by rw [hv]; exact Int.natCast_nonneg _), hv]
  show min ((i 0).val : Int).toNat 99999 = (i 0).val
  omega

/-! ## A non-negative real factor goes through an extended-real sum -/

theorem coe_mul_sum {ι : Type} (s : Finset ι) (x : ℝ) (hx : 0 ≤ x) (f : ι → EReal) :
    (x : EReal) * ∑ j ∈ s, f j = ∑ j ∈ s, (x : EReal) * f j := by
  classical
  induction s using Finset.induction_on with
  | empty => simp
  | insert a s ha ih =>
    rw [Finset.sum_insert ha, Finset.sum_insert ha,
      EReal.left_distrib_of_nonneg_of_ne_top (EReal.coe_nonneg.mpr hx) (EReal.coe_ne_top x), ih]

/-! ## The layer's normalisation: the landing row's factor comes out of the sum over the updates that land there -/

theorem layer_eq (src dst : IVec S1700000 32) (H : S100000x128.Idx → EReal) (D : S100000.Idx → EReal)
    (hD : ∀ r, ∃ x : ℝ, 0 ≤ x ∧ D r = (x : EReal)) (Z : S100000x128.Idx → EReal) (hZ : ∀ i, Z i = 0)
    (i : S100000x128.Idx) :
    D (ix1 (i 0 : Fin 100000)) * Ideal.hostScatterAdd sd Z (raw dst)
        (fun j => H ((gd).operandIdx j (nrm src)) * D (ix1 (((gd).operandIdx j (nrm src)) 0 : Fin 100000))) i
      = Ideal.hostScatterAdd sd Z (raw dst)
        (fun j => H ((gd).operandIdx j (nrm src)) *
          (D ((gd1).operandIdx (ix1 (j 0 : Fin 1700000)) (nrm src)) *
            D ((gd1).operandIdx (ix1 (j 0 : Fin 1700000)) (nrm dst)))) i := by
  obtain ⟨x, hx, hDx⟩ := hD (ix1 (i 0 : Fin 100000))
  unfold Ideal.hostScatterAdd
  beta_reduce
  rw [hZ i, zero_add, zero_add, hDx, coe_mul_sum _ x hx]
  refine Finset.sum_congr rfl fun j hj => ?_
  have hj' := (Finset.mem_filter.mp hj).2
  -- the source factor: the two reads name the same row
  have hb : D (ix1 (((gd).operandIdx j (nrm src)) 0 : Fin 100000)) = D ((gd1).operandIdx (ix1 (j 0 : Fin 1700000)) (nrm src)) :=
    congrArg D ((congrArg ix1 (row_eq j (nrm src))).trans (eq_ix1 _).symm)
  -- the landing factor: the update lands on row `i 0`
  have hc : D ((gd1).operandIdx (ix1 (j 0 : Fin 1700000)) (nrm dst)) = (x : EReal) :=
    (congrArg D (gd1_dst dst j i hj')).trans hDx
  rw [mul_left_comm, mul_comm (x : EReal)]
  exact congrArg (H ((gd).operandIdx j (nrm src)) * ·) (congrArg₂ (· * ·) hb hc.symm)

end Cert.ReferenceIdeal.Hand

end
-- ==== Proof.KI.Pool.lean ====
import proofs.«428485_j55886114456268_3_alg».proof.Proof.RefReadP
import Idealize.ShloMosaic.Lib.Pipeline.Value
import Idealize.ShloMosaic.Lib.ValueIdx
import Idealize.ShloMosaic.Lib.IdealHost
import Idealize.ShloMosaic.PureOps.Ideal.Laws
import Mathlib.Algebra.BigOperators.Fin
import Mathlib.Logic.Equiv.Fin.Basic

noncomputable section

namespace Cert.ReferenceIdeal.Hand

open Cert.ReferenceIdeal Cert.ReferenceIdeal.Gen Idealize.ShloMosaic Idealize.ShloMosaic.TcCoe Idealize.SL.Sem Idealize.ShloMosaic.StableHlo

/-- The 100000 nodes as 20 blocks of 5000 rows: the pair (block, row in block) is the node. -/
def blockEquiv : Fin 20 × Fin 5000 ≃ Fin 100000 where
  toFun p := ⟨5000 * p.1.val + p.2.val, by have := p.1.isLt; have := p.2.isLt; omega⟩
  invFun n := (⟨n.val / 5000, by have := n.isLt; omega⟩, ⟨n.val % 5000, by omega⟩)
  left_inv p := by
    have h1 := p.1.isLt; have h2 := p.2.isLt
    refine Prod.ext (Fin.ext ?_) (Fin.ext ?_)
    · show (5000 * p.1.val + p.2.val) / 5000 = p.1.val; omega
    · show (5000 * p.1.val + p.2.val) % 5000 = p.2.val; omega
  right_inv n := by
    refine Fin.ext ?_
    show 5000 * (n.val / 5000) + n.val % 5000 = n.val; omega

/-- A sum over the nodes is the sum over the blocks of the sums over each block's rows. -/
theorem sum_blocks {M : Type} [AddCommMonoid M] (f : Fin 100000 → M) :
    ∑ n : Fin 100000, f n = ∑ t : Fin 20, ∑ r : Fin 5000, f ⟨5000 * t.val + r.val, by have := t.isLt; have := r.isLt; omega⟩ := by
  rw [← Equiv.sum_comp blockEquiv f, Fintype.sum_prod_type]
  rfl

/-- The normalisation factor — the reciprocal square root where its argument is positive, zero elsewhere — is a real
    number that is not negative. -/
theorem dis_real (x : EReal) : ∃ r : ℝ, 0 ≤ r ∧ (if 0 < x then Ideal.rsqrt x else 0) = (r : EReal) := by
  induction x using EReal.rec with
  | bot => exact ⟨0, le_refl _, by rw [if_neg (not_lt_bot)]; rfl⟩
  | top => exact ⟨0, le_refl _, by rw [if_pos (by exact EReal.zero_lt_top)]; rfl⟩
  | coe r =>
    by_cases h : (0 : EReal) < (r : EReal)
    · have hr : 0 < r := by exact_mod_cast h
      refine ⟨(Real.sqrt r)⁻¹, inv_nonneg.2 (Real.sqrt_nonneg r), ?_⟩
      rw [if_pos h]
      show (if r < 0 then (⊥ : EReal) else if r = 0 then ⊤ else ((Real.sqrt r)⁻¹ : ℝ)) = _
      rw [if_neg (not_lt.2 hr.le), if_neg hr.ne']
    · exact ⟨0, le_refl _, by rw [if_neg h]; rfl⟩

/-- The printed normalisation factor (compare-greater-than-zero, reciprocal square root, select against zero) at a node
    is a real number that is not negative. -/
theorem dis_nonneg (x1 : (⟨S2x1600000, .i32⟩ : BufTy).Contents (Elt Ideal)) (r : S100000.Idx) :
    ∃ y : ℝ, 0 ≤ y ∧ PRead.val_main_v14 (F := Ideal) x1 r = (y : EReal) := by
  obtain ⟨y, hy, h⟩ := dis_real (PRead.val_main_v10 (F := Ideal) x1 r)
  refine ⟨y, hy, ?_⟩
  rw [← h, PRead.val_main_v14_apply, PRead.val_main_v12_apply, PRead.val_main_v13_apply, PRead.val_main_v11_apply,
    PRead.val_main_call0_v1_apply, PRead.val_main_call0_v0_apply, PRead.val_main_cst_1_apply, PRead.val_main_cst_2_apply]
  simp only [Ideal.cmpf_def, Ideal.hostUnary_rsqrt_def, Ideal.ofBits_def, Ideal.ofBits_zero_f32, Scalar.select, Ideal.cmp]
  by_cases h0 : (0 : EReal) < PRead.val_main_v10 (F := Ideal) x1 r
  · simp [h0]
  · simp [h0]

/-- The segment-sum scatter's dimension numbers. -/
abbrev sd64 : ScatterDims S64x128 S100000x1 S100000x128 := scatter_S64x128_S100000x1_S100000x128_1_0_0_1

/-- An update's result index is a given operand index exactly when start plus window coordinate is that index's
    coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have h1 := congrFun (Option.some.inj he) a
      have h2 := congrArg Fin.val h1
      have h3 := (h a).1
      simp only at h2
      omega
    · intro he
      refine congrArg some (funext fun a => Fin.ext ?_)
      have := he a
      show (d.start j idx a + (d.window j a : Int)).toNat = (i a).val
      omega
  · rename_i h
    constructor
    · intro he; exact absurd he (by simp)
    · intro he
      exact absurd (fun a => by have := he a; have := (i a).isLt; constructor <;> omega) h

/-- A word's signed value is a graph id below 64 exactly when the word is that id. -/
theorem toInt_eq_graph_iff (b : BitVec 32) (g : Fin 64) : b.toInt = (g.val : Int) ↔ b = BitVec.ofNat 32 g.val := by
  have hg : (BitVec.ofNat 32 g.val).toInt = (g.val : Int) := by
    have := g.isLt
    rw [BitVec.toInt_eq_toNat_cond, BitVec.toNat_ofNat]
    omega
  constructor
  · intro h; exact BitVec.eq_of_toInt_eq (h.trans hg.symm)
  · intro h; rw [h, hg]

/-- The scatter indices of the segment sum: the graph id of each node, as a column. -/
abbrev gidx (bt : IVec S100000 32) : IVec S100000x1 32 := broadcastInDim S100000x1 ![0] bcast_S100000_S100000x1_0 bt

/-- On the graph axis an update's start is the signed graph id of its node. -/
theorem sd64_start0 (bt : IVec S100000 32) (n : Fin 100000) (k' : Fin 128) :
    sd64.start (ValueIdx.ix2 n k') (gidx bt) 0 = (bt (ValueIdx.ix1 n)).toInt := by
  have ha : (0 : Fin S64x128.rank) ∈ sd64.scatterDimsToOperandDims := by
    show (0 : Fin 2) ∈ [(0 : Fin 2)]; exact List.mem_singleton.2 rfl
  unfold ScatterDims.start
  rw [dif_pos ha]
  congr 1
  exact broadcastInDim_apply _ bcast_S100000_S100000x1_0 bt _ (ValueIdx.ix1 n) (fun a => match a with
    | ⟨0, _⟩ => by show n.val = if (100000 : Nat) = 1 then 0 else _; rw [if_neg (by decide)]; rfl)

/-- On the feature axis the start is zero: the index vector names the graph axis only. -/
theorem sd64_start1 (bt : IVec S100000 32) (j : S100000x128.Idx) : sd64.start j (gidx bt) 1 = 0 := by
  have ha : (1 : Fin S64x128.rank) ∉ sd64.scatterDimsToOperandDims := by
    show (1 : Fin 2) ∉ [(0 : Fin 2)]; decide
  unfold ScatterDims.start
  rw [dif_neg ha]

/-- The graph axis is an inserted window axis: its window coordinate is zero. -/
theorem sd64_window0 (j : S100000x128.Idx) : sd64.window j 0 = 0 := by
  have ha : (0 : Fin S64x128.rank) ∉ sd64.sKept := by
    show (0 : Fin 2) ∉ S64x128.kept [(0 : Fin 2)]; decide
  unfold ScatterDims.window
  rw [dif_neg ha]

/-- The feature axis is the update's window axis: its window coordinate is the update's feature coordinate. -/
theorem sd64_window1 (n : Fin 100000) (k' : Fin 128) : sd64.window (ValueIdx.ix2 n k') 1 = k'.val := by
  have ha : (1 : Fin S64x128.rank) ∈ sd64.sKept := by
    show (1 : Fin 2) ∈ S64x128.kept [(0 : Fin 2)]; decide
  unfold ScatterDims.window
  rw [dif_pos ha]
  rfl

/-- The update of node `n`, feature `k'` lands on graph `g`, feature `k` exactly when the features agree and the
    node's graph id is `g`. -/
theorem lands_iff (bt : IVec S100000 32) (n : Fin 100000) (k' : Fin 128) (g : Fin 64) (k : Fin 128) :
    sd64.resultIdx? (ValueIdx.ix2 n k') (gidx bt) = some (ValueIdx.ix2 g k)
      ↔ k' = k ∧ bt (ValueIdx.ix1 n) = BitVec.ofNat 32 g.val := by
  rw [resultIdx?_eq_some_iff, Fin.forall_fin_two, sd64_start0, sd64_start1, sd64_window0, sd64_window1,
    ← toInt_eq_graph_iff]
  show (bt (ValueIdx.ix1 n)).toInt + ((0 : Nat) : Int) = (g.val : Int) ∧ (0 : Int) + (k'.val : Int) = (k.val : Int) ↔ _
  constructor
  · rintro ⟨h0, h1⟩; exact ⟨Fin.ext (by omega), by omega⟩
  · rintro ⟨h1, h0⟩; subst h1; exact ⟨by omega, by omega⟩

/-- The segment sum over graph ids is the one-hot contraction: from a zero operand, the scatter-add of the node rows
    by graph id is, at graph `g` and feature `k`, the sum over the nodes of the indicator of "node `n` is in graph `g`"
    times the node's feature. -/
theorem pool_eq (bt : IVec S100000 32) (X : S100000x128.Idx → EReal) (Z : S64x128.Idx → EReal) (hZ : ∀ i, Z i = 0)
    (g : Fin 64) (k : Fin 128) :
    Ideal.hostScatterAdd sd64 Z (broadcastInDim S100000x1 ![0] bcast_S100000_S100000x1_0 bt) X (ValueIdx.ix2 g k)
      = ∑ n : Fin 100000, (if bt (ValueIdx.ix1 n) = BitVec.ofNat 32 g.val then (1 : EReal) else 0) * X (ValueIdx.ix2 n k) := by
  unfold Ideal.hostScatterAdd
  rw [hZ, zero_add, Finset.sum_filter, ValueIdx.sum_idx2]
  refine Finset.sum_congr rfl (fun n _ => ?_)
  refine (Finset.sum_congr rfl (fun k' _ => if_congr (lands_iff bt n k' g k) rfl rfl)).trans ?_
  by_cases hb : bt (ValueIdx.ix1 n) = BitVec.ofNat 32 g.val
  · simp only [hb, and_true, if_true, one_mul]
    rw [Finset.sum_ite_eq' Finset.univ k (fun k' => X (ValueIdx.ix2 n k'))]
    simp
  · simp only [hb, and_false, if_false, zero_mul, Finset.sum_const_zero]

end Cert.ReferenceIdeal.Hand

end
-- ==== Proof.KI.Chain.lean ====
/-
  The mathematics of the equivalence, free of both programs: two ways of computing the same network from the same
  arrays. In the one (the reference's shape) every edge's message is scaled by the product of its two endpoints'
  factors before the segment sum; in the other (the kernel's shape) each row is scaled by its own factor before it is
  gathered and the segment sum's row by the receiving node's factor afterwards. The receiving node's factor is a
  non-negative real, so it distributes over the segment sum; the pooling's one-hot contraction is the segment sum
  over graph ids. Hence the two results agree, whatever extended reals the other arrays hold.
-/
import proofs.«428485_j55886114456268_3_alg».proof.Proof.KI.Layer
import proofs.«428485_j55886114456268_3_alg».proof.Proof.KI.Pool

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx (ix1 ix2 eq_ix1 eq_ix2)

local notation "sd" => scatter_S100000x128_S1700000x1_S1700000x128_1_0_0_1
local notation "gd" => gather_S100000x128_S1700000x1_S1700000x128_1_0_n_n_0_1_1128
local notation "gd1" => gather_S100000_S1700000x1_S1700000_n_0_n_n_0_1_1

section Chains

variable (src dst : IVec S1700000 32) (bt : IVec S100000 32) (D : S100000.Idx → EReal)
  (x : S100000x10.Idx → EReal) (w1 : S10x128.Idx → EReal) (b1 b2 b3 : S128.Idx → EReal)
  (w2 w3 : S128x128.Idx → EReal) (wl : S128x3.Idx → EReal) (bl : S3.Idx → EReal) (cn : S64.Idx → EReal)
  (Z : S100000x128.Idx → EReal) (Z64 : S64x128.Idx → EReal)

/-- A dense layer: row `p 0` of `a` against column `p 1` of `w`. -/
def dense128 (a : S100000x128.Idx → EReal) (w : S128x128.Idx → EReal) : S100000x128.Idx → EReal := fun p =>
  ∑ k : Fin 128, a (ix2 (p 0 : Fin 100000) k) * w (ix2 k (p 1 : Fin 128))

/-- The first dense layer, over the ten input features. -/
def dense10 : S100000x128.Idx → EReal := fun p =>
  ∑ k : Fin 10, x (ix2 (p 0 : Fin 100000) k) * w1 (ix2 k (p 1 : Fin 128))

/-- The clamp at zero. -/
def relu (a : S100000x128.Idx → EReal) : S100000x128.Idx → EReal := fun p => max (a p) 0

/-! ### The reference's shape -/

/-- One propagation in the reference's shape: every edge's message `h (row read by src)` times the product of the
    factors read by src and by dst, summed onto the row dst names, plus the bias. -/
def refProp (h : S100000x128.Idx → EReal) (b : S128.Idx → EReal) : S100000x128.Idx → EReal := fun i =>
  Ideal.hostScatterAdd sd Z (raw dst)
      (fun j => h ((gd).operandIdx j (nrm src)) *
        (D ((gd1).operandIdx (ix1 (j 0 : Fin 1700000)) (nrm src)) * D ((gd1).operandIdx (ix1 (j 0 : Fin 1700000)) (nrm dst)))) i
    + b (ix1 (i 1 : Fin 128))

def refOut1 : S100000x128.Idx → EReal := refProp src dst D Z (dense10 x w1) b1
def refOut2 : S100000x128.Idx → EReal := refProp src dst D Z (dense128 (relu (refOut1 src dst D x w1 b1 Z)) w2) b2
def refOut3 : S100000x128.Idx → EReal := refProp src dst D Z (dense128 (relu (refOut2 src dst D x w1 b1 b2 w2 Z)) w3) b3

/-- The reference's result: the per-graph segment sum of the last layer, divided by the counts, through the head. -/
def refRes : S64x3.Idx → EReal := fun i =>
  (∑ k : Fin 128,
      Ideal.div (Ideal.hostScatterAdd sd64 Z64 (broadcastInDim S100000x1 ![0] bcast_S100000_S100000x1_0 bt)
          (refOut3 src dst D x w1 b1 b2 b3 w2 w3 Z) (ix2 (i 0 : Fin 64) k)) (cn (ix1 (i 0 : Fin 64)))
        * wl (ix2 k (i 1 : Fin 3)))
    + bl (ix1 (i 1 : Fin 3))

/-! ### The kernel's shape -/

/-- A row scaled by its own node's factor (what a kernel region leaves for the gather). -/
def scaleRow (h : S100000x128.Idx → EReal) : S100000x128.Idx → EReal := fun p => h p * D (ix1 (p 0 : Fin 100000))

/-- The plain segment sum of the gathered, already scaled rows. -/
def kerAgg (hs : S100000x128.Idx → EReal) : S100000x128.Idx → EReal := fun i =>
  Ideal.hostScatterAdd sd Z (raw dst) (fun j => hs ((gd).operandIdx j (nrm src))) i

/-- What the next region forms from an aggregate: the receiving node's factor times it, plus the bias. -/
def kerPre (agg : S100000x128.Idx → EReal) (b : S128.Idx → EReal) : S100000x128.Idx → EReal := fun p =>
  D (ix1 (p 0 : Fin 100000)) * agg p + b (ix1 (p 1 : Fin 128))

def kerAgg1 : S100000x128.Idx → EReal := kerAgg src dst Z (scaleRow D (dense10 x w1))
def kerAgg2 : S100000x128.Idx → EReal := kerAgg src dst Z (scaleRow D (dense128 (relu (kerPre D (kerAgg1 src dst D x w1 Z) b1)) w2))
def kerAgg3 : S100000x128.Idx → EReal := kerAgg src dst Z (scaleRow D (dense128 (relu (kerPre D (kerAgg2 src dst D x w1 b1 w2 Z) b2)) w3))

/-- The kernel's result: the one-hot contraction over all nodes of the last layer's rows, divided by the counts,
    through the head. -/
def kerRes : S64x3.Idx → EReal := fun i =>
  (∑ k : Fin 128,
      Ideal.div (∑ n : Fin 100000, (if bt (ix1 n) = BitVec.ofNat 32 (i 0 : Fin 64).val then (1 : EReal) else 0)
          * kerPre D (kerAgg3 src dst D x w1 b1 b2 w2 w3 Z) b3 (ix2 n k)) (cn (ix1 (i 0 : Fin 64)))
        * wl (ix2 k (i 1 : Fin 3)))
    + bl (ix1 (i 1 : Fin 3))

/-! ### One layer: the receiving node's factor distributes over the segment sum -/

/-- The layer step: scaling each row by its own factor before the gather and the segment sum's row by the receiving
    node's factor afterwards is scaling every edge's message by the product of its endpoints' factors. -/
theorem step_eq (hD : ∀ r, ∃ y : ℝ, 0 ≤ y ∧ D r = (y : EReal)) (hZ : ∀ i, Z i = 0)
    (h : S100000x128.Idx → EReal) (b : S128.Idx → EReal) :
    kerPre D (kerAgg src dst Z (scaleRow D h)) b = refProp src dst D Z h b := by
  funext i
  exact congrArg (· + b (ix1 (i 1 : Fin 128))) (layer_eq src dst h D hD Z hZ i)

/-- After the first layer the two shapes agree. -/
theorem out1_eq (hD : ∀ r, ∃ y : ℝ, 0 ≤ y ∧ D r = (y : EReal)) (hZ : ∀ i, Z i = 0) :
    kerPre D (kerAgg1 src dst D x w1 Z) b1 = refOut1 src dst D x w1 b1 Z :=
  step_eq src dst D Z hD hZ (dense10 x w1) b1

/-- After the second layer the two shapes agree. -/
theorem out2_eq (hD : ∀ r, ∃ y : ℝ, 0 ≤ y ∧ D r = (y : EReal)) (hZ : ∀ i, Z i = 0) :
    kerPre D (kerAgg2 src dst D x w1 b1 w2 Z) b2 = refOut2 src dst D x w1 b1 b2 w2 Z :=
  (step_eq src dst D Z hD hZ (dense128 (relu (kerPre D (kerAgg1 src dst D x w1 Z) b1)) w2) b2).trans
    (congrArg (fun t => refProp src dst D Z (dense128 (relu t) w2) b2) (out1_eq src dst D x w1 b1 Z hD hZ))

/-- After the third layer the two shapes agree. -/
theorem out3_eq (hD : ∀ r, ∃ y : ℝ, 0 ≤ y ∧ D r = (y : EReal)) (hZ : ∀ i, Z i = 0) :
    kerPre D (kerAgg3 src dst D x w1 b1 b2 w2 w3 Z) b3 = refOut3 src dst D x w1 b1 b2 b3 w2 w3 Z :=
  (step_eq src dst D Z hD hZ (dense128 (relu (kerPre D (kerAgg2 src dst D x w1 b1 w2 Z) b2)) w3) b3).trans
    (congrArg (fun t => refProp src dst D Z (dense128 (relu t) w3) b3) (out2_eq src dst D x w1 b1 b2 w2 Z hD hZ))

/-- THE TWO SHAPES AGREE, layer by layer and in the result, when every node's factor is a non-negative real and the
    two scatter operands are zero. -/
theorem ker_eq_ref (hD : ∀ r, ∃ y : ℝ, 0 ≤ y ∧ D r = (y : EReal)) (hZ : ∀ i, Z i = 0) (hZ64 : ∀ i, Z64 i = 0) :
    kerRes src dst bt D x w1 b1 b2 b3 w2 w3 wl bl cn Z = refRes src dst bt D x w1 b1 b2 b3 w2 w3 wl bl cn Z Z64 := by
  funext i
  unfold kerRes refRes
  rw [out3_eq src dst D x w1 b1 b2 b3 w2 w3 Z hD hZ]
  refine congrArg (· + bl (ix1 (i 1 : Fin 3))) (Finset.sum_congr rfl fun k _ => ?_)
  rw [pool_eq bt (refOut3 src dst D x w1 b1 b2 b3 w2 w3 Z) Z64 hZ64 (i 0 : Fin 64) k]

end Chains

end Cert.ReferenceIdeal.Hand

end
-- ==== Proof.KI.FunsChain.lean ====
/-
  The kernel regions' array functions are the pieces of the kernel-shaped chain: the first region's function is the
  first dense layer with every row scaled by its node's factor; the middle regions' function is the next dense layer of
  the clamped, biased, factor-scaled aggregate, scaled again; the last region's function is the pooled, normalised
  aggregate through the head. The column and row arrays the regions read are reshapes of the vectors the chain is
  stated over; a reshape to a column or to a row reads the vector's element.
-/
import proofs.«428485_j55886114456268_3_alg».proof.Proof.KI.Funs
import proofs.«428485_j55886114456268_3_alg».proof.Proof.KI.Chain

noncomputable section

namespace Cert.KernelIdeal.Hand

open Cert.KernelIdeal Idealize.ShloMosaic Idealize.ShloMosaic.ValueIdx
open Cert.ReferenceIdeal.Hand

/-! ## A vector reshaped to a column or to a row reads the vector's element -/

/-- The node vector as a column, at row `r`. -/
theorem col_reshape_apply {α : Type} (h : S100000.ShapeCasts S100000x1) (v : S100000.Idx → α) (r : Fin 100000) :
    shapeCast S100000x1 v h (ix2 r 0) = v (ix1 r) :=
  shapeCast_apply v h (ix2 r 0) (ix1 r) (by
    rw [Shape.rowMajor_val_one, Shape.rowMajor_val_two]; show r.val = r.val * 1 + 0; omega)

/-- The graph vector as a column, at row `g`. -/
theorem col64_reshape_apply {α : Type} (h : S64.ShapeCasts S64x1) (v : S64.Idx → α) (g : Fin 64) :
    shapeCast S64x1 v h (ix2 g 0) = v (ix1 g) :=
  shapeCast_apply v h (ix2 g 0) (ix1 g) (by
    rw [Shape.rowMajor_val_one, Shape.rowMajor_val_two]; show g.val = g.val * 1 + 0; omega)

/-- The feature vector as a row, at column `k`. -/
theorem row_reshape_apply {α : Type} (h : S128.ShapeCasts S1x128) (v : S128.Idx → α) (k : Fin 128) :
    shapeCast S1x128 v h (ix2 0 k) = v (ix1 k) :=
  shapeCast_apply v h (ix2 0 k) (ix1 k) (by
    rw [Shape.rowMajor_val_one, Shape.rowMajor_val_two]; show k.val = 0 * 128 + k.val; omega)

/-- The class vector as a row, at column `j`. -/
theorem row3_reshape_apply {α : Type} (h : S3.ShapeCasts S1x3) (v : S3.Idx → α) (j : Fin 3) :
    shapeCast S1x3 v h (ix2 0 j) = v (ix1 j) :=
  shapeCast_apply v h (ix2 0 j) (ix1 j) (by
    rw [Shape.rowMajor_val_one, Shape.rowMajor_val_two]; show j.val = 0 * 3 + j.val; omega)

/-! ## The regions' functions as the chain's pieces -/

/-- The first region: the first dense layer, every row scaled by its node's factor. -/
theorem R0fun_eq (x : FVec Ideal S100000x10 .f32) (w : FVec Ideal S10x128 .f32) (d2 : FVec Ideal S100000x1 .f32)
    (D : Cert.ReferenceIdeal.S100000.Idx → EReal) (hd : ∀ r : Fin 100000, d2 (ix2 r 0) = D (ix1 r)) :
    R0fun x w d2 = scaleRow D (dense10 x w) := by
  funext i
  obtain ⟨r, j, rfl⟩ : ∃ (r : Fin 100000) (j : Fin 128), i = ix2 r j := ⟨i 0, i 1, eq_ix2 i⟩
  show (∑ k : Fin 10, (x (ix2 r k) : EReal) * w (ix2 k j)) * d2 (ix2 r 0)
    = (∑ k : Fin 10, (x (ix2 r k) : EReal) * w (ix2 k j)) * D (ix1 r)
  rw [hd]

/-- A middle region: the next dense layer of the clamped, biased, factor-scaled aggregate, every row scaled by its
    node's factor. -/
theorem R1fun_eq (agg : FVec Ideal S100000x128 .f32) (d2 : FVec Ideal S100000x1 .f32) (b2 : FVec Ideal S1x128 .f32)
    (w : FVec Ideal S128x128 .f32) (D : Cert.ReferenceIdeal.S100000.Idx → EReal) (b : Cert.ReferenceIdeal.S128.Idx → EReal)
    (hd : ∀ r : Fin 100000, d2 (ix2 r 0) = D (ix1 r)) (hb : ∀ k : Fin 128, b2 (ix2 0 k) = b (ix1 k)) :
    R1fun agg d2 b2 w = scaleRow D (dense128 (relu (kerPre D agg b)) w) := by
  funext i
  obtain ⟨r, j, rfl⟩ : ∃ (r : Fin 100000) (j : Fin 128), i = ix2 r j := ⟨i 0, i 1, eq_ix2 i⟩
  show (∑ k : Fin 128, max ((d2 (ix2 r 0) : EReal) * agg (ix2 r k) + b2 (ix2 0 k)) 0 * w (ix2 k j)) * d2 (ix2 r 0)
    = (∑ k : Fin 128, max (D (ix1 r) * (agg (ix2 r k) : EReal) + b (ix1 k)) 0 * w (ix2 k j)) * D (ix1 r)
  simp only [hd, hb]

/-- The last region: the one-hot contraction over all nodes of the biased, factor-scaled aggregate, divided by the
    counts, through the head. -/
theorem R3fun_eq (agg : FVec Ideal S100000x128 .f32) (d2 : FVec Ideal S100000x1 .f32) (b2 : FVec Ideal S1x128 .f32)
    (bt2 : IVec S100000x1 32) (cn2 : FVec Ideal S64x1 .f32) (wl : FVec Ideal S128x3 .f32) (bl2 : FVec Ideal S1x3 .f32)
    (D : Cert.ReferenceIdeal.S100000.Idx → EReal) (b : Cert.ReferenceIdeal.S128.Idx → EReal)
    (bt : IVec Cert.ReferenceIdeal.S100000 32) (cn : Cert.ReferenceIdeal.S64.Idx → EReal) (bl : Cert.ReferenceIdeal.S3.Idx → EReal)
    (hd : ∀ r : Fin 100000, d2 (ix2 r 0) = D (ix1 r)) (hb : ∀ k : Fin 128, b2 (ix2 0 k) = b (ix1 k))
    (hbt : ∀ n : Fin 100000, bt2 (ix2 n 0) = bt (ix1 n)) (hcn : ∀ g : Fin 64, cn2 (ix2 g 0) = cn (ix1 g))
    (hbl : ∀ j : Fin 3, bl2 (ix2 0 j) = bl (ix1 j)) :
    R3fun agg d2 b2 bt2 cn2 wl bl2 = fun i =>
      (∑ k : Fin 128, Ideal.div (∑ n : Fin 100000, (if bt (ix1 n) = BitVec.ofNat 32 (i 0 : Fin 64).val then (1 : EReal) else 0)
          * kerPre D agg b (ix2 n k)) (cn (ix1 (i 0 : Fin 64))) * wl (ix2 k (i 1 : Fin 3))) + bl (ix1 (i 1 : Fin 3)) := by
  funext i
  obtain ⟨g, j, rfl⟩ : ∃ (g : Fin 64) (j : Fin 3), i = ix2 g j := ⟨i 0, i 1, eq_ix2 i⟩
  show (∑ k : Fin 128,
        Ideal.div (∑ n : Fin 100000, (if bt2 (ix2 n 0) = BitVec.ofNat 32 g.val then (1 : EReal) else 0)
            * ((d2 (ix2 n 0) : EReal) * agg (ix2 n k) + b2 (ix2 0 k))) (cn2 (ix2 g 0)) * wl (ix2 k j))
      + bl2 (ix2 0 j)
    = (∑ k : Fin 128,
        Ideal.div (∑ n : Fin 100000, (if bt (ix1 n) = BitVec.ofNat 32 g.val then (1 : EReal) else 0)
            * (D (ix1 n) * (agg (ix2 n k) : EReal) + b (ix1 k))) (cn (ix1 g)) * wl (ix2 k j))
      + bl (ix1 j)
  simp only [hd, hb, hbt, hcn, hbl]

/-- With the last aggregate of the kernel-shaped chain, the last region's function is the chain's result. -/
theorem R3fun_eq_kerRes (src dst : IVec Cert.ReferenceIdeal.S1700000 32) (bt : IVec Cert.ReferenceIdeal.S100000 32)
    (D : Cert.ReferenceIdeal.S100000.Idx → EReal) (x : Cert.ReferenceIdeal.S100000x10.Idx → EReal)
    (w1 : Cert.ReferenceIdeal.S10x128.Idx → EReal) (b1 b2 b3 : Cert.ReferenceIdeal.S128.Idx → EReal)
    (w2 w3 : Cert.ReferenceIdeal.S128x128.Idx → EReal) (wl : Cert.ReferenceIdeal.S128x3.Idx → EReal)
    (bl : Cert.ReferenceIdeal.S3.Idx → EReal) (cn : Cert.ReferenceIdeal.S64.Idx → EReal)
    (Z : Cert.ReferenceIdeal.S100000x128.Idx → EReal)
    (d2 : FVec Ideal S100000x1 .f32) (bb : FVec Ideal S1x128 .f32) (bt2 : IVec S100000x1 32) (cn2 : FVec Ideal S64x1 .f32)
    (bl2 : FVec Ideal S1x3 .f32)
    (hd : ∀ r : Fin 100000, d2 (ix2 r 0) = D (ix1 r)) (hb : ∀ k : Fin 128, bb (ix2 0 k) = b3 (ix1 k))
    (hbt : ∀ n : Fin 100000, bt2 (ix2 n 0) = bt (ix1 n)) (hcn : ∀ g : Fin 64, cn2 (ix2 g 0) = cn (ix1 g))
    (hbl : ∀ j : Fin 3, bl2 (ix2 0 j) = bl (ix1 j)) :
    R3fun (kerAgg3 src dst D x w1 b1 b2 w2 w3 Z) d2 bb bt2 cn2 wl bl2 = kerRes src dst bt D x w1 b1 b2 b3 w2 w3 wl bl cn Z :=
  (R3fun_eq (kerAgg3 src dst D x w1 b1 b2 w2 w3 Z) d2 bb bt2 cn2 wl bl2 D b3 bt cn bl hd hb hbt hcn hbl).trans rfl

end Cert.KernelIdeal.Hand

end
-- ==== Proof.KI.KerCore.lean ====
/-
  The kernel program's chain over plain arrays: the four regions' functions with the host's aggregation (a row read by
  edge source, a segment sum by edge target) between them, composed, is the kernel-shaped chain of the network.
  Each region's function is one piece of that chain once its reshaped operands are read at an index, and the host's
  aggregation is the chain's segment sum of gathered rows as it stands.
-/
import proofs.«428485_j55886114456268_3_alg».proof.Proof.Gen.KernelIdeal
import proofs.«428485_j55886114456268_3_alg».proof.Proof.KI.FunsChain

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.ReferenceIdeal.Hand (kerRes kerAgg kerPre scaleRow dense10 dense128 relu kerAgg1 kerAgg2 kerAgg3)

/-! ## The host's aggregation between two regions -/

/-- Every edge's source row of a region's output (a negative source index wrapping once), widened, summed into the
    edge's target row of `Z`. -/
def kAgg (src dst : IVec S1700000 32) (Z : FVec Ideal S100000x128 .f32) (o : FVec Ideal S100000x128 .bf16) :
    FVec Ideal S100000x128 .f32 :=
  Host.scatterAdd scatter_S100000x128_S1700000x1_S1700000x128_1_0_0_1 Z
    (broadcastInDim S1700000x1 ![0] bcast_S1700000_S1700000x1_0 dst)
    (extf .f32 (Host.gather gather_S100000x128_S1700000x1_S1700000x128_1_0_n_n_0_1_1128 o
      (broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32))) src))) bitsLt_bf16_f32)

/-- It is the chain's plain segment sum of the gathered rows: at the ideal instance the widening is the identity, the
    host's scatter with an addition body is the sum of the updates landing on each element, and the two programs'
    dimension records have the same fields. -/
theorem kAgg_eq (src dst : IVec S1700000 32) (Z : FVec Ideal S100000x128 .f32) (o : FVec Ideal S100000x128 .bf16) :
    kAgg src dst Z o = kerAgg src dst Z o := by
  funext i
  rfl

/-! ## The regions' outputs, composed -/

section Chain

variable (src dst : IVec S1700000 32) (bt : IVec S100000 32) (dis : FVec Ideal S100000 .f32)
  (x0 : FVec Ideal S100000x10 .f32) (x3 : FVec Ideal S10x128 .f32) (x4 x6 x8 : FVec Ideal S128 .f32)
  (x5 x7 : FVec Ideal S128x128 .f32) (x9 : FVec Ideal S128x3 .f32) (x10 : FVec Ideal S3 .f32)
  (Z : FVec Ideal S100000x128 .f32)

/-- The node factors as a column. -/
def kCol : FVec Ideal S100000x1 .f32 := shapeCast S100000x1 dis shapeCasts_S100000_S100000x1
/-- A bias as a row. -/
def kRow (b : FVec Ideal S128 .f32) : FVec Ideal S1x128 .f32 := shapeCast S1x128 b shapeCasts_S128_S1x128

/-- Region 0's output: the first dense layer, rows scaled. -/
def kOut0 : FVec Ideal S100000x128 .bf16 := R0fun x0 x3 (kCol dis)
/-- Region 1's output, from region 0's aggregated. -/
def kOut1 : FVec Ideal S100000x128 .bf16 := R1fun (kAgg src dst Z (kOut0 dis x0 x3)) (kCol dis) (kRow x4) x5
/-- Region 2's output, from region 1's aggregated. -/
def kOut2 : FVec Ideal S100000x128 .bf16 :=
  R1fun (kAgg src dst Z (kOut1 src dst dis x0 x3 x4 x5 Z)) (kCol dis) (kRow x6) x7
/-- Region 3's output, from region 2's aggregated, the graph ids as a column `bt2`, the clamped counts as a column
    `cn2` and the head's bias as a row `bl2`. -/
def kOut3 (bt2 : IVec S100000x1 32) (cn2 : FVec Ideal S64x1 .f32) (bl2 : FVec Ideal S1x3 .f32) : FVec Ideal S64x3 .f32 :=
  R3fun (kAgg src dst Z (kOut2 src dst dis x0 x3 x4 x6 x5 x7 Z)) (kCol dis) (kRow x8) bt2 cn2 x9 bl2

theorem kCol_apply (r : Fin 100000) : kCol dis (ix2 r 0) = dis (ix1 r) := col_reshape_apply _ dis r
theorem kRow_apply (b : FVec Ideal S128 .f32) (k : Fin 128) : kRow b (ix2 0 k) = b (ix1 k) := row_reshape_apply _ b k

/-- Region 0's output is the first dense layer with every row scaled by its node's factor. -/
theorem kOut0_eq : kOut0 dis x0 x3 = scaleRow dis (dense10 x0 x3) :=
  R0fun_eq x0 x3 (kCol dis) dis (kCol_apply dis)

/-- What region 1 is entered with: the chain's first aggregate. -/
theorem kAgg_out0 : kAgg src dst Z (kOut0 dis x0 x3) = kerAgg1 src dst dis x0 x3 Z := by
  rw [kOut0_eq, kAgg_eq]
  rfl

/-- Region 1's output is the second dense layer of the clamped, biased, factor-scaled first aggregate, rows scaled. -/
theorem kOut1_eq : kOut1 src dst dis x0 x3 x4 x5 Z
    = scaleRow dis (dense128 (relu (kerPre dis (kerAgg1 src dst dis x0 x3 Z) x4)) x5) := by
  unfold kOut1
  rw [kAgg_out0]
  exact R1fun_eq _ (kCol dis) (kRow x4) x5 dis x4 (kCol_apply dis) (kRow_apply x4)

/-- What region 2 is entered with: the chain's second aggregate. -/
theorem kAgg_out1 : kAgg src dst Z (kOut1 src dst dis x0 x3 x4 x5 Z) = kerAgg2 src dst dis x0 x3 x4 x5 Z := by
  rw [kOut1_eq, kAgg_eq]
  rfl

/-- Region 2's output is the third dense layer of the clamped, biased, factor-scaled second aggregate, rows scaled. -/
theorem kOut2_eq : kOut2 src dst dis x0 x3 x4 x6 x5 x7 Z
    = scaleRow dis (dense128 (relu (kerPre dis (kerAgg2 src dst dis x0 x3 x4 x5 Z) x6)) x7) := by
  unfold kOut2
  rw [kAgg_out1]
  exact R1fun_eq _ (kCol dis) (kRow x6) x7 dis x6 (kCol_apply dis) (kRow_apply x6)

/-- What region 3 is entered with: the chain's third aggregate. -/
theorem kAgg_out2 : kAgg src dst Z (kOut2 src dst dis x0 x3 x4 x6 x5 x7 Z) = kerAgg3 src dst dis x0 x3 x4 x6 x5 x7 Z := by
  rw [kOut2_eq, kAgg_eq]
  rfl

/-- THE COMPOSED REGIONS ARE THE KERNEL-SHAPED CHAIN, given the three reshaped operands of the last region read at an
    index: the graph ids, the clamped counts and the head's bias. -/
theorem kOut3_eq (bt2 : IVec S100000x1 32) (cn2 : FVec Ideal S64x1 .f32) (bl2 : FVec Ideal S1x3 .f32)
    (cn : Cert.ReferenceIdeal.S64.Idx → EReal)
    (hbt : ∀ n : Fin 100000, bt2 (ix2 n 0) = bt (ix1 n)) (hcn : ∀ g : Fin 64, cn2 (ix2 g 0) = cn (ix1 g))
    (hbl : ∀ j : Fin 3, bl2 (ix2 0 j) = x10 (ix1 j)) :
    kOut3 src dst dis x0 x3 x4 x6 x8 x5 x7 x9 Z bt2 cn2 bl2
      = kerRes src dst bt dis x0 x3 x4 x6 x8 x5 x7 x9 x10 cn Z := by
  unfold kOut3
  rw [kAgg_out2]
  exact R3fun_eq_kerRes src dst bt dis x0 x3 x4 x6 x8 x5 x7 x9 x10 cn Z (kCol dis) (kRow x8) bt2 cn2 bl2
    (kCol_apply dis) (kRow_apply x8) hbt hcn hbl

end Chain

end Cert.KernelIdeal.Hand

end
-- ==== Proof.KI.KerGlue.lean ====
/-
  The host stretches of the kernel program between its regions, read at the arrays each region stages: what every
  window's array holds when its region is entered, as the stretch's operations applied to the launch arguments, to the
  index and factor arrays the first stretches leave, and to the previous region's output.
-/
import proofs.«428485_j55886114456268_3_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

/-! # The host stretches between the regions, read at the arrays each region stages -/

/-! ## Names -/

/-- The edge sources followed by every node (the self loops), as the stretches before region 0 leave them. -/
def kSrc (c : Dev nD) : IVec S1700000 32 := U3 m c main_v5
/-- The edge targets followed by every node. -/
def kDst (c : Dev nD) : IVec S1700000 32 := U3 m c main_v6
/-- The per-node normalisation factor. -/
def kDis (c : Dev nD) : FVec F S100000 .f32 := U3 m c main_v14

/-- The start-index column of a row read in which a negative index wraps once, by the table's height. -/
def kNrm (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)
/-- The index column a scatter lands by: the index as it is. -/
def kRaw (v : IVec S1700000 32) : IVec S1700000x1 32 :=
  broadcastInDim S1700000x1 ![0] bcast_S1700000_S1700000x1_0 v

/-! ## What a region's write-back and a host stretch leave alone -/

theorem U4_of (c : Dev nD) (r : Ref sig .tc) (h : r ≠ main_v16) : U4 m c r = U3 m c r :=
  Function.update_of_ne (StableHlo.devRef_ne_of_ne h) _ _
theorem U4_out (c : Dev nD) : U4 m c main_v16 = outs m 4 main_v16 c := Function.update_self ..
theorem U5_of (c : Dev nD) (r : Ref sig .tc) (h : r ∉ hostOps1_W) : U5 m c r = U4 m c r :=
  StableHlo.after_of_writes_sub hostOps1 _ hostOps1_writes h
theorem U6_of (c : Dev nD) (r : Ref sig .tc) (h : r ≠ main_v29) : U6 m c r = U5 m c r :=
  Function.update_of_ne (StableHlo.devRef_ne_of_ne h) _ _
theorem U6_out (c : Dev nD) : U6 m c main_v29 = outs m 6 main_v29 c := Function.update_self ..
theorem U7_of (c : Dev nD) (r : Ref sig .tc) (h : r ∉ hostOps2_W) : U7 m c r = U6 m c r :=
  StableHlo.after_of_writes_sub hostOps2 _ hostOps2_writes h
theorem U8_of (c : Dev nD) (r : Ref sig .tc) (h : r ≠ main_v42) : U8 m c r = U7 m c r :=
  Function.update_of_ne (StableHlo.devRef_ne_of_ne h) _ _
theorem U8_out (c : Dev nD) : U8 m c main_v42 = outs m 8 main_v42 c := Function.update_self ..
theorem U9_of (c : Dev nD) (r : Ref sig .tc) (h : r ∉ hostOps3_W) : U9 m c r = U8 m c r :=
  StableHlo.after_of_writes_sub hostOps3 _ hostOps3_writes h

/-! ## The arguments, untouched before region 0 -/

theorem U3_main_arg0 (c : Dev nD) : U3 m c main_arg0 = m ((c : Thread nD τ).loc main_arg0) :=
  (V3_of m c main_arg0 (by decide)).trans <| (V2_of m c main_arg0 (by decide)).trans <| (V1_of m c main_arg0 (by decide)).trans rfl
theorem U3_main_arg2 (c : Dev nD) : U3 m c main_arg2 = m ((c : Thread nD τ).loc main_arg2) :=
  (V3_of m c main_arg2 (by decide)).trans <| (V2_of m c main_arg2 (by decide)).trans <| (V1_of m c main_arg2 (by decide)).trans rfl
theorem U3_main_arg3 (c : Dev nD) : U3 m c main_arg3 = m ((c : Thread nD τ).loc main_arg3) :=
  (V3_of m c main_arg3 (by decide)).trans <| (V2_of m c main_arg3 (by decide)).trans <| (V1_of m c main_arg3 (by decide)).trans rfl
theorem U3_main_arg4 (c : Dev nD) : U3 m c main_arg4 = m ((c : Thread nD τ).loc main_arg4) :=
  (V3_of m c main_arg4 (by decide)).trans <| (V2_of m c main_arg4 (by decide)).trans <| (V1_of m c main_arg4 (by decide)).trans rfl
theorem U3_main_arg5 (c : Dev nD) : U3 m c main_arg5 = m ((c : Thread nD τ).loc main_arg5) :=
  (V3_of m c main_arg5 (by decide)).trans <| (V2_of m c main_arg5 (by decide)).trans <| (V1_of m c main_arg5 (by decide)).trans rfl
theorem U3_main_arg6 (c : Dev nD) : U3 m c main_arg6 = m ((c : Thread nD τ).loc main_arg6) :=
  (V3_of m c main_arg6 (by decide)).trans <| (V2_of m c main_arg6 (by decide)).trans <| (V1_of m c main_arg6 (by decide)).trans rfl
theorem U3_main_arg7 (c : Dev nD) : U3 m c main_arg7 = m ((c : Thread nD τ).loc main_arg7) :=
  (V3_of m c main_arg7 (by decide)).trans <| (V2_of m c main_arg7 (by decide)).trans <| (V1_of m c main_arg7 (by decide)).trans rfl
theorem U3_main_arg8 (c : Dev nD) : U3 m c main_arg8 = m ((c : Thread nD τ).loc main_arg8) :=
  (V3_of m c main_arg8 (by decide)).trans <| (V2_of m c main_arg8 (by decide)).trans <| (V1_of m c main_arg8 (by decide)).trans rfl
theorem U3_main_arg9 (c : Dev nD) : U3 m c main_arg9 = m ((c : Thread nD τ).loc main_arg9) :=
  (V3_of m c main_arg9 (by decide)).trans <| (V2_of m c main_arg9 (by decide)).trans <| (V1_of m c main_arg9 (by decide)).trans rfl
theorem U3_main_arg10 (c : Dev nD) : U3 m c main_arg10 = m ((c : Thread nD τ).loc main_arg10) :=
  (V3_of m c main_arg10 (by decide)).trans <| (V2_of m c main_arg10 (by decide)).trans <| (V1_of m c main_arg10 (by decide)).trans rfl

/-! ## Region 0 -/

theorem E0_main_arg0 (c : Dev nD) : E0 m c main_arg0 = m ((c : Thread nD τ).loc main_arg0) := U3_main_arg0 m c
theorem E0_main_arg3 (c : Dev nD) : E0 m c main_arg3 = m ((c : Thread nD τ).loc main_arg3) := U3_main_arg3 m c
/-- The factor as a column. -/
theorem E0_main_v15 (c : Dev nD) : E0 m c main_v15 = shapeCast S100000x1 (kDis m c) shapeCasts_S100000_S100000x1 := by
  have h : kDis m c = V2 m c main_v14 := V3_of m c main_v14 (by decide)
  rw [h]
  show StableHlo.after hostOps0_2 (V2 m c) (Proc.devRef .tc main_v15) = _
  after_results
  rfl

/-! ## Region 1 -/

/-- The aggregated rows: every edge's source row of the previous layer's output, widened, summed into the edge's target row. -/
theorem E1_main_v27 (c : Dev nD) :
    E1 m c main_v27 = Host.scatterAdd scatter_S100000x128_S1700000x1_S1700000x128_1_0_0_1
      (broadcastInDim S100000x128 ![] bcast_S_S100000x128 (constant (F := F) S_ .f32 0x00000000#32)) (kRaw (kDst m c))
      (extf .f32 (Host.gather gather_S100000x128_S1700000x1_S1700000x128_1_0_n_n_0_1_1128 (outs m 4 main_v16 c) (kNrm (kSrc m c))) bitsLt_bf16_f32) := by
  show StableHlo.after hostOps1 (U4 m c) (Proc.devRef .tc main_v27) = _
  after_results
  rw [U4_of m c main_v5 (by decide), U4_of m c main_v6 (by decide), U4_out]
  rfl
theorem E1_main_v15 (c : Dev nD) : E1 m c main_v15 = E0 m c main_v15 :=
  (U5_of m c main_v15 (by decide)).trans <| (U4_of m c main_v15 (by decide))
/-- The bias as a row. -/
theorem E1_main_v28 (c : Dev nD) : E1 m c main_v28 = shapeCast S1x128 (m ((c : Thread nD τ).loc main_arg4)) shapeCasts_S128_S1x128 := by
  show StableHlo.after hostOps1 (U4 m c) (Proc.devRef .tc main_v28) = _
  after_results
  rw [U4_of m c main_arg4 (by decide), U3_main_arg4]
  rfl
theorem E1_main_arg5 (c : Dev nD) : E1 m c main_arg5 = m ((c : Thread nD τ).loc main_arg5) :=
  (U5_of m c main_arg5 (by decide)).trans <| (U4_of m c main_arg5 (by decide)).trans <| (U3_main_arg5 m c)

/-! ## Region 2 -/

/-- The aggregated rows: every edge's source row of the previous layer's output, widened, summed into the edge's target row. -/
theorem E2_main_v40 (c : Dev nD) :
    E2 m c main_v40 = Host.scatterAdd scatter_S100000x128_S1700000x1_S1700000x128_1_0_0_1
      (broadcastInDim S100000x128 ![] bcast_S_S100000x128 (constant (F := F) S_ .f32 0x00000000#32)) (kRaw (kDst m c))
      (extf .f32 (Host.gather gather_S100000x128_S1700000x1_S1700000x128_1_0_n_n_0_1_1128 (outs m 6 main_v29 c) (kNrm (kSrc m c))) bitsLt_bf16_f32) := by
  show StableHlo.after hostOps2 (U6 m c) (Proc.devRef .tc main_v40) = _
  after_results
  rw [U6_of m c main_v5 (by decide), U5_of m c main_v5 (by decide), U4_of m c main_v5 (by decide), U6_of m c main_v6 (by decide), U5_of m c main_v6 (by decide), U4_of m c main_v6 (by decide), U6_out]
  rfl
theorem E2_main_v15 (c : Dev nD) : E2 m c main_v15 = E0 m c main_v15 :=
  (U7_of m c main_v15 (by decide)).trans <| (U6_of m c main_v15 (by decide)).trans <| (U5_of m c main_v15 (by decide)).trans <| (U4_of m c main_v15 (by decide))
/-- The bias as a row. -/
theorem E2_main_v41 (c : Dev nD) : E2 m c main_v41 = shapeCast S1x128 (m ((c : Thread nD τ).loc main_arg6)) shapeCasts_S128_S1x128 := by
  show StableHlo.after hostOps2 (U6 m c) (Proc.devRef .tc main_v41) = _
  after_results
  rw [U6_of m c main_arg6 (by decide), U5_of m c main_arg6 (by decide), U4_of m c main_arg6 (by decide), U3_main_arg6]
  rfl
theorem E2_main_arg7 (c : Dev nD) : E2 m c main_arg7 = m ((c : Thread nD τ).loc main_arg7) :=
  (U7_of m c main_arg7 (by decide)).trans <| (U6_of m c main_arg7 (by decide)).trans <| (U5_of m c main_arg7 (by decide)).trans <| (U4_of m c main_arg7 (by decide)).trans <| (U3_main_arg7 m c)

/-! ## Region 3 -/

/-- The aggregated rows: every edge's source row of the previous layer's output, widened, summed into the edge's target row. -/
theorem E3_main_v53 (c : Dev nD) :
    E3 m c main_v53 = Host.scatterAdd scatter_S100000x128_S1700000x1_S1700000x128_1_0_0_1
      (broadcastInDim S100000x128 ![] bcast_S_S100000x128 (constant (F := F) S_ .f32 0x00000000#32)) (kRaw (kDst m c))
      (extf .f32 (Host.gather gather_S100000x128_S1700000x1_S1700000x128_1_0_n_n_0_1_1128 (outs m 8 main_v42 c) (kNrm (kSrc m c))) bitsLt_bf16_f32) := by
  show StableHlo.after hostOps3 (U8 m c) (Proc.devRef .tc main_v53) = _
  after_results
  rw [U8_of m c main_v5 (by decide), U7_of m c main_v5 (by decide), U6_of m c main_v5 (by decide), U5_of m c main_v5 (by decide), U4_of m c main_v5 (by decide), U8_of m c main_v6 (by decide), U7_of m c main_v6 (by decide), U6_of m c main_v6 (by decide), U5_of m c main_v6 (by decide), U4_of m c main_v6 (by decide), U8_out]
  rfl
theorem E3_main_v15 (c : Dev nD) : E3 m c main_v15 = E0 m c main_v15 :=
  (U9_of m c main_v15 (by decide)).trans <| (U8_of m c main_v15 (by decide)).trans <| (U7_of m c main_v15 (by decide)).trans <| (U6_of m c main_v15 (by decide)).trans <| (U5_of m c main_v15 (by decide)).trans <| (U4_of m c main_v15 (by decide))
/-- The bias as a row. -/
theorem E3_main_v62 (c : Dev nD) : E3 m c main_v62 = shapeCast S1x128 (m ((c : Thread nD τ).loc main_arg8)) shapeCasts_S128_S1x128 := by
  show StableHlo.after hostOps3 (U8 m c) (Proc.devRef .tc main_v62) = _
  after_results
  rw [U8_of m c main_arg8 (by decide), U7_of m c main_arg8 (by decide), U6_of m c main_arg8 (by decide), U5_of m c main_arg8 (by decide), U4_of m c main_arg8 (by decide), U3_main_arg8]
  rfl
/-- The graph id of each node, as a column. -/
theorem E3_main_v54 (c : Dev nD) : E3 m c main_v54 = shapeCast S100000x1 (m ((c : Thread nD τ).loc main_arg2)) shapeCasts_S100000_S100000x1 := by
  show StableHlo.after hostOps3 (U8 m c) (Proc.devRef .tc main_v54) = _
  after_results
  rw [U8_of m c main_arg2 (by decide), U7_of m c main_arg2 (by decide), U6_of m c main_arg2 (by decide), U5_of m c main_arg2 (by decide), U4_of m c main_arg2 (by decide), U3_main_arg2]
  rfl
/-- The node count of each graph, at least one, as a column. -/
theorem E3_main_v61 (c : Dev nD) :
    E3 m c main_v61 = shapeCast S64x1
      (maximumf
        (Host.scatterAdd scatter_S64_S100000x1_S100000_n_0_0_1
          (broadcastInDim S64 ![] bcast_S_S64 (constant (F := F) S_ .f32 0x00000000#32))
          (broadcastInDim S100000x1 ![0] bcast_S100000_S100000x1_0 (m ((c : Thread nD τ).loc main_arg2)))
          (broadcastInDim S100000 ![] bcast_S_S100000 (constant (F := F) S_ .f32 0x3F800000#32)))
        (broadcastInDim S64 ![] bcast_S_S64 (constant (F := F) S_ .f32 0x3F800000#32)))
      shapeCasts_S64_S64x1 := by
  show StableHlo.after hostOps3 (U8 m c) (Proc.devRef .tc main_v61) = _
  after_results
  rw [U8_of m c main_arg2 (by decide), U7_of m c main_arg2 (by decide), U6_of m c main_arg2 (by decide), U5_of m c main_arg2 (by decide), U4_of m c main_arg2 (by decide), U3_main_arg2]
  rfl
theorem E3_main_arg9 (c : Dev nD) : E3 m c main_arg9 = m ((c : Thread nD τ).loc main_arg9) :=
  (U9_of m c main_arg9 (by decide)).trans <| (U8_of m c main_arg9 (by decide)).trans <| (U7_of m c main_arg9 (by decide)).trans <| (U6_of m c main_arg9 (by decide)).trans <| (U5_of m c main_arg9 (by decide)).trans <| (U4_of m c main_arg9 (by decide)).trans <| (U3_main_arg9 m c)
/-- The head's bias as a row. -/
theorem E3_main_v63 (c : Dev nD) : E3 m c main_v63 = shapeCast S1x3 (m ((c : Thread nD τ).loc main_arg10)) shapeCasts_S3_S1x3 := by
  show StableHlo.after hostOps3 (U8 m c) (Proc.devRef .tc main_v63) = _
  after_results
  rw [U8_of m c main_arg10 (by decide), U7_of m c main_arg10 (by decide), U6_of m c main_arg10 (by decide), U5_of m c main_arg10 (by decide), U4_of m c main_arg10 (by decide), U3_main_arg10]
  rfl

end Cert.KernelIdeal.Hand

end
-- ==== Proof.KI.Val0.lean ====
/-
  What region 0 leaves in its output array at the ideal instance: every row of node features times the weight matrix,
  scaled by the row's normalisation factor. The payload of the body's one store read at an index; each grid point's
  written block as the restriction of that one function to the point's rows; the blocks cover the rows.
-/
import proofs.«428485_j55886114456268_3_alg».proof.Proof.KI.R0
import proofs.«428485_j55886114456268_3_alg».proof.Proof.KI.Funs
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The contraction's index maps, axis by axis -/

theorem lhs_mm0_0 (i : S5000x128.Idx) (q : dot_S5000x10_S10x128_S5000x128_1_0_0_1_n_n.contr.Idx) :
    (dot_S5000x10_S10x128_S5000x128_1_0_0_1_n_n.lhsIdx i q 0).val = (i 0).val := by
  unfold DotDims.lhsIdx
  rw [dif_neg (show ¬(0 : Fin S5000x10.rank) ∈ dot_S5000x10_S10x128_S5000x128_1_0_0_1_n_n.lhsBatch by decide), dif_pos (show (0 : Fin S5000x10.rank) ∈ dot_S5000x10_S10x128_S5000x128_1_0_0_1_n_n.lhsNonContracting by decide)]
  rfl
theorem lhs_mm0_1 (i : S5000x128.Idx) (q : dot_S5000x10_S10x128_S5000x128_1_0_0_1_n_n.contr.Idx) :
    (dot_S5000x10_S10x128_S5000x128_1_0_0_1_n_n.lhsIdx i q 1).val = (q ⟨0, by decide⟩).val :=
  dot_S5000x10_S10x128_S5000x128_1_0_0_1_n_n.lhsIdx_val_of_single rfl i q
theorem rhs_mm0_0 (i : S5000x128.Idx) (q : dot_S5000x10_S10x128_S5000x128_1_0_0_1_n_n.contr.Idx) :
    (dot_S5000x10_S10x128_S5000x128_1_0_0_1_n_n.rhsIdx i q 0).val = (q ⟨0, by decide⟩).val :=
  dot_S5000x10_S10x128_S5000x128_1_0_0_1_n_n.rhsIdx_val_of_single rfl i q
theorem rhs_mm0_1 (i : S5000x128.Idx) (q : dot_S5000x10_S10x128_S5000x128_1_0_0_1_n_n.contr.Idx) :
    (dot_S5000x10_S10x128_S5000x128_1_0_0_1_n_n.rhsIdx i q 1).val = (i 1).val := by
  unfold DotDims.rhsIdx
  rw [dif_neg (show ¬(1 : Fin S10x128.rank) ∈ dot_S5000x10_S10x128_S5000x128_1_0_0_1_n_n.rhsBatch by decide), dif_pos (show (1 : Fin S10x128.rank) ∈ dot_S5000x10_S10x128_S5000x128_1_0_0_1_n_n.rhsNonContracting by decide)]
  rfl

/-- The block product into a zero accumulator, at row `p` and column `q`: the inner product of the row with the column. -/
theorem mm0_apply (a : FVec Ideal S5000x10 .bf16) (b : FVec Ideal S10x128 .bf16) (p : Fin 5000) (q : Fin 128) :
    FloatOps.matmul (F := Ideal) dot_S5000x10_S10x128_S5000x128_1_0_0_1_n_n none a b (constant (F := Ideal) S5000x128 .f32 0x00000000#32) (ix2 p q)
      = ∑ k : Fin 10, a (ix2 p k) * b (ix2 k q) := by
  rw [Ideal.matmul_constant_zero_apply, ← Equiv.sum_comp (contrEquiv1 dot_S5000x10_S10x128_S5000x128_1_0_0_1_n_n 10 rfl rfl).symm]
  refine Finset.sum_congr rfl fun k _ => ?_
  have hk := contrEquiv1_symm_val dot_S5000x10_S10x128_S5000x128_1_0_0_1_n_n 10 rfl rfl k
  have el : dot_S5000x10_S10x128_S5000x128_1_0_0_1_n_n.lhsIdx (ix2 p q) ((contrEquiv1 dot_S5000x10_S10x128_S5000x128_1_0_0_1_n_n 10 rfl rfl).symm k) = ix2 p k := funext fun a => Fin.ext (by
    match a with
    | ⟨0, _⟩ => exact lhs_mm0_0 _ _
    | ⟨1, _⟩ => exact (lhs_mm0_1 _ _).trans hk)
  have er : dot_S5000x10_S10x128_S5000x128_1_0_0_1_n_n.rhsIdx (ix2 p q) ((contrEquiv1 dot_S5000x10_S10x128_S5000x128_1_0_0_1_n_n 10 rfl rfl).symm k) = ix2 k q := funext fun a => Fin.ext (by
    match a with
    | ⟨0, _⟩ => exact (rhs_mm0_0 _ _).trans hk
    | ⟨1, _⟩ => exact rhs_mm0_1 _ _)
  rw [el, er]

/-- The column of scale factors laid along every row, at row `p` and column `q`: the factor of row `p`. -/
theorem bc0_apply (d : FVec Ideal S5000x1 .f32) (p : Fin 5000) (q : Fin 128) :
    broadcastTo S5000x128 (shapeCast S5000x1 d shapeCasts_S5000x1_S5000x1) broadcasts_S5000x1_S5000x128 (ix2 p q) = d (ix2 p 0) := by
  rw [shapeCast_self]
  exact broadcastTo_apply d broadcasts_S5000x1_S5000x128 (ix2 p q) (ix2 p 0) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- The body's stored payload at row `p` and column `q`. -/
theorem pay0_apply (x : Vec Ideal S5000x10 .f32) (w : Vec Ideal S10x128 .f32) (d : Vec Ideal S5000x1 .f32) (p : Fin 5000) (q : Fin 128) :
    k0_pay1 (F := Ideal) x w d (ix2 p q) = ((∑ k : Fin 10, (x (ix2 p k) : EReal) * w (ix2 k q)) * d (ix2 p 0) : EReal) := by
  unfold k0_pay1
  show (FloatOps.mulf (FloatOps.matmul (F := Ideal) dot_S5000x10_S10x128_S5000x128_1_0_0_1_n_n none (truncf .bf16 x bitsLt_bf16_f32) (truncf .bf16 w bitsLt_bf16_f32) (constant (F := Ideal) S5000x128 .f32 0x00000000#32) (ix2 p q))
      (broadcastTo S5000x128 (shapeCast S5000x1 d shapeCasts_S5000x1_S5000x1) broadcasts_S5000x1_S5000x128 (ix2 p q)) : EReal) = _
  rw [mm0_apply, bc0_apply]
  rfl

/-! ## From the blocks to the array -/

theorem hz0 : (![0, 0] : Fin 2 → Nat) = fun _ => 0 := funext fun a => by fin_cases a <;> rfl

/-- A block of the output restricted from one function of the whole arrays: when the feature block and the factor
    block are the rows `5000·b + y` of their arrays and the weight block is the whole matrix, the payload at `j` is
    the array function at row `5000·b + j₀`, column `j₁`. -/
theorem block0_apply (X : FVec Ideal S100000x10 .f32) (W : FVec Ideal S10x128 .f32) (D : FVec Ideal S100000x1 .f32)
    (x : Vec Ideal S5000x10 .f32) (w : Vec Ideal S10x128 .f32) (d : Vec Ideal S5000x1 .f32) (b : Nat)
    (hx : ∀ (y : S5000x10.Idx) (i : S100000x10.Idx), (i 0).val = b * 5000 + (y 0).val → (i 1).val = (y 1).val → x y = X i)
    (hw : w = W)
    (hd : ∀ (y : S5000x1.Idx) (i : S100000x1.Idx), (i 0).val = b * 5000 + (y 0).val → d y = D i)
    (j : S5000x128.Idx) (i : S100000x128.Idx) (h0 : (i 0).val = b * 5000 + (j 0).val) (h1 : (i 1).val = (j 1).val) :
    k0_pay1 (F := Ideal) x w d j = R0fun X W D i := by
  obtain ⟨p, q, rfl⟩ : ∃ (p : Fin 5000) (q : Fin 128), j = ix2 p q := ⟨j 0, j 1, eq_ix2 j⟩
  rw [pay0_apply]
  unfold R0fun
  dsimp only
  subst hw
  have hq : i 1 = q := Fin.ext h1
  rw [hq, hd (ix2 p 0) (ix2 (i 0) 0) h0]
  refine congrArg (· * D (ix2 (i 0) 0)) (Finset.sum_congr rfl fun k _ => ?_)
  rw [hx (ix2 p k) (ix2 (i 0) k) h0 rfl]

/-- The printed index maps, decided over the grid: the feature, factor and output blocks move together down the rows,
    one block per point; the weight block stays. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point `t` writes back is block `t` of the array function of the arrays as the region finds them. -/
theorem flushed0_eq (c : Dev nD) (t : Fin cfg0.N) :
    (dat0 (F := Ideal) V c).flushed 3 t
      = ((cfg0.win 3).blk t).view.read (Elt Ideal) (R0fun (V c main_arg0) (V c main_arg3) (V c main_v15)) := by
  show (cfg0.win 3).cut (grid0.coords t) ((dat0 (F := Ideal) V c).after 3 t) = _
  rw [after0_3]
  unfold out0_3
  rw [View.canon_unit_zero hz0]
  simp only [View.ld_unit_zero (S := S5000x10) hz0, View.ld_unit_zero (S := S10x128) hz0, View.ld_unit_zero (S := S5000x1) hz0]
  obtain ⟨e0, e1, e2, e3, e4, e5, e6, e7⟩ := idx_facts0 t
  funext j
  refine block0_apply (V c main_arg0) (V c main_arg3) (V c main_v15) (iblk0 V c 0 t) (iblk0 V c 1 t) (iblk0 V c 2 t)
    (win0_3.index t (0 : Fin 2)) ?_ ?_ ?_ j (((cfg0.win 3).blk t).view.emb j) ?_ ?_
  · intro y i h0 h1
    show V c main_arg0 (((cfg0.win 0).blk t).view.emb y) = V c main_arg0 i
    refine congrArg (V c main_arg0) (funext fun a => Fin.ext ?_)
    match a with
    | ⟨0, _⟩ => show win0_0.index t (0 : Fin 2) * 5000 + 1 * (y 0).val = (i 0).val; omega
    | ⟨1, _⟩ => show win0_0.index t (1 : Fin 2) * 10 + 1 * (y 1).val = (i 1).val; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 10 + 1 * (y 0).val = (y 0).val; omega
    | ⟨1, _⟩ => show win0_1.index t (1 : Fin 2) * 128 + 1 * (y 1).val = (y 1).val; omega
  · intro y i h0
    show V c main_v15 (((cfg0.win 2).blk t).view.emb y) = V c main_v15 i
    refine congrArg (V c main_v15) (funext fun a => Fin.ext ?_)
    match a with
    | ⟨0, _⟩ => show win0_2.index t (0 : Fin 2) * 5000 + 1 * (y 0).val = (i 0).val; omega
    | ⟨1, _⟩ =>
      show win0_2.index t (1 : Fin 2) * 1 + 1 * (y 1).val = (i 1).val
      have hy : (y 1).val < 1 := (y 1).isLt
      have hi : (i 1).val < 1 := (i 1).isLt
      omega
  · show win0_3.index t (0 : Fin 2) * 5000 + 1 * (j 0).val = win0_3.index t (0 : Fin 2) * 5000 + (j 0).val; omega
  · show win0_3.index t (1 : Fin 2) * 128 + 1 * (j 1).val = (j 1).val; omega

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Row `r` lies in the block of point `r / 5000`: the blocks cover the array. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < cfg0.N := by rw [show cfg0.N = 20 from N_0]; omega
  refine ⟨⟨(i 0).val / 5000, hN⟩, flush0_3 _, ?_⟩
  rw [mem_blk0]
  obtain ⟨e0, e1, e2, e3, e4, e5, e6, e7⟩ := idx_facts0 ⟨(i 0).val / 5000, hN⟩
  have e6' : win0_3.index ⟨(i 0).val / 5000, hN⟩ (0 : Fin 2) = (i 0).val / 5000 := e6
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    omega
  | ⟨1, _⟩ =>
    show win0_3.index ⟨(i 0).val / 5000, hN⟩ (1 : Fin 2) * 128 ≤ (i 1).val ∧ (i 1).val < win0_3.index ⟨(i 0).val / 5000, hN⟩ (1 : Fin 2) * 128 + 128
    omega

/-- The output array after the region: the array function of the arrays the region finds. -/
theorem arr0_eq (V : (c : Dev nD) → (b : Ref sig .tc) → Buf (Elt Ideal) ((c : Thread nD τ).loc b)) (c : Dev nD) :
    (dat0 (F := Ideal) V c).arrAt 3 cfg0.N = R0fun (V c main_arg0) (V c main_arg3) (V c main_v15) :=
  (dat0 (F := Ideal) V c).arrAt_eq_of_cover 3 (R0fun (V c main_arg0) (V c main_arg3) (V c main_v15))
    (fun t _ => flushed0_eq V c t) cover0

end Cert.KernelIdeal.Hand

end
-- ==== Proof.KI.Val1.lean ====
/-
  Region 1's output array after the run, at the ideal instance, as one function of the four arrays the region reads:
  row `r`, column `j` holds (Σ_k max (d r · agg r k + b k) 0 · w k j) · d r. First the stored payload is read at one
  index of a block; then each grid point's written-back block is identified with a block of that function; last the
  blocks are shown to cover the array.
-/
import proofs.«428485_j55886114456268_3_alg».proof.Proof.KI.R1
import proofs.«428485_j55886114456268_3_alg».proof.Proof.KI.Funs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The payload at an index -/

/-- The zero offsets, however spelt. -/
theorem hz1 : (![0, 0] : Fin 2 → Nat) = fun _ => 0 := funext fun a => by fin_cases a <;> rfl

/-- The product's left operand is read at the output's row … -/
theorem lhsRow1 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contraction's coordinate; -/
theorem lhsCol1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction's coordinate … -/
theorem rhsRow1 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's column. -/
theorem rhsCol1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at row `p` and column `q`: the inner product of the left operand's
    row `p` with the right operand's column `q`. -/
theorem mm1_apply (L : FVec Ideal S5000x128 .bf16) (R : FVec Ideal S128x128 .bf16) (p : Fin 5000) (q : Fin 128) :
    matmul dot_S5000x128_S128x128_S5000x128_1_0_0_1_n_n none L R (constant (F := Ideal) S5000x128 .f32 0x00000000#32) (ix2 p q)
      = ∑ k : Fin 128, (L (ix2 p k) : EReal) * R (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsRow1 _ _
    | ⟨1, _⟩ => exact (lhsCol1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsRow1 _ _).trans hk
    | ⟨1, _⟩ => exact rhsCol1 _ _)
  rw [el, er]

/-- A column of one entry per row, broadcast along the rows, reads at `(p, j)` the column's entry of row `p`. -/
theorem bcastCol1 {α : Type} (x : S5000x1.Idx → α) (p : Fin 5000) (j : Fin 128) :
    broadcastTo S5000x128 x broadcasts_S5000x1_S5000x128 (ix2 p j) = x (ix2 p (0 : Fin 1)) := by
  refine broadcastTo_apply x broadcasts_S5000x1_S5000x128 (ix2 p j) (ix2 p (0 : Fin 1)) fun ax => ?_
  match ax with
  | ⟨0, _⟩ => rfl
  | ⟨1, _⟩ => rfl

/-- One row broadcast over all rows reads at `(p, j)` the row's entry of column `j`. -/
theorem bcastRow1 {α : Type} (x : S1x128.Idx → α) (p : Fin 5000) (j : Fin 128) :
    broadcastTo S5000x128 x broadcasts_S1x128_S5000x128 (ix2 p j) = x (ix2 (0 : Fin 1) j) :=
  broadcastTo_1b_ab_apply x broadcasts_S1x128_S5000x128 p j

/-- The stored payload at row `p`, column `q` of a block, from the four loaded blocks: the row's factor times the
    aggregated row plus the bias, clamped at zero, contracted with the weights' column, times the row's factor. -/
theorem pay1_apply (xDis : Vec Ideal S5000x1 .f32) (xAgg : Vec Ideal S5000x128 .f32) (xB : Vec Ideal S1x128 .f32)
    (xW : Vec Ideal S128x128 .f32) (p : Fin 5000) (q : Fin 128) :
    k1_pay1 xDis xAgg xB xW (ix2 p q)
      = ((∑ k : Fin 128, max ((xDis (ix2 p (0 : Fin 1)) : EReal) * xAgg (ix2 p k) + xB (ix2 (0 : Fin 1) k)) 0 * xW (ix2 k q))
          * xDis (ix2 p (0 : Fin 1)) : EReal) := by
  unfold k1_pay1
  simp only [shapeCast_self]
  show (matmul dot_S5000x128_S128x128_S5000x128_1_0_0_1_n_n none
        (truncf .bf16 (maximumf (addf (mulf (broadcastTo S5000x128 xDis broadcasts_S5000x1_S5000x128) xAgg)
            (broadcastTo S5000x128 xB broadcasts_S1x128_S5000x128)) (broadcast S5000x128 (Scalar.ofBits (F := Ideal) .f32 0x00000000#32)))
          bitsLt_bf16_f32)
        (truncf .bf16 xW bitsLt_bf16_f32) (constant (F := Ideal) S5000x128 .f32 0x00000000#32) (ix2 p q) : EReal)
      * (broadcastTo S5000x128 xDis broadcasts_S5000x1_S5000x128 (ix2 p q) : EReal) = _
  rw [bcastCol1, mm1_apply]
  refine congrArg (· * (xDis (ix2 p (0 : Fin 1)) : EReal)) ?_
  refine Finset.sum_congr rfl fun k _ => ?_
  show max ((broadcastTo S5000x128 xDis broadcasts_S5000x1_S5000x128 (ix2 p k) : EReal) * xAgg (ix2 p k)
        + broadcastTo S5000x128 xB broadcasts_S1x128_S5000x128 (ix2 p k)) (Ideal.ofBits .f32 0x00000000#32)
      * (xW (ix2 k q) : EReal) = _
  rw [bcastCol1, bcastRow1, Ideal.ofBits_zero_f32]

/-! ## From the loaded blocks to the whole arrays -/

/-- The payload at row `p`, column `q` of a block whose rows sit at row `r` of the whole arrays: the function of the
    whole arrays at `(r, q)`. -/
theorem blockFun1 (agg : FVec Ideal S100000x128 .f32) (dis : FVec Ideal S100000x1 .f32) (bias : FVec Ideal S1x128 .f32)
    (wts : FVec Ideal S128x128 .f32)
    (xDis : Vec Ideal S5000x1 .f32) (xAgg : Vec Ideal S5000x128 .f32) (xB : Vec Ideal S1x128 .f32) (xW : Vec Ideal S128x128 .f32)
    (r : Fin 100000) (p : Fin 5000) (q : Fin 128)
    (hAgg : ∀ k : Fin 128, xAgg (ix2 p k) = agg (ix2 r k)) (hDis : xDis (ix2 p (0 : Fin 1)) = dis (ix2 r (0 : Fin 1)))
    (hB : ∀ k : Fin 128, xB (ix2 (0 : Fin 1) k) = bias (ix2 (0 : Fin 1) k)) (hW : ∀ k : Fin 128, xW (ix2 k q) = wts (ix2 k q)) :
    k1_pay1 xDis xAgg xB xW (ix2 p q) = R1fun agg dis bias wts (ix2 r q) := by
  rw [pay1_apply]
  show _ = ((∑ k : Fin 128, max ((dis (ix2 r (0 : Fin 1)) : EReal) * agg (ix2 r k) + bias (ix2 (0 : Fin 1) k)) 0 * wts (ix2 k q))
      * dis (ix2 r (0 : Fin 1)) : EReal)
  rw [hDis]
  refine congrArg (· * (dis (ix2 r (0 : Fin 1)) : EReal)) ?_
  refine Finset.sum_congr rfl fun k _ => ?_
  rw [hAgg k, hB k, hW k]

/-- The printed index maps, decided over the grid: the aggregated rows, the factors and the output move down one
    block of rows per point; the bias and the weights stay at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What point `t` writes back is block `t` of the function of the arrays as the region finds them. -/
theorem flushed1_eq (c : Dev nD) (t : Fin cfg1.N) :
    (dat1 (F := Ideal) V c).flushed 4 t
      = ((cfg1.win 4).blk t).view.read (Elt Ideal) (R1fun (V c main_v27) (V c main_v15) (V c main_v28) (V c main_arg5)) := by
  show (cfg1.win 4).cut (grid1.coords t) ((dat1 V c).after 4 t) = _
  rw [after1_4]
  unfold out1_4
  rw [View.canon_unit_zero hz1]
  simp only [View.ld_unit_zero (S := S5000x128) hz1, View.ld_unit_zero (S := S5000x1) hz1, View.ld_unit_zero (S := S1x128) hz1,
    View.ld_unit_zero (S := S128x128) hz1]
  obtain ⟨e0, e1, e2, e3, e4, e5, e6, e7, e8, e9⟩ := idx_facts1 t
  have ht : t.val < 20 := Nat.lt_of_lt_of_eq t.isLt N_1
  funext j
  obtain ⟨p, q, rfl⟩ : ∃ (p : Fin 5000) (q : Fin 128), j = ix2 p q := ⟨j 0, j 1, eq_ix2 j⟩
  have hp : p.val < 5000 := p.isLt
  show k1_pay1 (iblk1 V c 1 t) (iblk1 V c 0 t) (iblk1 V c 2 t) (iblk1 V c 3 t) (ix2 p q)
      = R1fun (V c main_v27) (V c main_v15) (V c main_v28) (V c main_arg5) (((cfg1.win 4).blk t).view.emb (ix2 p q))
  have hout : ((cfg1.win 4).blk t).view.emb (ix2 p q) = ix2 (⟨t.val * 5000 + p.val, by omega⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  rw [hout]
  refine blockFun1 (V c main_v27) (V c main_v15) (V c main_v28) (V c main_arg5)
    (iblk1 V c 1 t) (iblk1 V c 0 t) (iblk1 V c 2 t) (iblk1 V c 3 t) ⟨t.val * 5000 + p.val, by omega⟩ p q ?_ ?_ ?_ ?_
  · intro k
    show V c main_v27 (((cfg1.win 0).blk t).view.emb (ix2 p k)) = V c main_v27 (ix2 (⟨t.val * 5000 + p.val, by omega⟩ : Fin 100000) k)
    refine congrArg (V c main_v27) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_v15 (((cfg1.win 1).blk t).view.emb (ix2 p (0 : Fin 1))) = V c main_v15 (ix2 (⟨t.val * 5000 + p.val, by omega⟩ : Fin 100000) (0 : Fin 1))
    refine congrArg (V c main_v15) (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · intro k
    show V c main_v28 (((cfg1.win 2).blk t).view.emb (ix2 (0 : Fin 1) k)) = V c main_v28 (ix2 (0 : Fin 1) k)
    refine congrArg (V c main_v28) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · intro k
    show V c main_arg5 (((cfg1.win 3).blk t).view.emb (ix2 k q)) = V c main_arg5 (ix2 k q)
    refine congrArg (V c main_arg5) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega

/-! ## The blocks cover the array -/

/-- An index of the output array is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v29).slice (win1_4.rect t)).set ↔ _
  rw [View.set_slice_whole, Rect.mem_set_unit]
  exact Iff.rfl

/-- Row `r` is in the block of point `r / 5000`, which is written back. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : (i 0).val / 5000 < cfg1.N := by rw [show cfg1.N = 20 from N_1]; omega
  refine ⟨⟨(i 0).val / 5000, hN⟩, flush1_4 _, ?_⟩
  obtain ⟨e0, e1, e2, e3, e4, e5, e6, e7, e8, e9⟩ := idx_facts1 ⟨(i 0).val / 5000, hN⟩
  have e8' : win1_4.index ⟨(i 0).val / 5000, hN⟩ (0 : Fin 2) = (i 0).val / 5000 := e8
  rw [mem_blk1]
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    omega
  | ⟨1, _⟩ =>
    show win1_4.index ⟨(i 0).val / 5000, hN⟩ (1 : Fin 2) * 128 ≤ (i 1).val
      ∧ (i 1).val < win1_4.index ⟨(i 0).val / 5000, hN⟩ (1 : Fin 2) * 128 + 128
    omega

/-! ## The array after the run -/

/-- Region 1's output array after the last point is the function of the four arrays the region reads. -/
theorem arr1_eq (V : (c : Dev nD) → (b : Ref sig .tc) → Buf (Elt Ideal) ((c : Thread nD τ).loc b)) (c : Dev nD) :
    (dat1 (F := Ideal) V c).arrAt 4 cfg1.N = R1fun (V c main_v27) (V c main_v15) (V c main_v28) (V c main_arg5) :=
  (dat1 (F := Ideal) V c).arrAt_eq_of_cover 4 (R1fun (V c main_v27) (V c main_v15) (V c main_v28) (V c main_arg5))
    (fun t _ => flushed1_eq V c t) cover1

end Cert.KernelIdeal.Hand

end
-- ==== Proof.KI.Val2.lean ====
/-
  Region 2's output array after the run, at the ideal instance, as one function of the four arrays the region reads:
  row `r`, column `j` holds (Σ_k max (d r · agg r k + b k) 0 · w k j) · d r. First the stored payload is read at one
  index of a block; then each grid point's written-back block is identified with a block of that function; last the
  blocks are shown to cover the array.
-/
import proofs.«428485_j55886114456268_3_alg».proof.Proof.KI.R2
import proofs.«428485_j55886114456268_3_alg».proof.Proof.KI.Funs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The payload at an index -/

/-- The zero offsets, however spelt. -/
theorem hz2 : (![0, 0] : Fin 2 → Nat) = fun _ => 0 := funext fun a => by fin_cases a <;> rfl

/-- The product's left operand is read at the output's row … -/
theorem lhsRow2 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contraction's coordinate; -/
theorem lhsCol2 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction's coordinate … -/
theorem rhsRow2 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's column. -/
theorem rhsCol2 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at row `p` and column `q`: the inner product of the left operand's
    row `p` with the right operand's column `q`. -/
theorem mmB2_apply (L : FVec Ideal S5000x128 .bf16) (R : FVec Ideal S128x128 .bf16) (p : Fin 5000) (q : Fin 128) :
    matmul dot_S5000x128_S128x128_S5000x128_1_0_0_1_n_n none L R (constant (F := Ideal) S5000x128 .f32 0x00000000#32) (ix2 p q)
      = ∑ k : Fin 128, (L (ix2 p k) : EReal) * R (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsRow2 _ _
    | ⟨1, _⟩ => exact (lhsCol2 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsRow2 _ _).trans hk
    | ⟨1, _⟩ => exact rhsCol2 _ _)
  rw [el, er]

/-- A column of one entry per row, broadcast along the rows, reads at `(p, j)` the column's entry of row `p`. -/
theorem bcastCol2 {α : Type} (x : S5000x1.Idx → α) (p : Fin 5000) (j : Fin 128) :
    broadcastTo S5000x128 x broadcasts_S5000x1_S5000x128 (ix2 p j) = x (ix2 p (0 : Fin 1)) := by
  refine broadcastTo_apply x broadcasts_S5000x1_S5000x128 (ix2 p j) (ix2 p (0 : Fin 1)) fun ax => ?_
  match ax with
  | ⟨0, _⟩ => rfl
  | ⟨1, _⟩ => rfl

/-- One row broadcast over all rows reads at `(p, j)` the row's entry of column `j`. -/
theorem bcastRow2 {α : Type} (x : S1x128.Idx → α) (p : Fin 5000) (j : Fin 128) :
    broadcastTo S5000x128 x broadcasts_S1x128_S5000x128 (ix2 p j) = x (ix2 (0 : Fin 1) j) :=
  broadcastTo_1b_ab_apply x broadcasts_S1x128_S5000x128 p j

/-- The stored payload at row `p`, column `q` of a block, from the four loaded blocks: the row's factor times the
    aggregated row plus the bias, clamped at zero, contracted with the weights' column, times the row's factor. -/
theorem payB2_apply (xDis : Vec Ideal S5000x1 .f32) (xAgg : Vec Ideal S5000x128 .f32) (xB : Vec Ideal S1x128 .f32)
    (xW : Vec Ideal S128x128 .f32) (p : Fin 5000) (q : Fin 128) :
    k2_pay1 xDis xAgg xB xW (ix2 p q)
      = ((∑ k : Fin 128, max ((xDis (ix2 p (0 : Fin 1)) : EReal) * xAgg (ix2 p k) + xB (ix2 (0 : Fin 1) k)) 0 * xW (ix2 k q))
          * xDis (ix2 p (0 : Fin 1)) : EReal) := by
  unfold k2_pay1
  simp only [shapeCast_self]
  show (matmul dot_S5000x128_S128x128_S5000x128_1_0_0_1_n_n none
        (truncf .bf16 (maximumf (addf (mulf (broadcastTo S5000x128 xDis broadcasts_S5000x1_S5000x128) xAgg)
            (broadcastTo S5000x128 xB broadcasts_S1x128_S5000x128)) (broadcast S5000x128 (Scalar.ofBits (F := Ideal) .f32 0x00000000#32)))
          bitsLt_bf16_f32)
        (truncf .bf16 xW bitsLt_bf16_f32) (constant (F := Ideal) S5000x128 .f32 0x00000000#32) (ix2 p q) : EReal)
      * (broadcastTo S5000x128 xDis broadcasts_S5000x1_S5000x128 (ix2 p q) : EReal) = _
  rw [bcastCol2, mmB2_apply]
  refine congrArg (· * (xDis (ix2 p (0 : Fin 1)) : EReal)) ?_
  refine Finset.sum_congr rfl fun k _ => ?_
  show max ((broadcastTo S5000x128 xDis broadcasts_S5000x1_S5000x128 (ix2 p k) : EReal) * xAgg (ix2 p k)
        + broadcastTo S5000x128 xB broadcasts_S1x128_S5000x128 (ix2 p k)) (Ideal.ofBits .f32 0x00000000#32)
      * (xW (ix2 k q) : EReal) = _
  rw [bcastCol2, bcastRow2, Ideal.ofBits_zero_f32]

/-! ## From the loaded blocks to the whole arrays -/

/-- The payload at row `p`, column `q` of a block whose rows sit at row `r` of the whole arrays: the function of the
    whole arrays at `(r, q)`. -/
theorem blockFun2 (agg : FVec Ideal S100000x128 .f32) (dis : FVec Ideal S100000x1 .f32) (bias : FVec Ideal S1x128 .f32)
    (wts : FVec Ideal S128x128 .f32)
    (xDis : Vec Ideal S5000x1 .f32) (xAgg : Vec Ideal S5000x128 .f32) (xB : Vec Ideal S1x128 .f32) (xW : Vec Ideal S128x128 .f32)
    (r : Fin 100000) (p : Fin 5000) (q : Fin 128)
    (hAgg : ∀ k : Fin 128, xAgg (ix2 p k) = agg (ix2 r k)) (hDis : xDis (ix2 p (0 : Fin 1)) = dis (ix2 r (0 : Fin 1)))
    (hB : ∀ k : Fin 128, xB (ix2 (0 : Fin 1) k) = bias (ix2 (0 : Fin 1) k)) (hW : ∀ k : Fin 128, xW (ix2 k q) = wts (ix2 k q)) :
    k2_pay1 xDis xAgg xB xW (ix2 p q) = R1fun agg dis bias wts (ix2 r q) := by
  rw [payB2_apply]
  show _ = ((∑ k : Fin 128, max ((dis (ix2 r (0 : Fin 1)) : EReal) * agg (ix2 r k) + bias (ix2 (0 : Fin 1) k)) 0 * wts (ix2 k q))
      * dis (ix2 r (0 : Fin 1)) : EReal)
  rw [hDis]
  refine congrArg (· * (dis (ix2 r (0 : Fin 1)) : EReal)) ?_
  refine Finset.sum_congr rfl fun k _ => ?_
  rw [hAgg k, hB k, hW k]

/-- The printed index maps, decided over the grid: the aggregated rows, the factors and the output move down one
    block of rows per point; the bias and the weights stay at their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- What point `t` writes back is block `t` of the function of the arrays as the region finds them. -/
theorem flushed2_eq (c : Dev nD) (t : Fin cfg2.N) :
    (dat2 (F := Ideal) V c).flushed 4 t
      = ((cfg2.win 4).blk t).view.read (Elt Ideal) (R1fun (V c main_v40) (V c main_v15) (V c main_v41) (V c main_arg7)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S5000x1) hz2, View.ld_unit_zero (S := S1x128) hz2,
    View.ld_unit_zero (S := S128x128) hz2]
  obtain ⟨e0, e1, e2, e3, e4, e5, e6, e7, e8, e9⟩ := idx_facts2 t
  have ht : t.val < 20 := Nat.lt_of_lt_of_eq t.isLt N_2
  funext j
  obtain ⟨p, q, rfl⟩ : ∃ (p : Fin 5000) (q : Fin 128), j = ix2 p q := ⟨j 0, j 1, eq_ix2 j⟩
  have hp : p.val < 5000 := p.isLt
  show k2_pay1 (iblk2 V c 1 t) (iblk2 V c 0 t) (iblk2 V c 2 t) (iblk2 V c 3 t) (ix2 p q)
      = R1fun (V c main_v40) (V c main_v15) (V c main_v41) (V c main_arg7) (((cfg2.win 4).blk t).view.emb (ix2 p q))
  have hout : ((cfg2.win 4).blk t).view.emb (ix2 p q) = ix2 (⟨t.val * 5000 + p.val, by omega⟩ : Fin 100000) q := by
    funext a; apply Fin.ext
    match a with
    | ⟨0, _⟩ => show win2_4.index t (0 : Fin 2) * 5000 + 1 * p.val = t.val * 5000 + p.val; omega
    | ⟨1, _⟩ => show win2_4.index t (1 : Fin 2) * 128 + 1 * q.val = q.val; omega
  rw [hout]
  refine blockFun2 (V c main_v40) (V c main_v15) (V c main_v41) (V c main_arg7)
    (iblk2 V c 1 t) (iblk2 V c 0 t) (iblk2 V c 2 t) (iblk2 V c 3 t) ⟨t.val * 5000 + p.val, by omega⟩ p q ?_ ?_ ?_ ?_
  · intro k
    show V c main_v40 (((cfg2.win 0).blk t).view.emb (ix2 p k)) = V c main_v40 (ix2 (⟨t.val * 5000 + p.val, by omega⟩ : Fin 100000) k)
    refine congrArg (V c main_v40) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_v15 (((cfg2.win 1).blk t).view.emb (ix2 p (0 : Fin 1))) = V c main_v15 (ix2 (⟨t.val * 5000 + p.val, by omega⟩ : Fin 100000) (0 : Fin 1))
    refine congrArg (V c main_v15) (funext fun a => Fin.ext ?_)
    match a with
    | ⟨0, _⟩ => show win2_1.index t (0 : Fin 2) * 5000 + 1 * p.val = t.val * 5000 + p.val; omega
    | ⟨1, _⟩ => show win2_1.index t (1 : Fin 2) * 1 + 1 * 0 = 0; omega
  · intro k
    show V c main_v41 (((cfg2.win 2).blk t).view.emb (ix2 (0 : Fin 1) k)) = V c main_v41 (ix2 (0 : Fin 1) k)
    refine congrArg (V c main_v41) (funext fun a => Fin.ext ?_)
    match a with
    | ⟨0, _⟩ => show win2_2.index t (0 : Fin 2) * 1 + 1 * 0 = 0; omega
    | ⟨1, _⟩ => show win2_2.index t (1 : Fin 2) * 128 + 1 * k.val = k.val; omega
  · intro k
    show V c main_arg7 (((cfg2.win 3).blk t).view.emb (ix2 k q)) = V c main_arg7 (ix2 k q)
    refine congrArg (V c main_arg7) (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega

/-! ## The blocks cover the array -/

/-- An index of the output array is in point `t`'s block iff each coordinate is in the block's range on its axis. -/
theorem mem_blk2 (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v42).slice (win2_4.rect t)).set ↔ _
  rw [View.set_slice_whole, Rect.mem_set_unit]
  exact Iff.rfl

/-- Row `r` is in the block of point `r / 5000`, which is written back. -/
theorem cover2 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : (i 0).val / 5000 < cfg2.N := by rw [show cfg2.N = 20 from N_2]; omega
  refine ⟨⟨(i 0).val / 5000, hN⟩, flush2_4 _, ?_⟩
  obtain ⟨e0, e1, e2, e3, e4, e5, e6, e7, e8, e9⟩ := idx_facts2 ⟨(i 0).val / 5000, hN⟩
  have e8' : win2_4.index ⟨(i 0).val / 5000, hN⟩ (0 : Fin 2) = (i 0).val / 5000 := e8
  rw [mem_blk2]
  intro a
  match a with
  | ⟨0, _⟩ =>
    show win2_4.index ⟨(i 0).val / 5000, hN⟩ (0 : Fin 2) * 5000 ≤ (i 0).val
      ∧ (i 0).val < win2_4.index ⟨(i 0).val / 5000, hN⟩ (0 : Fin 2) * 5000 + 5000
    omega
  | ⟨1, _⟩ =>
    show win2_4.index ⟨(i 0).val / 5000, hN⟩ (1 : Fin 2) * 128 ≤ (i 1).val
      ∧ (i 1).val < win2_4.index ⟨(i 0).val / 5000, hN⟩ (1 : Fin 2) * 128 + 128
    omega

/-! ## The array after the run -/

/-- Region 2's output array after the last point is the function of the four arrays the region reads. -/
theorem arr2_eq (V : (c : Dev nD) → (b : Ref sig .tc) → Buf (Elt Ideal) ((c : Thread nD τ).loc b)) (c : Dev nD) :
    (dat2 (F := Ideal) V c).arrAt 4 cfg2.N = R1fun (V c main_v40) (V c main_v15) (V c main_v41) (V c main_arg7) :=
  (dat2 (F := Ideal) V c).arrAt_eq_of_cover 4 (R1fun (V c main_v40) (V c main_v15) (V c main_v41) (V c main_arg7))
    (fun t _ => flushed2_eq V c t) cover2

end Cert.KernelIdeal.Hand

end
-- ==== Proof.KI.Pay3.lean ====
/-
  The three stored values of the pooling region at the ideal instance, read at an index: the zero reset of the
  accumulator; the accumulation step — the accumulator plus the one-hot graph-membership matrix, transposed, times the
  block's normalised, biased rows —; and the finalisation — the accumulated sums divided by the graph's node count,
  times the head's weights, plus its bias.
-/
import proofs.«428485_j55886114456268_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.SL.Sem

/-! ## The reset -/

/-- The reset value is zero everywhere. -/
theorem k3_pay1_apply (i : S64x128.Idx) : k3_pay1 (F := Ideal) i = 0 := by
  unfold k3_pay1
  rw [shapeCast_self]
  exact Ideal.ofBits_zero_f32

/-! ## The accumulation step -/

theorem lhs_mm2_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs_mm2_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_mm2_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs_mm2_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The product contracted over the rows of both factors, into a zero accumulator, at graph `p` and feature `q`: the
    inner product of column `p` of the left factor with column `q` of the right. -/
theorem mm2_apply (a : FVec Ideal S5000x64 .bf16) (b : FVec Ideal S5000x128 .bf16) (p : Fin 64) (q : Fin 128) :
    FloatOps.matmul (F := Ideal) dot_S5000x64_S5000x128_S64x128_0_0_1_1_n_n none a b (constant (F := Ideal) S64x128 .f32 0x00000000#32) (ix2 p q)
      = ∑ r : Fin 5000, a (ix2 r p) * b (ix2 r q) := by
  rw [Ideal.matmul_constant_zero_apply, ← Equiv.sum_comp (contrEquiv1 dot_S5000x64_S5000x128_S64x128_0_0_1_1_n_n 5000 rfl rfl).symm]
  refine Finset.sum_congr rfl fun r _ => ?_
  have hr := contrEquiv1_symm_val dot_S5000x64_S5000x128_S64x128_0_0_1_1_n_n 5000 rfl rfl r
  have el : dot_S5000x64_S5000x128_S64x128_0_0_1_1_n_n.lhsIdx (ix2 p q) ((contrEquiv1 dot_S5000x64_S5000x128_S64x128_0_0_1_1_n_n 5000 rfl rfl).symm r) = ix2 r p := funext fun a => Fin.ext (by
    match a with
    | ⟨0, _⟩ => exact (lhs_mm2_0 _ _).trans hr
    | ⟨1, _⟩ => exact lhs_mm2_1 _ _)
  have er : dot_S5000x64_S5000x128_S64x128_0_0_1_1_n_n.rhsIdx (ix2 p q) ((contrEquiv1 dot_S5000x64_S5000x128_S64x128_0_0_1_1_n_n 5000 rfl rfl).symm r) = ix2 r q := funext fun a => Fin.ext (by
    match a with
    | ⟨0, _⟩ => exact (rhs_mm2_0 _ _).trans hr
    | ⟨1, _⟩ => exact rhs_mm2_1 _ _)
  rw [el, er]

/-- The column of normalisation factors laid along every row, at row `p` and feature `q`: the factor of row `p`. -/
theorem bc2_dis_apply (d : FVec Ideal S5000x1 .f32) (p : Fin 5000) (q : Fin 128) :
    broadcastTo S5000x128 (shapeCast S5000x1 d shapeCasts_S5000x1_S5000x1) broadcasts_S5000x1_S5000x128 (ix2 p q) = d (ix2 p 0) := by
  rw [shapeCast_self]
  exact broadcastTo_apply d broadcasts_S5000x1_S5000x128 (ix2 p q) (ix2 p 0) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- The bias row laid down every row, at row `p` and feature `q`: the bias of feature `q`. -/
theorem bc2_bias_apply (d : FVec Ideal S1x128 .f32) (p : Fin 5000) (q : Fin 128) :
    broadcastTo S5000x128 (shapeCast S1x128 d shapeCasts_S1x128_S1x128) broadcasts_S1x128_S5000x128 (ix2 p q) = d (ix2 0 q) := by
  rw [shapeCast_self]
  exact broadcastTo_apply d broadcasts_S1x128_S5000x128 (ix2 p q) (ix2 0 q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-- The column of graph ids laid along every row, at row `p` and graph `q`: the graph id of row `p`. -/
theorem bc2_gid_apply (d : IVec S5000x1 32) (p : Fin 5000) (q : Fin 64) :
    broadcastTo S5000x64 (shapeCast S5000x1 d shapeCasts_S5000x1_S5000x1) broadcasts_S5000x1_S5000x64 (ix2 p q) = d (ix2 p 0) := by
  rw [shapeCast_self]
  exact broadcastTo_apply d broadcasts_S5000x1_S5000x64 (ix2 p q) (ix2 p 0) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- The equality test of two words, widened and converted, is the indicator of their equality. -/
theorem indicator_word (x y : BitVec 32) :
    FloatOps.sitofp (F := Ideal) .f32 ((IntOp.cmpi .eq x y).setWidth 32) = if x = y then (1 : EReal) else 0 := by
  show ((((BitVec.ofBool (x == y)).setWidth 32).toInt : ℝ) : EReal) = _
  by_cases h : x = y
  · rw [if_pos h, beq_iff_eq.2 h]
    have : ((BitVec.ofBool true).setWidth 32).toInt = 1 := by decide
    rw [this]; norm_num
  · rw [if_neg h, beq_eq_false_iff_ne.2 h]
    have : ((BitVec.ofBool false).setWidth 32).toInt = 0 := by decide
    rw [this]; norm_num

/-- The accumulated value at graph `g` and feature `k`: the accumulator plus the sum over the block's rows in graph `g`
    of the row's normalised, biased feature. -/
theorem k3_pay2_apply (v3 : Vec Ideal S5000x1 .f32) (v5 : Vec Ideal S5000x128 .f32) (v9 : Vec Ideal S1x128 .f32)
    (v14 : Vec Ideal S5000x1 .i32) (v22 : Vec Ideal S64x128 .f32) (g : Fin 64) (k : Fin 128) :
    k3_pay2 v3 v5 v9 v14 v22 (ix2 g k)
      = v22 (ix2 g k) + ∑ r : Fin 5000, (if v14 (ix2 r 0) = BitVec.ofNat 32 g.val then (1 : EReal) else 0)
          * ((v3 (ix2 r 0) : EReal) * v5 (ix2 r k) + v9 (ix2 0 k)) := by
  unfold k3_pay2
  rw [shapeCast_self]
  show (FloatOps.addf (v22 (ix2 g k)) (FloatOps.matmul (F := Ideal) dot_S5000x64_S5000x128_S64x128_0_0_1_1_n_n none
        (truncf .bf16 (sitofp .f32 (extui 32 (cmpi .eq (broadcastTo S5000x64 (shapeCast S5000x1 v14 shapeCasts_S5000x1_S5000x1) broadcasts_S5000x1_S5000x64)
          (iota .tc S5000x64 32 [1] iota_S5000x64_d1_w32)) natLt_1_32)) bitsLt_bf16_f32)
        (truncf .bf16 (addf (mulf (broadcastTo S5000x128 (shapeCast S5000x1 v3 shapeCasts_S5000x1_S5000x1) broadcasts_S5000x1_S5000x128)
            (shapeCast S5000x128 v5 shapeCasts_S5000x128_S5000x128))
          (broadcastTo S5000x128 (shapeCast S1x128 v9 shapeCasts_S1x128_S1x128) broadcasts_S1x128_S5000x128)) bitsLt_bf16_f32)
        (constant (F := Ideal) S64x128 .f32 0x00000000#32) (ix2 g k)) : EReal) = _
  rw [mm2_apply]
  refine congrArg (v22 (ix2 g k) + ·) (Finset.sum_congr rfl fun r _ => ?_)
  show FloatOps.sitofp (F := Ideal) .f32 ((IntOp.cmpi .eq
        (broadcastTo S5000x64 (shapeCast S5000x1 v14 shapeCasts_S5000x1_S5000x1) broadcasts_S5000x1_S5000x64 (ix2 r g))
        (iota .tc S5000x64 32 [1] iota_S5000x64_d1_w32 (ix2 r g))).setWidth 32)
      * ((broadcastTo S5000x128 (shapeCast S5000x1 v3 shapeCasts_S5000x1_S5000x1) broadcasts_S5000x1_S5000x128 (ix2 r k) : EReal)
          * shapeCast S5000x128 v5 shapeCasts_S5000x128_S5000x128 (ix2 r k)
        + broadcastTo S5000x128 (shapeCast S1x128 v9 shapeCasts_S1x128_S1x128) broadcasts_S1x128_S5000x128 (ix2 r k)) = _
  rw [indicator_word, bc2_gid_apply, bc2_dis_apply, bc2_bias_apply, shapeCast_self, iota_single_apply]

/-! ## The finalisation -/

theorem lhs_mm3_0 (i : S64x3.Idx) (q : dot_S64x128_S128x3_S64x3_1_0_0_1_n_n.contr.Idx) :
    (dot_S64x128_S128x3_S64x3_1_0_0_1_n_n.lhsIdx i q 0).val = (i 0).val := by
  unfold DotDims.lhsIdx
  rw [dif_neg (show ¬(0 : Fin S64x128.rank) ∈ dot_S64x128_S128x3_S64x3_1_0_0_1_n_n.lhsBatch by decide), dif_pos (show (0 : Fin S64x128.rank) ∈ dot_S64x128_S128x3_S64x3_1_0_0_1_n_n.lhsNonContracting by decide)]
  rfl
theorem lhs_mm3_1 (i : S64x3.Idx) (q : dot_S64x128_S128x3_S64x3_1_0_0_1_n_n.contr.Idx) :
    (dot_S64x128_S128x3_S64x3_1_0_0_1_n_n.lhsIdx i q 1).val = (q ⟨0, by decide⟩).val :=
  dot_S64x128_S128x3_S64x3_1_0_0_1_n_n.lhsIdx_val_of_single rfl i q
theorem rhs_mm3_0 (i : S64x3.Idx) (q : dot_S64x128_S128x3_S64x3_1_0_0_1_n_n.contr.Idx) :
    (dot_S64x128_S128x3_S64x3_1_0_0_1_n_n.rhsIdx i q 0).val = (q ⟨0, by decide⟩).val :=
  dot_S64x128_S128x3_S64x3_1_0_0_1_n_n.rhsIdx_val_of_single rfl i q
theorem rhs_mm3_1 (i : S64x3.Idx) (q : dot_S64x128_S128x3_S64x3_1_0_0_1_n_n.contr.Idx) :
    (dot_S64x128_S128x3_S64x3_1_0_0_1_n_n.rhsIdx i q 1).val = (i 1).val := by
  unfold DotDims.rhsIdx
  rw [dif_neg (show ¬(1 : Fin S128x3.rank) ∈ dot_S64x128_S128x3_S64x3_1_0_0_1_n_n.rhsBatch by decide), dif_pos (show (1 : Fin S128x3.rank) ∈ dot_S64x128_S128x3_S64x3_1_0_0_1_n_n.rhsNonContracting by decide)]
  rfl

/-- The head's product into a zero accumulator, at graph `p` and class `q`: the inner product of the row with the column. -/
theorem mm3_apply (a : FVec Ideal S64x128 .bf16) (b : FVec Ideal S128x3 .bf16) (p : Fin 64) (q : Fin 3) :
    FloatOps.matmul (F := Ideal) dot_S64x128_S128x3_S64x3_1_0_0_1_n_n none a b (constant (F := Ideal) S64x3 .f32 0x00000000#32) (ix2 p q)
      = ∑ k : Fin 128, a (ix2 p k) * b (ix2 k q) := by
  rw [Ideal.matmul_constant_zero_apply, ← Equiv.sum_comp (contrEquiv1 dot_S64x128_S128x3_S64x3_1_0_0_1_n_n 128 rfl rfl).symm]
  refine Finset.sum_congr rfl fun k _ => ?_
  have hk := contrEquiv1_symm_val dot_S64x128_S128x3_S64x3_1_0_0_1_n_n 128 rfl rfl k
  have el : dot_S64x128_S128x3_S64x3_1_0_0_1_n_n.lhsIdx (ix2 p q) ((contrEquiv1 dot_S64x128_S128x3_S64x3_1_0_0_1_n_n 128 rfl rfl).symm k) = ix2 p k := funext fun a => Fin.ext (by
    match a with
    | ⟨0, _⟩ => exact lhs_mm3_0 _ _
    | ⟨1, _⟩ => exact (lhs_mm3_1 _ _).trans hk)
  have er : dot_S64x128_S128x3_S64x3_1_0_0_1_n_n.rhsIdx (ix2 p q) ((contrEquiv1 dot_S64x128_S128x3_S64x3_1_0_0_1_n_n 128 rfl rfl).symm k) = ix2 k q := funext fun a => Fin.ext (by
    match a with
    | ⟨0, _⟩ => exact (rhs_mm3_0 _ _).trans hk
    | ⟨1, _⟩ => exact rhs_mm3_1 _ _)
  rw [el, er]

/-- The column of node counts laid along every row, at graph `p` and feature `q`: the count of graph `p`. -/
theorem bc3_cnt_apply (d : FVec Ideal S64x1 .f32) (p : Fin 64) (q : Fin 128) :
    broadcastTo S64x128 (shapeCast S64x1 d shapeCasts_S64x1_S64x1) broadcasts_S64x1_S64x128 (ix2 p q) = d (ix2 p 0) := by
  rw [shapeCast_self]
  exact broadcastTo_apply d broadcasts_S64x1_S64x128 (ix2 p q) (ix2 p 0) (fun a => by
    match a with
    | ⟨0, _⟩ => show p.val = if (64 : Nat) = 1 then 0 else p.val; rw [if_neg (by decide)]
    | ⟨1, _⟩ => show (0 : Nat) = if (1 : Nat) = 1 then 0 else q.val; rw [if_pos rfl])

/-- The head's bias row laid down every row, at graph `p` and class `q`: the bias of class `q`. -/
theorem bc3_bias_apply (d : FVec Ideal S1x3 .f32) (p : Fin 64) (q : Fin 3) :
    broadcastTo S64x3 (shapeCast S1x3 d shapeCasts_S1x3_S1x3) broadcasts_S1x3_S64x3 (ix2 p q) = d (ix2 0 q) := by
  rw [shapeCast_self]
  exact broadcastTo_apply d broadcasts_S1x3_S64x3 (ix2 p q) (ix2 0 q) (fun a => by
    match a with
    | ⟨0, _⟩ => show (0 : Nat) = if (1 : Nat) = 1 then 0 else p.val; rw [if_pos rfl]
    | ⟨1, _⟩ => show q.val = if (3 : Nat) = 1 then 0 else q.val; rw [if_neg (by decide)])

/-- The finalised value at graph `g` and class `j`: the graph's mean features times the head's weights, plus the bias. -/
theorem k3_pay3_apply (v31 : Vec Ideal S64x128 .f32) (v32 : Vec Ideal S64x1 .f32) (v37 : Vec Ideal S128x3 .f32) (v40 : Vec Ideal S1x3 .f32)
    (g : Fin 64) (j : Fin 3) :
    k3_pay3 v31 v32 v37 v40 (ix2 g j)
      = (∑ k : Fin 128, Ideal.div (v31 (ix2 g k)) (v32 (ix2 g 0)) * v37 (ix2 k j)) + v40 (ix2 0 j) := by
  unfold k3_pay3
  show (FloatOps.addf (FloatOps.matmul (F := Ideal) dot_S64x128_S128x3_S64x3_1_0_0_1_n_n none
        (truncf .bf16 (divf v31 (broadcastTo S64x128 (shapeCast S64x1 v32 shapeCasts_S64x1_S64x1) broadcasts_S64x1_S64x128)) bitsLt_bf16_f32)
        (truncf .bf16 v37 bitsLt_bf16_f32) (constant (F := Ideal) S64x3 .f32 0x00000000#32) (ix2 g j))
      (broadcastTo S64x3 (shapeCast S1x3 v40 shapeCasts_S1x3_S1x3) broadcasts_S1x3_S64x3 (ix2 g j)) : EReal) = _
  rw [mm3_apply, bc3_bias_apply]
  refine congrArg (· + v40 (ix2 0 j)) (Finset.sum_congr rfl fun k _ => ?_)
  show Ideal.div (v31 (ix2 g k)) (broadcastTo S64x128 (shapeCast S64x1 v32 shapeCasts_S64x1_S64x1) broadcasts_S64x1_S64x128 (ix2 g k)) * v37 (ix2 k j) = _
  rw [bc3_cnt_apply]

end Cert.KernelIdeal.Hand

end
-- ==== Proof.KI.Val3.lean ====
/-
  What region 3 leaves in its output array at the ideal instance: for every graph, the sum over all nodes of that graph
  of the node's aggregated row scaled by its normalisation factor with the bias added, divided by the graph's count,
  contracted with the head's weights, the head's bias added. The accumulator after each grid point as a sum over the
  blocks met so far; the one written block (the last point's, the whole output) as that function of the whole arrays.
-/
import proofs.«428485_j55886114456268_3_alg».proof.Proof.KI.R3
import proofs.«428485_j55886114456268_3_alg».proof.Proof.KI.Pay3
import proofs.«428485_j55886114456268_3_alg».proof.Proof.KI.Funs
import proofs.«428485_j55886114456268_3_alg».proof.Proof.KI.Pool
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One node's and one block's contribution to a graph's sum -/

/-- Node `n`'s contribution to graph `g` at column `k`: its scaled, biased row entry when its graph id is `g`,
    else zero times it. -/
def node3 (AGG : FVec Ideal S100000x128 .f32) (DIS : FVec Ideal S100000x1 .f32) (B : FVec Ideal S1x128 .f32)
    (BT : IVec S100000x1 32) (g : Fin 64) (k : Fin 128) (n : Fin 100000) : EReal :=
  (if BT (ix2 n 0) = BitVec.ofNat 32 g.val then (1 : EReal) else 0)
    * ((DIS (ix2 n 0) : EReal) * AGG (ix2 n k) + B (ix2 0 k))

/-- The contributions of the 5000 nodes of block `t` (zero past the last block). -/
def blockSum3 (AGG : FVec Ideal S100000x128 .f32) (DIS : FVec Ideal S100000x1 .f32) (B : FVec Ideal S1x128 .f32)
    (BT : IVec S100000x1 32) (g : Fin 64) (k : Fin 128) (t : Nat) : EReal :=
  if h : t < 20 then ∑ r : Fin 5000, node3 AGG DIS B BT g k ⟨5000 * t + r.val, by have := r.isLt; omega⟩ else 0

/-- The blocks' contributions add up to the sum over all nodes. -/
theorem blocks_total3 (AGG : FVec Ideal S100000x128 .f32) (DIS : FVec Ideal S100000x1 .f32) (B : FVec Ideal S1x128 .f32)
    (BT : IVec S100000x1 32) (g : Fin 64) (k : Fin 128) :
    ∑ t ∈ Finset.range 20, blockSum3 AGG DIS B BT g k t = ∑ n : Fin 100000, node3 AGG DIS B BT g k n := by
  rw [Cert.ReferenceIdeal.Hand.sum_blocks, Finset.sum_range]
  refine Finset.sum_congr rfl fun t _ => ?_
  unfold blockSum3
  rw [dif_pos t.isLt]

/-- ONE POINT'S STEP. When the row, factor and graph-id blocks are rows `5000·b + y` of their arrays and the bias
    block is the whole bias, the accumulating payload at graph `g`, column `k` is what was there plus block `b`'s
    contribution. -/
theorem step3_apply (AGG : FVec Ideal S100000x128 .f32) (DIS : FVec Ideal S100000x1 .f32) (B : FVec Ideal S1x128 .f32)
    (BT : IVec S100000x1 32)
    (x0 : Vec Ideal S5000x128 .f32) (x1 : Vec Ideal S5000x1 .f32) (x2 : Vec Ideal S1x128 .f32) (x3 : Vec Ideal S5000x1 .i32)
    (prev : Vec Ideal S64x128 .f32) (b : Nat) (hb : b < 20)
    (h0 : ∀ (y : S5000x128.Idx) (i : S100000x128.Idx), (i 0).val = b * 5000 + (y 0).val → (i 1).val = (y 1).val → x0 y = AGG i)
    (h1 : ∀ (y : S5000x1.Idx) (i : S100000x1.Idx), (i 0).val = b * 5000 + (y 0).val → x1 y = DIS i)
    (h2 : x2 = B)
    (h3 : ∀ (y : S5000x1.Idx) (i : S100000x1.Idx), (i 0).val = b * 5000 + (y 0).val → x3 y = BT i)
    (g : Fin 64) (k : Fin 128) :
    k3_pay2 (F := Ideal) x1 x0 x2 x3 prev (ix2 g k) = prev (ix2 g k) + blockSum3 AGG DIS B BT g k b := by
  rw [k3_pay2_apply]
  unfold blockSum3
  rw [dif_pos hb]
  subst h2
  refine congrArg (prev (ix2 g k) + ·) (Finset.sum_congr rfl fun r _ => ?_)
  have hr : r.val < 5000 := r.isLt
  have hn : 5000 * b + r.val < 100000 := by omega
  unfold node3
  rw [h3 (ix2 r 0) (ix2 (⟨5000 * b + r.val, hn⟩ : Fin 100000) 0) (by show 5000 * b + r.val = b * 5000 + r.val; omega),
    h1 (ix2 r 0) (ix2 (⟨5000 * b + r.val, hn⟩ : Fin 100000) 0) (by show 5000 * b + r.val = b * 5000 + r.val; omega),
    h0 (ix2 r k) (ix2 (⟨5000 * b + r.val, hn⟩ : Fin 100000) k) (by show 5000 * b + r.val = b * 5000 + r.val; omega) rfl]

/-- THE LAST POINT'S STORE. When the accumulator holds every graph's sum over all nodes and the counts, weights and
    bias blocks are their whole arrays, the stored payload at `j` is the pooled, contracted, biased value at the same
    coordinates. -/
theorem out3_apply (AGG : FVec Ideal S100000x128 .f32) (DIS : FVec Ideal S100000x1 .f32) (B : FVec Ideal S1x128 .f32)
    (BT : IVec S100000x1 32) (CN : FVec Ideal S64x1 .f32) (WL : FVec Ideal S128x3 .f32) (BL : FVec Ideal S1x3 .f32)
    (acc : Vec Ideal S64x128 .f32) (x4 : Vec Ideal S64x1 .f32) (x5 : Vec Ideal S128x3 .f32) (x6 : Vec Ideal S1x3 .f32)
    (hacc : ∀ (g : Fin 64) (k : Fin 128), acc (ix2 g k) = ∑ n : Fin 100000, node3 AGG DIS B BT g k n)
    (h4 : x4 = CN) (h5 : x5 = WL) (h6 : x6 = BL) (j : S64x3.Idx) (i : S64x3.Idx)
    (hi0 : (i 0).val = (j 0).val) (hi1 : (i 1).val = (j 1).val) :
    k3_pay3 (F := Ideal) acc x4 x5 x6 j = R3fun AGG DIS B BT CN WL BL i := by
  obtain ⟨g, q, rfl⟩ : ∃ (g : Fin 64) (q : Fin 3), j = ix2 g q := ⟨j 0, j 1, eq_ix2 j⟩
  have hig : i 0 = g := Fin.ext hi0
  have hiq : i 1 = q := Fin.ext hi1
  rw [k3_pay3_apply]
  subst h4 h5 h6
  unfold R3fun
  dsimp only
  rw [hig, hiq]
  refine congrArg (· + x6 (ix2 0 q)) (Finset.sum_congr rfl fun k _ => ?_)
  rw [hacc g k]
  rfl

/-! ## From the points to the array -/

/-- The printed index maps, decided over the grid: the row, factor and graph-id blocks move down the rows, one block
    per point; the bias, counts, weights, head bias and output blocks stay. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

variable (V : (c : Dev nD) → (b : Ref sig .tc) → Buf (Elt Ideal) ((c : Thread nD τ).loc b))

/-- The accumulating payload at point `t`, on the blocks the windows hold there: what was there plus block `t`'s
    contribution, of the arrays as the region finds them. -/
theorem acc3_step (c : Dev nD) (t : Fin cfg3.N) (prev : Vec Ideal S64x128 .f32) (g : Fin 64) (k : Fin 128) :
    k3_pay2 (F := Ideal) (iblk3 V c 1 t) (iblk3 V c 0 t) (iblk3 V c 2 t) (iblk3 V c 3 t) prev (ix2 g k)
      = prev (ix2 g k) + blockSum3 (V c main_v53) (V c main_v15) (V c main_v62) (V c main_v54) g k t.val := by
  obtain ⟨e00, e01, e10, e11, e20, e21, e30, e31, e40, e41, e50, e51, e60, e61, e70, e71⟩ := idx_facts3 t
  have ht : t.val < 20 := lt_of_lt_of_eq t.isLt (show cfg3.N = 20 from N_3)
  refine step3_apply (V c main_v53) (V c main_v15) (V c main_v62) (V c main_v54)
    (iblk3 V c 0 t) (iblk3 V c 1 t) (iblk3 V c 2 t) (iblk3 V c 3 t) prev t.val ht ?_ ?_ ?_ ?_ g k
  · intro y i h0 h1
    show V c main_v53 (((cfg3.win 0).blk t).view.emb y) = V c main_v53 i
    refine congrArg (V c main_v53) (funext fun a => Fin.ext ?_)
    match a with
    | ⟨0, _⟩ => show win3_0.index t (0 : Fin 2) * 5000 + 1 * (y 0).val = (i 0).val; omega
    | ⟨1, _⟩ => show win3_0.index t (1 : Fin 2) * 128 + 1 * (y 1).val = (i 1).val; omega
  · intro y i h0
    show V c main_v15 (((cfg3.win 1).blk t).view.emb y) = V c main_v15 i
    refine congrArg (V c main_v15) (funext fun a => Fin.ext ?_)
    match a with
    | ⟨0, _⟩ => show win3_1.index t (0 : Fin 2) * 5000 + 1 * (y 0).val = (i 0).val; omega
    | ⟨1, _⟩ =>
      show win3_1.index t (1 : Fin 2) * 1 + 1 * (y 1).val = (i 1).val
      have hy : (y 1).val < 1 := (y 1).isLt
      have hi : (i 1).val < 1 := (i 1).isLt
      omega
  · funext y
    show V c main_v62 (((cfg3.win 2).blk t).view.emb y) = V c main_v62 y
    refine congrArg (V c main_v62) (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  · intro y i h0
    show V c main_v54 (((cfg3.win 3).blk t).view.emb y) = V c main_v54 i
    refine congrArg (V c main_v54) (funext fun a => Fin.ext ?_)
    match a with
    | ⟨0, _⟩ => show win3_3.index t (0 : Fin 2) * 5000 + 1 * (y 0).val = (i 0).val; omega
    | ⟨1, _⟩ =>
      show win3_3.index t (1 : Fin 2) * 1 + 1 * (y 1).val = (i 1).val
      have hy : (y 1).val < 1 := (y 1).isLt
      have hi : (i 1).val < 1 := (i 1).isLt
      omega

/-- THE ACCUMULATOR, POINT BY POINT: after the body at position `n` it holds, for every graph and column, the
    contributions of blocks `0 … n`. -/
theorem acc3_sum (c : Dev nD) (g : Fin 64) (k : Fin 128) : ∀ (n : ℕ) (hn : n < cfg3.N),
    acc3 (F := Ideal) V c n hn (ix2 g k)
      = ∑ t ∈ Finset.range (n + 1), blockSum3 (V c main_v53) (V c main_v15) (V c main_v62) (V c main_v54) g k t
  | 0, hn => by
    refine (acc3_step V c ⟨0, hn⟩ (k3_pay1 (F := Ideal)) g k).trans ?_
    rw [k3_pay1_apply, Finset.sum_range_succ, Finset.sum_range_zero]
  | n + 1, hn => by
    refine (acc3_step V c ⟨n + 1, hn⟩ (acc3 (F := Ideal) V c n (Nat.lt_of_succ_lt hn)) g k).trans ?_
    rw [acc3_sum c g k n (Nat.lt_of_succ_lt hn), Finset.sum_range_succ (n := n + 1)]

/-- What the one writing point writes back is the whole pooled, contracted, biased array, read through its block. -/
theorem flushed3_eq (c : Dev nD) (t : Fin cfg3.N) (hf : (cfg3.win 7).flush t = true) :
    (dat3 (F := Ideal) V c).flushed 7 t
      = ((cfg3.win 7).blk t).view.read (Elt Ideal)
          (R3fun (V c main_v53) (V c main_v15) (V c main_v62) (V c main_v54) (V c main_v61) (V c main_arg9) (V c main_v63)) := by
  have ht : t.val < 20 := lt_of_lt_of_eq t.isLt (show cfg3.N = 20 from N_3)
  have h19 : t.val = 19 := by have h := (flush3_7 t).mp hf; omega
  show (cfg3.win 7).cut (grid3.coords t) ((dat3 (F := Ideal) V c).after 7 t) = _
  rw [after3_7]
  unfold out3
  obtain ⟨e00, e01, e10, e11, e20, e21, e30, e31, e40, e41, e50, e51, e60, e61, e70, e71⟩ := idx_facts3 t
  funext j
  refine out3_apply (V c main_v53) (V c main_v15) (V c main_v62) (V c main_v54) (V c main_v61) (V c main_arg9) (V c main_v63)
    (acc3 (F := Ideal) V c t.val t.isLt) (iblk3 V c 4 t) (iblk3 V c 5 t) (iblk3 V c 6 t) ?_ ?_ ?_ ?_ j
    (((cfg3.win 7).blk t).view.emb j) ?_ ?_
  · intro g k
    rw [acc3_sum V c g k t.val t.isLt, ← blocks_total3, h19]
  · funext y
    show V c main_v61 (((cfg3.win 4).blk t).view.emb y) = V c main_v61 y
    refine congrArg (V c main_v61) (funext fun a => Fin.ext ?_)
    match a with
    | ⟨0, _⟩ => show win3_4.index t (0 : Fin 2) * 64 + 1 * (y 0).val = (y 0).val; omega
    | ⟨1, _⟩ => show win3_4.index t (1 : Fin 2) * 1 + 1 * (y 1).val = (y 1).val; omega
  · funext y
    show V c main_arg9 (((cfg3.win 5).blk t).view.emb y) = V c main_arg9 y
    refine congrArg (V c main_arg9) (funext fun a => Fin.ext ?_)
    match a with
    | ⟨0, _⟩ => show win3_5.index t (0 : Fin 2) * 128 + 1 * (y 0).val = (y 0).val; omega
    | ⟨1, _⟩ => show win3_5.index t (1 : Fin 2) * 3 + 1 * (y 1).val = (y 1).val; omega
  · funext y
    show V c main_v63 (((cfg3.win 6).blk t).view.emb y) = V c main_v63 y
    refine congrArg (V c main_v63) (funext fun a => Fin.ext ?_)
    match a with
    | ⟨0, _⟩ => show win3_6.index t (0 : Fin 2) * 1 + 1 * (y 0).val = (y 0).val; omega
    | ⟨1, _⟩ => show win3_6.index t (1 : Fin 2) * 3 + 1 * (y 1).val = (y 1).val; omega
  · show win3_7.index t (0 : Fin 2) * 64 + 1 * (j 0).val = (j 0).val; omega
  · show win3_7.index t (1 : Fin 2) * 3 + 1 * (j 1).val = (j 1).val; omega

/-- An index of the output is in point `t`'s block iff each coordinate is in the block's range on its axis. -/
theorem mem_blk3 (t : Fin cfg3.N) (i : S64x3.Idx) :
    i ∈ ((cfg3.win 7).blk t).view.set ↔ ∀ a : Fin 2, win3_7.index t a * S64x3.size a ≤ (i a).val ∧ (i a).val < win3_7.index t a * S64x3.size a + S64x3.size a := by
  show i ∈ ((View.whole main_v64).slice (win3_7.rect t)).set ↔ _
  rw [View.set_slice_whole, Rect.mem_set_unit]
  exact Iff.rfl

/-- The last point's block is the whole output: it covers every index. -/
theorem cover3 (i : S64x3.Idx) :
    ∃ t : Fin cfg3.N, (cfg3.win 7).flush t = true ∧ i ∈ ((cfg3.win 7).blk t).view.set := by
  have hi0 : (i 0).val < 64 := (i 0).isLt
  have hi1 : (i 1).val < 3 := (i 1).isLt
  have hN : 19 < cfg3.N := by rw [show cfg3.N = 20 from N_3]; omega
  refine ⟨⟨19, hN⟩, (flush3_7 ⟨19, hN⟩).mpr rfl, ?_⟩
  rw [mem_blk3]
  obtain ⟨e00, e01, e10, e11, e20, e21, e30, e31, e40, e41, e50, e51, e60, e61, e70, e71⟩ := idx_facts3 ⟨19, hN⟩
  intro a
  match a with
  | ⟨0, _⟩ =>
    show win3_7.index ⟨19, hN⟩ (0 : Fin 2) * 64 ≤ (i 0).val ∧ (i 0).val < win3_7.index ⟨19, hN⟩ (0 : Fin 2) * 64 + 64
    omega
  | ⟨1, _⟩ =>
    show win3_7.index ⟨19, hN⟩ (1 : Fin 2) * 3 ≤ (i 1).val ∧ (i 1).val < win3_7.index ⟨19, hN⟩ (1 : Fin 2) * 3 + 3
    omega

/-- The output array after the region: the per-graph mean of the scaled, biased rows, contracted with the head's
    weights, the head's bias added — one function of the arrays the region finds. -/
theorem arr3_eq (V : (c : Dev nD) → (b : Ref sig .tc) → Buf (Elt Ideal) ((c : Thread nD τ).loc b)) (c : Dev nD) :
    (dat3 (F := Ideal) V c).arrAt 7 cfg3.N
      = R3fun (V c main_v53) (V c main_v15) (V c main_v62) (V c main_v54) (V c main_v61) (V c main_arg9) (V c main_v63) :=
  (dat3 (F := Ideal) V c).arrAt_eq_of_cover 7
    (R3fun (V c main_v53) (V c main_v15) (V c main_v62) (V c main_v54) (V c main_v61) (V c main_arg9) (V c main_v63))
    (fun t hf => flushed3_eq V c t hf) cover3

end Cert.KernelIdeal.Hand

end
-- ==== Proof.KI.Prefix.lean ====
import proofs.«428485_j55886114456268_3_alg».proof.Proof.Gen.KernelIdeal.Regions
import proofs.«428485_j55886114456268_3_alg».proof.Proof.RefReadP
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (c : Dev nD)

/-! # The shared host prefix

Both programs start from the same edge list with the same operations: the source and the target lists with the
self loops appended, the in-degrees as a scatter-add of ones, and the inverse square roots of the positive degrees.
What the kernel program's first host stretches leave in the three buffers is the reference program's value of the
same name. -/

/-- The source list with the self loops appended. -/
theorem pre_src :
    V3 m c main_v5 = Cert.ReferenceIdeal.PRead.val_main_v5 (F := F) (m ((c : Thread nD τ).loc main_arg1)) := by
  rw [V3_of m c main_v5 (by decide), V2_of m c main_v5 (by decide)]
  show StableHlo.after hostOps0 _ (Proc.devRef .tc main_v5) = _
  after_results
  rfl

/-- The target list with the self loops appended. -/
theorem pre_dst :
    V3 m c main_v6 = Cert.ReferenceIdeal.PRead.val_main_v6 (F := F) (m ((c : Thread nD τ).loc main_arg1)) := by
  rw [V3_of m c main_v6 (by decide), V2_of m c main_v6 (by decide)]
  show StableHlo.after hostOps0 _ (Proc.devRef .tc main_v6) = _
  after_results
  rfl

/-- The selection's three operations over any earlier contents: the mask chooses between the second operand and
    the broadcast scalar. -/
theorem where_result (W : Valuation τ sig (Elt F)) :
    StableHlo.after (hostOps0_1 (F := F)) W (Proc.devRef .tc main_v14)
      = select (W (Proc.devRef .tc main_v12) : (⟨S100000, .i1⟩ : BufTy).Contents (Elt F))
          (W (Proc.devRef .tc main_v13) : (⟨S100000, .f32⟩ : BufTy).Contents (Elt F))
          (broadcastInDim S100000 ![] bcast_S_S100000 (W (Proc.devRef .tc main_cst_2) : (⟨S_, .f32⟩ : BufTy).Contents (Elt F))) := by
  after_results_simp
  simp only [StableHlo.TRef.ofBuf, StableHlo.TRef.toBuf, cast_eq]
  rfl

/-- The mask: which degrees are positive. -/
theorem v1_v12 :
    V1 m c main_v12 = Cert.ReferenceIdeal.PRead.val_main_v12 (F := F) (m ((c : Thread nD τ).loc main_arg1)) := by
  show StableHlo.after hostOps0 _ (Proc.devRef .tc main_v12) = _
  after_results
  rfl

/-- The inverse square roots of the degrees. -/
theorem v1_v13 :
    V1 m c main_v13 = Cert.ReferenceIdeal.PRead.val_main_v13 (F := F) (m ((c : Thread nD τ).loc main_arg1)) := by
  show StableHlo.after hostOps0 _ (Proc.devRef .tc main_v13) = _
  after_results
  rfl

/-- The scalar zero. -/
theorem v1_cst2 :
    V1 m c main_cst_2 = Cert.ReferenceIdeal.PRead.val_main_cst_2 (F := F) := by
  show StableHlo.after hostOps0 _ (Proc.devRef .tc main_cst_2) = _
  after_results
  rfl

/-- The inverse square roots of the positive degrees, zero elsewhere. -/
theorem pre_dis :
    V3 m c main_v14 = Cert.ReferenceIdeal.PRead.val_main_v14 (F := F) (m ((c : Thread nD τ).loc main_arg1)) := by
  rw [V3_of m c main_v14 (by decide)]
  refine (where_result (V1 m c)).trans ?_
  have h12 := v1_v12 m c
  have h13 := v1_v13 m c
  have hc := v1_cst2 (F := F) m c
  rw [h12, h13, hc]
  rfl

end Cert.KernelIdeal.Hand
-- ==== Proof.KI.Counts.lean ====
/-
  The per-graph counts, clamped below at one: the kernel program computes them as the reference does — ones scattered
  by graph id into zeros, the maximum with one — and keeps them as a column; entry (g, 0) of that column is the
  reference's entry g.
-/
import proofs.«428485_j55886114456268_3_alg».proof.Proof.Gen.KernelIdeal
import proofs.«428485_j55886114456268_3_alg».proof.Proof.RefReadP
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- The column of clamped counts at row `g` is the reference's clamped count of graph `g`: the reshape of a vector to
    a column keeps the row-major position, and under it the two programs apply the same operations to the same
    graph ids. -/
theorem cnts_eq (x2 : IVec S100000 32) (g : Fin 64) :
    shapeCast S64x1
        (maximumf
          (Host.scatterAdd scatter_S64_S100000x1_S100000_n_0_0_1
            (broadcastInDim S64 ![] bcast_S_S64 (constant (F := F) S_ .f32 0x00000000#32))
            (broadcastInDim S100000x1 ![0] bcast_S100000_S100000x1_0 x2)
            (broadcastInDim S100000 ![] bcast_S_S100000 (constant (F := F) S_ .f32 0x3F800000#32)))
          (broadcastInDim S64 ![] bcast_S_S64 (constant (F := F) S_ .f32 0x3F800000#32)))
        shapeCasts_S64_S64x1 (ix2 g 0)
      = Cert.ReferenceIdeal.PRead.val_main_v91 (F := F) x2 (ix1 g) := by
  rw [shapeCast_apply _ shapeCasts_S64_S64x1 (ix2 g 0) (ix1 g)
    (by rewrite [Shape.rowMajor_val_one, Shape.rowMajor_val_two]; show g.val = g.val * 1 + 0; omega)]
  rfl

end Cert.KernelIdeal.Hand

end
-- ==== Proof.KI.KerSide.lean ====
/-
  The kernel program's result in the kernel-shaped chain of plain arrays. The result buffer after the last region is
  the last region's function of what it was entered with; each region is entered with the host's aggregation of the
  previous region's output, the node factors as a column, a bias as a row and a weight matrix; the first three host
  stretches leave the edge sources and targets (self loops appended) and the node factors at the reference program's
  values of the same names. Layer by layer, that is the composed chain, and the composed chain is the kernel-shaped one.
-/
import proofs.«428485_j55886114456268_3_alg».proof.Proof.KI.KerCore
import proofs.«428485_j55886114456268_3_alg».proof.Proof.KI.KerGlue
import proofs.«428485_j55886114456268_3_alg».proof.Proof.KI.Val0
import proofs.«428485_j55886114456268_3_alg».proof.Proof.KI.Val1
import proofs.«428485_j55886114456268_3_alg».proof.Proof.KI.Val2
import proofs.«428485_j55886114456268_3_alg».proof.Proof.KI.Val3
import proofs.«428485_j55886114456268_3_alg».proof.Proof.KI.Prefix
import proofs.«428485_j55886114456268_3_alg».proof.Proof.KI.Counts

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The zero operand of the row scatters -/

/-- The array of zeros every aggregation sums into. -/
def ZK : FVec Ideal S100000x128 .f32 :=
  broadcastInDim S100000x128 ![] bcast_S_S100000x128 (constant (F := Ideal) S_ .f32 0x00000000#32)

/-- It is zero everywhere. -/
theorem hZK (i : S100000x128.Idx) : ZK i = 0 :=
  (broadcastInDim_apply _ bcast_S_S100000x128 (constant (F := Ideal) S_ .f32 0x00000000#32) i (fun a => a.elim0)
    (fun a => a.elim0)).trans Ideal.ofBits_zero_f32

variable (m : (ℓ : Loc nD τ sig) → Buf (Elt Ideal) ℓ) (c : Dev nD)

/-! ## The regions' outputs, layer by layer -/

/-- Region 0 leaves the first dense layer of the features, rows scaled. -/
theorem out4_eq : outs m 4 main_v16 c
    = kOut0 (kDis m c) (m ((c.tc : Thread nD τ).loc main_arg0)) (m ((c.tc : Thread nD τ).loc main_arg3)) := by
  have h : outs m 4 main_v16 c = (dat0 (E0 m) c).arrAt 3 cfg0.N := X4_arr m c 3
  rw [h, arr0_eq (E0 m) c, E0_main_arg0, E0_main_arg3, E0_main_v15]
  rfl

/-- Region 1 leaves the second layer's scaled rows, from region 0's output aggregated by the host. -/
theorem out6_eq : outs m 6 main_v29 c
    = kOut1 (kSrc m c) (kDst m c) (kDis m c) (m ((c.tc : Thread nD τ).loc main_arg0)) (m ((c.tc : Thread nD τ).loc main_arg3))
        (m ((c.tc : Thread nD τ).loc main_arg4)) (m ((c.tc : Thread nD τ).loc main_arg5)) ZK := by
  have h : outs m 6 main_v29 c = (dat1 (E1 m) c).arrAt 4 cfg1.N := X6_arr m c 4
  rw [h, arr1_eq (E1 m) c, E1_main_v27, E1_main_v15, E0_main_v15, E1_main_v28, E1_main_arg5, out4_eq]
  rfl

/-- Region 2 leaves the third layer's scaled rows, from region 1's output aggregated by the host. -/
theorem out8_eq : outs m 8 main_v42 c
    = kOut2 (kSrc m c) (kDst m c) (kDis m c) (m ((c.tc : Thread nD τ).loc main_arg0)) (m ((c.tc : Thread nD τ).loc main_arg3))
        (m ((c.tc : Thread nD τ).loc main_arg4)) (m ((c.tc : Thread nD τ).loc main_arg6))
        (m ((c.tc : Thread nD τ).loc main_arg5)) (m ((c.tc : Thread nD τ).loc main_arg7)) ZK := by
  have h : outs m 8 main_v42 c = (dat2 (E2 m) c).arrAt 4 cfg2.N := X8_arr m c 4
  rw [h, arr2_eq (E2 m) c, E2_main_v40, E2_main_v15, E0_main_v15, E2_main_v41, E2_main_arg7, out6_eq]
  rfl

/-- Region 3 leaves the pooled, normalised third aggregate through the head. -/
theorem out10_eq : outs m 10 main_v64 c
    = kOut3 (kSrc m c) (kDst m c) (kDis m c) (m ((c.tc : Thread nD τ).loc main_arg0)) (m ((c.tc : Thread nD τ).loc main_arg3))
        (m ((c.tc : Thread nD τ).loc main_arg4)) (m ((c.tc : Thread nD τ).loc main_arg6)) (m ((c.tc : Thread nD τ).loc main_arg8))
        (m ((c.tc : Thread nD τ).loc main_arg5)) (m ((c.tc : Thread nD τ).loc main_arg7)) (m ((c.tc : Thread nD τ).loc main_arg9)) ZK
        (shapeCast S100000x1 (m ((c.tc : Thread nD τ).loc main_arg2)) shapeCasts_S100000_S100000x1)
        (shapeCast S64x1
          (maximumf
            (Host.scatterAdd scatter_S64_S100000x1_S100000_n_0_0_1
              (broadcastInDim S64 ![] bcast_S_S64 (constant (F := Ideal) S_ .f32 0x00000000#32))
              (broadcastInDim S100000x1 ![0] bcast_S100000_S100000x1_0 (m ((c.tc : Thread nD τ).loc main_arg2)))
              (broadcastInDim S100000 ![] bcast_S_S100000 (constant (F := Ideal) S_ .f32 0x3F800000#32)))
            (broadcastInDim S64 ![] bcast_S_S64 (constant (F := Ideal) S_ .f32 0x3F800000#32)))
          shapeCasts_S64_S64x1)
        (shapeCast S1x3 (m ((c.tc : Thread nD τ).loc main_arg10)) shapeCasts_S3_S1x3) := by
  rw [outs_result, arr3_eq (E3 m) c, E3_main_v53, E3_main_v15, E0_main_v15, E3_main_v62, E3_main_v54, E3_main_v61,
    E3_main_arg9, E3_main_v63, out8_eq]
  rfl

/-! ## The result -/

/-- THE KERNEL PROGRAM'S RESULT is the kernel-shaped chain of the launch arguments, the edge lists and node factors
    being the reference program's values of the same names and the counts its clamped counts. -/
theorem ker_side (m : (ℓ : Loc nD τ sig) → Buf (Elt Ideal) ℓ) (c : Dev nD) :
    outs m 10 main_v64 c
      = Cert.ReferenceIdeal.Hand.kerRes
          (Cert.ReferenceIdeal.PRead.val_main_v5 (F := Ideal) (m ((c.tc : Thread nD τ).loc main_arg1)))
          (Cert.ReferenceIdeal.PRead.val_main_v6 (F := Ideal) (m ((c.tc : Thread nD τ).loc main_arg1)))
          (m ((c.tc : Thread nD τ).loc main_arg2))
          (Cert.ReferenceIdeal.PRead.val_main_v14 (F := Ideal) (m ((c.tc : Thread nD τ).loc main_arg1)))
          (m ((c.tc : Thread nD τ).loc main_arg0)) (m ((c.tc : Thread nD τ).loc main_arg3))
          (m ((c.tc : Thread nD τ).loc main_arg4)) (m ((c.tc : Thread nD τ).loc main_arg6)) (m ((c.tc : Thread nD τ).loc main_arg8))
          (m ((c.tc : Thread nD τ).loc main_arg5)) (m ((c.tc : Thread nD τ).loc main_arg7))
          (m ((c.tc : Thread nD τ).loc main_arg9)) (m ((c.tc : Thread nD τ).loc main_arg10))
          (Cert.ReferenceIdeal.PRead.val_main_v91 (F := Ideal) (m ((c.tc : Thread nD τ).loc main_arg2))) ZK := by
  rw [out10_eq m c]
  have hs : kSrc m c = Cert.ReferenceIdeal.PRead.val_main_v5 (F := Ideal) (m ((c.tc : Thread nD τ).loc main_arg1)) := pre_src m c
  have ht : kDst m c = Cert.ReferenceIdeal.PRead.val_main_v6 (F := Ideal) (m ((c.tc : Thread nD τ).loc main_arg1)) := pre_dst m c
  have hd : kDis m c = Cert.ReferenceIdeal.PRead.val_main_v14 (F := Ideal) (m ((c.tc : Thread nD τ).loc main_arg1)) := pre_dis m c
  rw [hs, ht, hd]
  exact kOut3_eq _ _ (m ((c.tc : Thread nD τ).loc main_arg2)) _ _ _ _ _ _ _ _ _ (m ((c.tc : Thread nD τ).loc main_arg10)) ZK _ _ _
    (Cert.ReferenceIdeal.PRead.val_main_v91 (F := Ideal) (m ((c.tc : Thread nD τ).loc main_arg2)))
    (col_reshape_apply _ (m ((c.tc : Thread nD τ).loc main_arg2)))
    (cnts_eq (F := Ideal) (m ((c.tc : Thread nD τ).loc main_arg2)))
    (row3_reshape_apply _ (m ((c.tc : Thread nD τ).loc main_arg10)))

end Cert.KernelIdeal.Hand

end
-- ==== Proof.KI.RefAlt.lean ====
/-
  The reference program's result as the layered mathematics: its composed term is three propagations (gather a row per
  edge, scale by the product of the two endpoints' factors, sum onto the receiving node, add the bias), a clamp at zero
  and a dense layer between them, then the per-graph sum divided by the clamped counts through the head. Each layer is
  first named as the printed operations applied to the layer before it, whatever the float family; at the ideal values
  each named layer is then read as its sum.
-/
import proofs.«428485_j55886114456268_3_alg».proof.Proof.KI.Chain

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx (ix1 ix2 eq_ix1 eq_ix2)

local notation "sd" => scatter_S100000x128_S1700000x1_S1700000x128_1_0_0_1
local notation "gd" => gather_S100000x128_S1700000x1_S1700000x128_1_0_n_n_0_1_1128
local notation "gd1" => gather_S100000_S1700000x1_S1700000_n_0_n_n_0_1_1

/-! ## The layers, as the printed operations applied to the layer before -/

section Layers

variable {F : FTy → Type} [FloatOps F]

/-- The zero operand of a propagation's scatter. -/
def gZ : FVec F S100000x128 .f32 := broadcastInDim S100000x128 ![] bcast_S_S100000x128 (constant S_ .f32 0x00000000#32)
/-- The zero operand of the per-graph scatter. -/
def gZ64 : FVec F S64x128 .f32 := broadcastInDim S64x128 ![] bcast_S_S64x128 (constant S_ .f32 0x00000000#32)

/-- An edge's normalisation: the product of the factors its two endpoints read. -/
def gNorm (D : FVec F S100000 .f32) (SRC DST : IVec S1700000 32) : FVec F S1700000 .f32 :=
  mulf (Host.gather gd1 D (nrm SRC)) (Host.gather gd1 D (nrm DST))

/-- One propagation: the rows the sources name, each scaled by its edge's normalisation, summed onto the rows the
    targets name, plus the bias along every row. -/
def gProp (SRC DST : IVec S1700000 32) (N : FVec F S1700000 .f32) (Zr : FVec F S100000x128 .f32)
    (h : FVec F S100000x128 .f32) (b : FVec F S128 .f32) : FVec F S100000x128 .f32 :=
  addf
    (Host.scatterAdd sd Zr (raw DST)
      (mulf (Host.gather gd h (nrm SRC))
        (broadcastInDim S1700000x128 ![0, 1] bcast_S1700000x1_S1700000x128_0_1
          (broadcastInDim S1700000x1 ![0] bcast_S1700000_S1700000x1_0 N))))
    (broadcastInDim S100000x128 ![0, 1] bcast_S1x128_S100000x128_0_1 (broadcastInDim S1x128 ![1] bcast_S128_S1x128_1 b))

/-- The clamp at zero. -/
def gRelu (a : FVec F S100000x128 .f32) : FVec F S100000x128 .f32 :=
  maximumf a (broadcastInDim S100000x128 ![] bcast_S_S100000x128 (constant S_ .f32 0x00000000#32))

/-- The head: the rows summed per graph, divided by the counts along every row, contracted with the head's weights,
    the head's bias added along every row. -/
def gTop (bt : IVec S100000 32) (cn : FVec F S64 .f32) (Z64 : FVec F S64x128 .f32) (o3 : FVec F S100000x128 .f32)
    (wl : FVec F S128x3 .f32) (bl : FVec F S3 .f32) : FVec F S64x3 .f32 :=
  addf
    (Host.dotGeneral dot_S64x128_S128x3_S64x3_1_0_0_1_n_n none
      (Host.divf
        (Host.scatterAdd scatter_S64x128_S100000x1_S100000x128_1_0_0_1 Z64
          (broadcastInDim S100000x1 ![0] bcast_S100000_S100000x1_0 bt) o3)
        (broadcastInDim S64x128 ![0, 1] bcast_S64x1_S64x128_0_1 (broadcastInDim S64x1 ![0] bcast_S64_S64x1_0 cn)))
      wl)
    (broadcastInDim S64x3 ![0, 1] bcast_S1x3_S64x3_0_1 (broadcastInDim S1x3 ![1] bcast_S3_S1x3_1 bl))

/-! ### The program's stages are these layers (by unfolding, at any float family) -/

theorem v29_g (x1 : IVec S2x1600000 32) :
    PRead.val_main_v29 (F := F) x1
      = gNorm (PRead.val_main_v14 (F := F) x1) (PRead.val_main_v5 (F := F) x1) (PRead.val_main_v6 (F := F) x1) := rfl

theorem v46_g (x0 : FVec F S100000x10 .f32) (x1 : IVec S2x1600000 32) (x3 : FVec F S10x128 .f32) (x4 : FVec F S128 .f32) :
    PRead.val_main_v46 (F := F) x0 x1 x3 x4
      = gProp (PRead.val_main_v5 (F := F) x1) (PRead.val_main_v6 (F := F) x1) (PRead.val_main_v29 (F := F) x1) gZ
          (PRead.val_main_v30 (F := F) x0 x3) x4 := rfl

theorem v47_g (x0 : FVec F S100000x10 .f32) (x1 : IVec S2x1600000 32) (x3 : FVec F S10x128 .f32) (x4 : FVec F S128 .f32) :
    PRead.val_main_v47 (F := F) x0 x1 x3 x4 = gRelu (PRead.val_main_v46 (F := F) x0 x1 x3 x4) := rfl

theorem v64_g (x0 : FVec F S100000x10 .f32) (x1 : IVec S2x1600000 32) (x3 : FVec F S10x128 .f32) (x4 : FVec F S128 .f32)
    (x5 : FVec F S128x128 .f32) (x6 : FVec F S128 .f32) :
    PRead.val_main_v64 (F := F) x0 x1 x3 x4 x5 x6
      = gProp (PRead.val_main_v5 (F := F) x1) (PRead.val_main_v6 (F := F) x1) (PRead.val_main_v29 (F := F) x1) gZ
          (PRead.val_main_v48 (F := F) x0 x1 x3 x4 x5) x6 := rfl

theorem v65_g (x0 : FVec F S100000x10 .f32) (x1 : IVec S2x1600000 32) (x3 : FVec F S10x128 .f32) (x4 : FVec F S128 .f32)
    (x5 : FVec F S128x128 .f32) (x6 : FVec F S128 .f32) :
    PRead.val_main_v65 (F := F) x0 x1 x3 x4 x5 x6 = gRelu (PRead.val_main_v64 (F := F) x0 x1 x3 x4 x5 x6) := rfl

theorem v82_g (x0 : FVec F S100000x10 .f32) (x1 : IVec S2x1600000 32) (x3 : FVec F S10x128 .f32) (x4 : FVec F S128 .f32)
    (x5 : FVec F S128x128 .f32) (x6 : FVec F S128 .f32) (x7 : FVec F S128x128 .f32) (x8 : FVec F S128 .f32) :
    PRead.val_main_v82 (F := F) x0 x1 x3 x4 x5 x6 x7 x8
      = gProp (PRead.val_main_v5 (F := F) x1) (PRead.val_main_v6 (F := F) x1) (PRead.val_main_v29 (F := F) x1) gZ
          (PRead.val_main_v66 (F := F) x0 x1 x3 x4 x5 x6 x7) x8 := rfl

theorem v98_g (x0 : FVec F S100000x10 .f32) (x1 : IVec S2x1600000 32) (x2 : IVec S100000 32) (x3 : FVec F S10x128 .f32)
    (x4 : FVec F S128 .f32) (x5 : FVec F S128x128 .f32) (x6 : FVec F S128 .f32) (x7 : FVec F S128x128 .f32)
    (x8 : FVec F S128 .f32) (x9 : FVec F S128x3 .f32) (x10 : FVec F S3 .f32) :
    PRead.val_main_v98 (F := F) x0 x1 x2 x3 x4 x5 x6 x7 x8 x9 x10
      = gTop x2 (PRead.val_main_v91 (F := F) x2) gZ64 (PRead.val_main_v82 (F := F) x0 x1 x3 x4 x5 x6 x7 x8) x9 x10 := rfl

end Layers

/-! ## The layers at the ideal values, each over variables -/

section AtIdeal

/-- A vector laid along the first axis of a rectangle, through a column: at `i` it is the vector at `i`'s row. -/
theorem bc_rows_apply {α : Type} {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α)
    (i : (⟨2, ![n, m]⟩ : Shape).Idx) :
    broadcastInDim ⟨2, ![n, m]⟩ ![0, 1] h₂ (broadcastInDim ⟨2, ![n, 1]⟩ ![0] h₁ v) i = v (ix1 (i 0 : Fin n)) := by
  have h := Predicate.bcast_rows h₁ h₂ v (i 0 : Fin n) (i 1 : Fin m)
  have e : Predicate.ij (i 0 : Fin n) (i 1 : Fin m) = i := Predicate.ij_eta i
  exact (congrArg (fun t => broadcastInDim ⟨2, ![n, m]⟩ ![0, 1] h₂ (broadcastInDim ⟨2, ![n, 1]⟩ ![0] h₁ v) t) e).symm.trans
    (h.trans (congrArg v (ofFin_eq_ix1 _)))

/-- A vector laid along the second axis of a rectangle, through a row: at `i` it is the vector at `i`'s column. -/
theorem bc_cols_apply {α : Type} {n m : Nat} (h₁ : (⟨1, ![m]⟩ : Shape).BroadcastsInDim ⟨2, ![1, m]⟩ ![1])
    (h₂ : (⟨2, ![1, m]⟩ : Shape).BroadcastsInDim ⟨2, ![n, m]⟩ ![0, 1]) (v : (⟨1, ![m]⟩ : Shape).Idx → α)
    (i : (⟨2, ![n, m]⟩ : Shape).Idx) :
    broadcastInDim ⟨2, ![n, m]⟩ ![0, 1] h₂ (broadcastInDim ⟨2, ![1, m]⟩ ![1] h₁ v) i = v (ix1 (i 1 : Fin m)) := by
  have h := Predicate.bcast_cols h₁ h₂ v (i 0 : Fin n) (i 1 : Fin m)
  have e : Predicate.ij (i 0 : Fin n) (i 1 : Fin m) = i := Predicate.ij_eta i
  exact (congrArg (fun t => broadcastInDim ⟨2, ![n, m]⟩ ![0, 1] h₂ (broadcastInDim ⟨2, ![1, m]⟩ ![1] h₁ v) t) e).symm.trans
    (h.trans (congrArg v (ofFin_eq_ix1 _)))

/-- The printed zero operands hold zero everywhere. -/
theorem gZ_zero (i : S100000x128.Idx) : (gZ (F := Ideal) i : EReal) = 0 := by
  show Ideal.ofBits .f32 0x00000000#32 = 0
  exact Ideal.ofBits_zero_f32
theorem gZ64_zero (i : S64x128.Idx) : (gZ64 (F := Ideal) i : EReal) = 0 := by
  show Ideal.ofBits .f32 0x00000000#32 = 0
  exact Ideal.ofBits_zero_f32

/-- An edge's update: the gathered row entry times the two endpoints' factors. -/
theorem gUpd_apply (SRC DST : IVec S1700000 32) (D : FVec Ideal S100000 .f32) (h : FVec Ideal S100000x128 .f32)
    (j : S1700000x128.Idx) :
    (mulf (Host.gather gd h (nrm SRC))
        (broadcastInDim S1700000x128 ![0, 1] bcast_S1700000x1_S1700000x128_0_1
          (broadcastInDim S1700000x1 ![0] bcast_S1700000_S1700000x1_0 (gNorm D SRC DST))) j : EReal)
      = h ((gd).operandIdx j (nrm SRC)) *
        (D ((gd1).operandIdx (ix1 (j 0 : Fin 1700000)) (nrm SRC)) * D ((gd1).operandIdx (ix1 (j 0 : Fin 1700000)) (nrm DST))) := by
  rw [ValueIdx.mulf_apply, bc_rows_apply]
  rfl

/-- ONE PROPAGATION at the ideal values is the reference's shape of it. -/
theorem gProp_eq (SRC DST : IVec S1700000 32) (D : FVec Ideal S100000 .f32) (Zr : FVec Ideal S100000x128 .f32)
    (h : FVec Ideal S100000x128 .f32) (b : FVec Ideal S128 .f32) :
    gProp (F := Ideal) SRC DST (gNorm D SRC DST) Zr h b = refProp SRC DST D Zr h b := by
  funext i
  unfold gProp refProp
  rw [ValueIdx.addf_apply, bc_cols_apply]
  refine congrArg (· + b (ix1 (i 1 : Fin 128))) ?_
  exact congrArg (fun u => Ideal.hostScatterAdd sd Zr (raw DST) u i) (funext fun j => gUpd_apply SRC DST D h j)

/-- The clamp. -/
theorem gRelu_eq (a : FVec Ideal S100000x128 .f32) : gRelu (F := Ideal) a = relu a := by
  funext p
  show max (a p) (Ideal.ofBits .f32 0x00000000#32) = max (a p) 0
  rw [Ideal.ofBits_zero_f32]

end AtIdeal

/-! ## The contractions at the ideal values -/

section Contractions

local notation "dot10" => dot_S100000x10_S10x128_S100000x128_1_0_0_1_n_n
local notation "dot128" => dot_S100000x128_S128x128_S100000x128_1_0_0_1_n_n
local notation "dot64" => dot_S64x128_S128x3_S64x3_1_0_0_1_n_n

/-- The first dense layer is the row-by-column sum over the ten features. -/
theorem dense10_eq (x : FVec Ideal S100000x10 .f32) (w : FVec Ideal S10x128 .f32) :
    Host.dotGeneral (F := Ideal) dot10 none x w = dense10 x w := by
  funext p
  refine (PRead.val_main_v30_apply x w p).trans ?_
  unfold dense10
  refine Finset.sum_congr rfl fun k _ => ?_
  have el : PRead.lidx_main_v30 p k = ix2 (p 0 : Fin 100000) k := funext fun a => by
    match a with
    | ⟨0, _⟩ => rfl
    | ⟨1, _⟩ => rfl
  have er : PRead.ridx_main_v30 p k = ix2 k (p 1 : Fin 128) := funext fun a => by
    match a with
    | ⟨0, _⟩ => rfl
    | ⟨1, _⟩ => rfl
  rw [el, er]
  rfl

/-- A dense layer over 128 features is the row-by-column sum. -/
theorem dense128_eq (a : FVec Ideal S100000x128 .f32) (w : FVec Ideal S128x128 .f32) :
    Host.dotGeneral (F := Ideal) dot128 none a w = dense128 a w := by
  funext i
  simp only [Host.dotGeneral]
  rw [Ideal.dotGeneral_apply, ← Equiv.sum_comp (ValueIdx.contrEquiv1 dot128 128 rfl rfl).symm]
  unfold dense128
  refine Finset.sum_congr rfl fun k _ => ?_
  have hk := ValueIdx.contrEquiv1_symm_val dot128 128 rfl rfl k
  have el : (dot128).lhsIdx i ((ValueIdx.contrEquiv1 dot128 128 rfl rfl).symm k) = ix2 (i 0 : Fin 100000) k := funext fun a => Fin.ext (by
    match a with
    | ⟨0, _⟩ => exact PRead.lhs_main_v48_0 _ _
    | ⟨1, _⟩ => exact (PRead.lhs_main_v48_1 _ _).trans hk)
  have er : (dot128).rhsIdx i ((ValueIdx.contrEquiv1 dot128 128 rfl rfl).symm k) = ix2 k (i 1 : Fin 128) := funext fun a => Fin.ext (by
    match a with
    | ⟨0, _⟩ => exact (PRead.rhs_main_v48_0 _ _).trans hk
    | ⟨1, _⟩ => exact PRead.rhs_main_v48_1 _ _)
  rw [el, er]
  rfl

/-- The head's contraction is the row-by-column sum. -/
theorem dot64_apply (q : FVec Ideal S64x128 .f32) (w : FVec Ideal S128x3 .f32) (i : S64x3.Idx) :
    (Host.dotGeneral (F := Ideal) dot64 none q w i : EReal) = ∑ k : Fin 128, q (ix2 (i 0 : Fin 64) k) * w (ix2 k (i 1 : Fin 3)) := by
  simp only [Host.dotGeneral]
  rw [Ideal.dotGeneral_apply, ← Equiv.sum_comp (ValueIdx.contrEquiv1 dot64 128 rfl rfl).symm]
  refine Finset.sum_congr rfl fun k _ => ?_
  have hk := ValueIdx.contrEquiv1_symm_val dot64 128 rfl rfl k
  have el : (dot64).lhsIdx i ((ValueIdx.contrEquiv1 dot64 128 rfl rfl).symm k) = ix2 (i 0 : Fin 64) k := funext fun a => Fin.ext (by
    match a with
    | ⟨0, _⟩ => exact PRead.lhs_main_v95_0 _ _
    | ⟨1, _⟩ => exact (PRead.lhs_main_v95_1 _ _).trans hk)
  have er : (dot64).rhsIdx i ((ValueIdx.contrEquiv1 dot64 128 rfl rfl).symm k) = ix2 k (i 1 : Fin 3) := funext fun a => Fin.ext (by
    match a with
    | ⟨0, _⟩ => exact (PRead.rhs_main_v95_0 _ _).trans hk
    | ⟨1, _⟩ => exact PRead.rhs_main_v95_1 _ _)
  rw [el, er]
  rfl

/-- The result over a variable last layer: the per-graph sum divided by the count, through the head. -/
def resOf (bt : IVec S100000 32) (cn : S64.Idx → EReal) (Z64 : S64x128.Idx → EReal) (o3 : S100000x128.Idx → EReal)
    (wl : S128x3.Idx → EReal) (bl : S3.Idx → EReal) : S64x3.Idx → EReal := fun i =>
  (∑ k : Fin 128,
      Ideal.div (Ideal.hostScatterAdd sd64 Z64 (broadcastInDim S100000x1 ![0] bcast_S100000_S100000x1_0 bt) o3
          (ix2 (i 0 : Fin 64) k)) (cn (ix1 (i 0 : Fin 64)))
        * wl (ix2 k (i 1 : Fin 3)))
    + bl (ix1 (i 1 : Fin 3))

/-- THE HEAD at the ideal values. -/
theorem gTop_eq (bt : IVec S100000 32) (cn : FVec Ideal S64 .f32) (Z64 : FVec Ideal S64x128 .f32)
    (o3 : FVec Ideal S100000x128 .f32) (wl : FVec Ideal S128x3 .f32) (bl : FVec Ideal S3 .f32) :
    gTop (F := Ideal) bt cn Z64 o3 wl bl = resOf bt cn Z64 o3 wl bl := by
  funext i
  unfold gTop resOf
  rw [ValueIdx.addf_apply, bc_cols_apply, dot64_apply]
  refine congrArg (· + bl (ix1 (i 1 : Fin 3))) (Finset.sum_congr rfl fun k _ => ?_)
  rw [ValueIdx.hostDivf_apply, bc_rows_apply]
  rfl

end Contractions

/-! ## The chain -/

section Chain

local notation "dot10" => dot_S100000x10_S10x128_S100000x128_1_0_0_1_n_n
local notation "dot128" => dot_S100000x128_S128x128_S100000x128_1_0_0_1_n_n

/-- THE THREE LAYERS, CHAINED OVER VARIABLES: stages that are, one after the other, the first dense layer, a
    propagation, a clamp, a dense layer, a propagation, a clamp, a dense layer and a propagation end at the reference's
    third layer. -/
theorem chain3 (S Dd : IVec S1700000 32) (D : FVec Ideal S100000 .f32) (Zr : FVec Ideal S100000x128 .f32)
    (x0 : FVec Ideal S100000x10 .f32) (x3 : FVec Ideal S10x128 .f32) (x4 : FVec Ideal S128 .f32)
    (x5 : FVec Ideal S128x128 .f32) (x6 : FVec Ideal S128 .f32) (x7 : FVec Ideal S128x128 .f32) (x8 : FVec Ideal S128 .f32)
    (N : FVec Ideal S1700000 .f32) (hN : N = gNorm D S Dd)
    (d0 o1 a1 d1 o2 a2 d2 o3 : FVec Ideal S100000x128 .f32)
    (hd0 : d0 = Host.dotGeneral (F := Ideal) dot10 none x0 x3)
    (ho1 : o1 = gProp S Dd N Zr d0 x4) (ha1 : a1 = gRelu o1)
    (hd1 : d1 = Host.dotGeneral (F := Ideal) dot128 none a1 x5)
    (ho2 : o2 = gProp S Dd N Zr d1 x6) (ha2 : a2 = gRelu o2)
    (hd2 : d2 = Host.dotGeneral (F := Ideal) dot128 none a2 x7)
    (ho3 : o3 = gProp S Dd N Zr d2 x8) :
    o3 = refOut3 S Dd D x0 x3 x4 x6 x8 x5 x7 Zr := by
  subst hN hd0 ho1 ha1 hd1 ho2 ha2 hd2 ho3
  rw [dense10_eq, gProp_eq, gRelu_eq, dense128_eq, gProp_eq, gRelu_eq, dense128_eq, gProp_eq]
  rfl

/-- The reference's result is the head over its third layer. -/
theorem refRes_eq_resOf (src dst : IVec S1700000 32) (bt : IVec S100000 32) (D : S100000.Idx → EReal)
    (x : S100000x10.Idx → EReal) (w1 : S10x128.Idx → EReal) (b1 b2 b3 : S128.Idx → EReal)
    (w2 w3 : S128x128.Idx → EReal) (wl : S128x3.Idx → EReal) (bl : S3.Idx → EReal) (cn : S64.Idx → EReal)
    (Z : S100000x128.Idx → EReal) (Z64 : S64x128.Idx → EReal) :
    refRes src dst bt D x w1 b1 b2 b3 w2 w3 wl bl cn Z Z64
      = resOf bt cn Z64 (refOut3 src dst D x w1 b1 b2 b3 w2 w3 Z) wl bl := rfl

/-- The program's last stage, over variables for its arguments, is the reference's result of the stages that read
    the edge list. -/
theorem val98_eq (x0 : FVec Ideal S100000x10 .f32) (x1 : IVec S2x1600000 32) (x2 : IVec S100000 32)
    (x3 : FVec Ideal S10x128 .f32) (x4 : FVec Ideal S128 .f32) (x5 : FVec Ideal S128x128 .f32) (x6 : FVec Ideal S128 .f32)
    (x7 : FVec Ideal S128x128 .f32) (x8 : FVec Ideal S128 .f32) (x9 : FVec Ideal S128x3 .f32) (x10 : FVec Ideal S3 .f32) :
    PRead.val_main_v98 (F := Ideal) x0 x1 x2 x3 x4 x5 x6 x7 x8 x9 x10
      = refRes (PRead.val_main_v5 (F := Ideal) x1) (PRead.val_main_v6 (F := Ideal) x1) x2 (PRead.val_main_v14 (F := Ideal) x1)
          x0 x3 x4 x6 x8 x5 x7 x9 x10 (PRead.val_main_v91 (F := Ideal) x2) (gZ (F := Ideal)) (gZ64 (F := Ideal)) := by
  have h3 : PRead.val_main_v82 (F := Ideal) x0 x1 x3 x4 x5 x6 x7 x8
      = refOut3 (PRead.val_main_v5 (F := Ideal) x1) (PRead.val_main_v6 (F := Ideal) x1) (PRead.val_main_v14 (F := Ideal) x1)
          x0 x3 x4 x6 x8 x5 x7 (gZ (F := Ideal)) :=
    chain3 (PRead.val_main_v5 (F := Ideal) x1) (PRead.val_main_v6 (F := Ideal) x1) (PRead.val_main_v14 (F := Ideal) x1) (gZ (F := Ideal))
      x0 x3 x4 x5 x6 x7 x8 (PRead.val_main_v29 (F := Ideal) x1) (v29_g x1)
      (PRead.val_main_v30 (F := Ideal) x0 x3) (PRead.val_main_v46 (F := Ideal) x0 x1 x3 x4)
      (PRead.val_main_v47 (F := Ideal) x0 x1 x3 x4) (PRead.val_main_v48 (F := Ideal) x0 x1 x3 x4 x5)
      (PRead.val_main_v64 (F := Ideal) x0 x1 x3 x4 x5 x6) (PRead.val_main_v65 (F := Ideal) x0 x1 x3 x4 x5 x6)
      (PRead.val_main_v66 (F := Ideal) x0 x1 x3 x4 x5 x6 x7) (PRead.val_main_v82 (F := Ideal) x0 x1 x3 x4 x5 x6 x7 x8)
      rfl (v46_g x0 x1 x3 x4) (v47_g x0 x1 x3 x4) rfl (v64_g x0 x1 x3 x4 x5 x6) (v65_g x0 x1 x3 x4 x5 x6) rfl
      (v82_g x0 x1 x3 x4 x5 x6 x7 x8)
  refine (v98_g x0 x1 x2 x3 x4 x5 x6 x7 x8 x9 x10).trans ((gTop_eq _ _ _ _ _ _).trans ?_)
  rw [h3]
  rfl

end Chain

/-! ## The reference program's result -/

/-- The printed zero operands of the two scatters hold zero everywhere. -/
theorem refZ_zero (i : S100000x128.Idx) :
    (broadcastInDim S100000x128 ![] bcast_S_S100000x128 (constant (F := Ideal) S_ .f32 0x00000000#32) i : EReal) = 0 :=
  gZ_zero i
theorem refZ64_zero (i : S64x128.Idx) :
    (broadcastInDim S64x128 ![] bcast_S_S64x128 (constant (F := Ideal) S_ .f32 0x00000000#32) i : EReal) = 0 :=
  gZ64_zero i

/-- THE REFERENCE'S SIDE: the value the reference program's run leaves in its result is the layered mathematics, of the
    launch arguments, of the edge lists and the per-node factor the program's first stages make of them, of the
    clamped counts, and of the two printed zero operands. -/
theorem ref_side (m : (ℓ : Loc nD τ sig) → Buf (Elt Ideal) ℓ) (c : Dev nD) :
    PValue.res_out0 m c
      = refRes (PRead.val_main_v5 (F := Ideal) (m ((c.tc : Thread nD τ).loc main_arg1)))
          (PRead.val_main_v6 (F := Ideal) (m ((c.tc : Thread nD τ).loc main_arg1)))
          (m ((c.tc : Thread nD τ).loc main_arg2))
          (PRead.val_main_v14 (F := Ideal) (m ((c.tc : Thread nD τ).loc main_arg1)))
          (m ((c.tc : Thread nD τ).loc main_arg0)) (m ((c.tc : Thread nD τ).loc main_arg3))
          (m ((c.tc : Thread nD τ).loc main_arg4)) (m ((c.tc : Thread nD τ).loc main_arg6))
          (m ((c.tc : Thread nD τ).loc main_arg8)) (m ((c.tc : Thread nD τ).loc main_arg5))
          (m ((c.tc : Thread nD τ).loc main_arg7)) (m ((c.tc : Thread nD τ).loc main_arg9))
          (m ((c.tc : Thread nD τ).loc main_arg10))
          (PRead.val_main_v91 (F := Ideal) (m ((c.tc : Thread nD τ).loc main_arg2)))
          (broadcastInDim S100000x128 ![] bcast_S_S100000x128 (constant (F := Ideal) S_ .f32 0x00000000#32))
          (broadcastInDim S64x128 ![] bcast_S_S64x128 (constant (F := Ideal) S_ .f32 0x00000000#32)) :=
  (PRead.val_main_v98_eq m c).trans
    (val98_eq (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)))

end Cert.ReferenceIdeal.Hand

end
-- ==== Proof.KI.Bridge.lean ====
/-
  The two results are one function of the arguments: the kernel program's result buffer, read through its four
  regions and the host stretches between them, is the kernel-shaped chain of plain arrays; the reference's composed
  term is the reference-shaped chain; and the two chains agree because every node's normalisation factor is a
  non-negative real.
-/
import proofs.«428485_j55886114456268_3_alg».proof.Proof.KI.KerSide
import proofs.«428485_j55886114456268_3_alg».proof.Proof.KI.RefAlt

noncomputable section

namespace Cert.KernelIdeal.Hand

open Cert.KernelIdeal Idealize.ShloMosaic Idealize.ShloMosaic.TcCoe Idealize.SL.Sem

/-- From memories that agree on the eleven arguments, the kernel program's result buffer after its run and the
    reference's result term are equal, element by element, as extended reals. -/
theorem bridge (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10)) :
    outs m 10 main_v64 c = Cert.ReferenceIdeal.PValue.res_out0 m' c := by
  rw [ker_side m c, Cert.ReferenceIdeal.Hand.ref_side m' c, h0, h1, h2, h3, h4, h5, h6, h7, h8, h9, h10]
  exact Cert.ReferenceIdeal.Hand.ker_eq_ref _ _ _ _ _ _ _ _ _ _ _ _ _ _ _ _
    (Cert.ReferenceIdeal.Hand.dis_nonneg _) hZK Cert.ReferenceIdeal.Hand.refZ64_zero

end Cert.KernelIdeal.Hand

end
-- ==== Proof.lean ====
/-
  A three-layer graph convolution with symmetric normalisation, a per-graph mean and a linear head, computed by four
  kernel regions with host gathers and segment sums between them, against its plain reference — over the extended reals.

  The reference scales every edge's message by the product `dis src · dis dst` of its endpoints' factors before the
  segment sum onto `dst`; the kernel program scales each node's row by its own factor before the gather and each
  aggregated row by the receiving node's factor afterwards. A factor is `rsqrt deg` where `deg > 0` and `0` elsewhere:
  a non-negative REAL whatever extended real `deg` is, and a non-negative real distributes over any sum of extended
  reals; multiplication is commutative and associative there. So the two agree layer by layer, with no finiteness of
  the features or weights used. Negative or out-of-range edge and graph indices are read the same way by both programs
  (a gather clamps after wrapping a negative index once, a segment sum drops what lands outside), and an edge that
  lands on row `i` has `dst = i` exactly, so the factor the reference gathers by `dst` is row `i`'s. The pooling
  kernel's one-hot contraction, accumulated over twenty row blocks, is the segment sum over graph ids; both programs
  then divide by the same clamped counts and apply the same head.

  The frames: the kernel program's run is the several-regions launch over one record per region (three regions whose
  bodies load, compute and store whole blocks; a fourth that carries a scratch accumulator from grid point to grid
  point, resets it at the first and writes the output at the last), stated at any float instance, so that it serves
  the word-level program and the idealized one alike; the reference's run is its operations' composed term.
-/
import proofs.«428485_j55886114456268_3_alg».proof.Defs
import proofs.«428485_j55886114456268_3_alg».proof.Proof.Gen.Kernel
import proofs.«428485_j55886114456268_3_alg».proof.Proof.Gen.KernelIdeal
import proofs.«428485_j55886114456268_3_alg».proof.Proof.Gen.ReferenceIdeal
import proofs.«428485_j55886114456268_3_alg».proof.Proof.Gen.Pre_finite_inputs
import proofs.«428485_j55886114456268_3_alg».proof.Proof.K.Run
import proofs.«428485_j55886114456268_3_alg».proof.Proof.KI.Run
import proofs.«428485_j55886114456268_3_alg».proof.Proof.KI.Bridge
import Idealize.ShloMosaic.Adequacy
import Idealize.ShloMosaic.Init

noncomputable section

namespace Cert.Proof

open Idealize.ShloMosaic Idealize.SL.Sem

/-- The word-level program runs to the end, faults nowhere and leaves its arguments as launched: its run, the result
    forgotten. -/
theorem frame_kernel : Cert.frame_Kernel := fun m ρ _ =>
  (θ_run Cert.Kernel.defs _ _).mono (fun _ h c => (h c).2) (Cert.Kernel.Hand.run (F := Bits) m ρ)

/-- The same run at the ideal instance. -/
theorem frame_kernelIdeal : Cert.frame_KernelIdeal := fun m ρ _ =>
  (θ_run Cert.KernelIdeal.defs _ _).mono (fun _ h c => (h c).2) (Cert.KernelIdeal.Hand.run (F := Ideal) m ρ)

/-- The reference is host operations only: its run, the result forgotten. -/
theorem frame_reference : Cert.frame_ReferenceIdeal := fun m ρ _ =>
  (θ_run Cert.ReferenceIdeal.defs _ _).mono (fun _ h c => (h c).2) (Cert.ReferenceIdeal.PValue.run (F := Ideal) m ρ)

/-- Both programs run from memories that agree on the arguments; the kernel program's result buffer ends at the last
    region's write-back, the reference's at its operations' composed term, and the two are one function of the
    arguments. -/
theorem algebraic : Cert.algebraic_KernelIdeal_ReferenceIdeal := by
  intro m ρ m' ρ' _ hagree
  refine ⟨fun c => Cert.KernelIdeal.Hand.outs m 10 Cert.KernelIdeal.main_v64 c, Cert.KernelIdeal.Hand.run (F := Ideal) m ρ, ?_⟩
  refine (θ_run Cert.ReferenceIdeal.defs _ _).mono (fun _ h c => ⟨(h c).1.trans ?_, (h c).2⟩)
    (Cert.ReferenceIdeal.PValue.run (F := Ideal) m' ρ')
  obtain ⟨h0, h1, h2, h3, h4, h5, h6, h7, h8, h9, h10⟩ := hagree c
  exact (Cert.KernelIdeal.Hand.bridge m m' c h0 h1 h2 h3 h4 h5 h6 h7 h8 h9 h10).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
